-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500x128 : Shape := ⟨2, ![500, 128]⟩
abbrev S365x64 : Shape := ⟨2, ![365, 64]⟩
abbrev S128x320 : Shape := ⟨2, ![128, 320]⟩
abbrev S128 : Shape := ⟨1, ![128]⟩
abbrev S128x128 : Shape := ⟨2, ![128, 128]⟩
abbrev S64x64 : Shape := ⟨2, ![64, 64]⟩
abbrev S64 : Shape := ⟨1, ![64]⟩
abbrev S500000 : Shape := ⟨1, ![500000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S365x64 : S_.BroadcastsInDim S365x64 (![] : Fin 0 → Fin S365x64.rank)
  reducesTo_S365x64_S_d0_1 : S365x64.ReducesTo [0, 1] S_
  bcast_S_S128x320 : S_.BroadcastsInDim S128x320 (![] : Fin 0 → Fin S128x320.rank)
  reducesTo_S128x320_S_d0_1 : S128x320.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S500000 : S_.BroadcastsInDim S500000 (![] : Fin 0 → Fin S500000.rank)
  reducesTo_S500000_S_d0 : S500000.ReducesTo [0] S_

variable [Facts]

def fn_part4 {F : FTy → Type} [FloatOps F] (main_arg14 : IVec S500000 32) (main_arg15 : IVec S500000 32) (main_v67 : IVec S_ 1) : IVec S_ 1 :=
  let main_c_26 : IVec S_ 32 := constantI S_ 32 0#32
  let main_v68 : IVec S500000 32 := broadcastInDim S500000 ![] bcast_S_S500000 main_c_26
  let main_v69 : IVec S500000 1 := cmpi .sge main_arg14 main_v68
  let main_c_27 : IVec S_ 32 := constantI S_ 32 365#32
  let main_v70 : IVec S500000 32 := broadcastInDim S500000 ![] bcast_S_S500000 main_c_27
  let main_v71 : IVec S500000 1 := cmpi .slt main_arg14 main_v70
  let main_v72 : IVec S500000 1 := andi main_v69 main_v71
  let main_c_28 : IVec S_ 1 := constantI S_ 1 1#1
  let main_v73 : IVec S_ 1 := (fun x v => Host.reduce IntOp.andi x v reducesTo_S500000_S_d0 h_S_) main_v72 main_c_28
  let main_v74 : IVec S_ 1 := andi main_v67 main_v73
  let main_c_29 : IVec S_ 32 := constantI S_ 32 0#32
  let main_v75 : IVec S500000 32 := broadcastInDim S500000 ![] bcast_S_S500000 main_c_29
  let main_v76 : IVec S500000 1 := cmpi .eq main_arg15 main_v75
  let main_c_30 : IVec S_ 32 := constantI S_ 32 1#32
  let main_v77 : IVec S500000 32 := broadcastInDim S500000 ![] bcast_S_S500000 main_c_30
  let main_v78 : IVec S500000 1 := cmpi .eq main_arg15 main_v77
  let main_v79 : IVec S500000 1 := ori main_v76 main_v78
  let main_c_31 : IVec S_ 1 := constantI S_ 1 1#1
  let main_v80 : IVec S_ 1 := (fun x v => Host.reduce IntOp.andi x v reducesTo_S500000_S_d0 h_S_) main_v79 main_c_31
  let main_v81 : IVec S_ 1 := andi main_v74 main_v80
  main_v81

def fn_part3 {F : FTy → Type} [FloatOps F] (main_arg11 : IVec S500000 32) (main_arg13 : IVec S500000 32) (main_arg14 : IVec S500000 32) (main_arg15 : IVec S500000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_c_20 : IVec S_ 32 := constantI S_ 32 0#32
  let main_v54 : IVec S500000 32 := broadcastInDim S500000 ![] bcast_S_S500000 main_c_20
  let main_v55 : IVec S500000 1 := cmpi .sge main_arg11 main_v54
  let main_c_21 : IVec S_ 32 := constantI S_ 32 50000#32
  let main_v56 : IVec S500000 32 := broadcastInDim S500000 ![] bcast_S_S500000 main_c_21
  let main_v57 : IVec S500000 1 := cmpi .slt main_arg11 main_v56
  let main_v58 : IVec S500000 1 := andi main_v55 main_v57
  let main_c_22 : IVec S_ 1 := constantI S_ 1 1#1
  let main_v59 : IVec S_ 1 := (fun x v => Host.reduce IntOp.andi x v reducesTo_S500000_S_d0 h_S_) main_v58 main_c_22
  let main_v60 : IVec S_ 1 := andi main_v53 main_v59
  let main_c_23 : IVec S_ 32 := constantI S_ 32 0#32
  let main_v61 : IVec S500000 32 := broadcastInDim S500000 ![] bcast_S_S500000 main_c_23
  let main_v62 : IVec S500000 1 := cmpi .sge main_arg13 main_v61
  let main_c_24 : IVec S_ 32 := constantI S_ 32 500#32
  let main_v63 : IVec S500000 32 := broadcastInDim S500000 ![] bcast_S_S500000 main_c_24
  let main_v64 : IVec S500000 1 := cmpi .slt main_arg13 main_v63
  let main_v65 : IVec S500000 1 := andi main_v62 main_v64
  let main_c_25 : IVec S_ 1 := constantI S_ 1 1#1
  let main_v66 : IVec S_ 1 := (fun x v => Host.reduce IntOp.andi x v reducesTo_S500000_S_d0 h_S_) main_v65 main_c_25
  let main_v67 : IVec S_ 1 := andi main_v60 main_v66
  fn_part4 (F := F) main_arg14 main_arg15 main_v67

def fn_part2 {F : FTy → Type} [FloatOps F] (main_arg7 : FVec F S128x128 .f32) (main_arg8 : FVec F S128 .f32) (main_arg9 : FVec F S64x64 .f32) (main_arg10 : FVec F S64 .f32) (main_arg11 : IVec S500000 32) (main_arg13 : IVec S500000 32) (main_arg14 : IVec S500000 32) (main_arg15 : IVec S500000 32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg13 main_arg14 main_arg15 main_v48 main_v49 main_v50

def fn_part1 {F : FTy → Type} [FloatOps F] (main_arg4 : FVec F S128 .f32) (main_arg5 : FVec F S128x320 .f32) (main_arg6 : FVec F S128 .f32) (main_arg7 : FVec F S128x128 .f32) (main_arg8 : FVec F S128 .f32) (main_arg9 : FVec F S64x64 .f32) (main_arg10 : FVec F S64 .f32) (main_arg11 : IVec S500000 32) (main_arg13 : IVec S500000 32) (main_arg14 : IVec S500000 32) (main_arg15 : IVec S500000 32) (main_v13 : IVec S_ 1) (main_v16 : IVec S128x320 1) : IVec S_ 1 :=
  let main_c_5 : IVec S_ 1 := constantI S_ 1 1#1
  let main_v17 : IVec S_ 1 := (fun x v => Host.reduce IntOp.andi x v reducesTo_S128x320_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x320 .f32 := Host.absf main_arg5
  let main_cst_8 : FVec F S_ .f32 := constant S_ .f32 0x7F800000#32
  let main_v25 : FVec F S128x320 .f32 := broadcastInDim S128x320 ![] bcast_S_S128x320 main_cst_8
  let main_v26 : IVec S128x320 1 := cmpf .olt main_v24 main_v25
  let main_c_9 : IVec S_ 1 := constantI S_ 1 1#1
  let main_v27 : IVec S_ 1 := (fun x v => Host.reduce IntOp.andi x v reducesTo_S128x320_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg13 main_arg14 main_arg15 main_v33

def fn {F : FTy → Type} [FloatOps F] (main_arg0 : FVec F S50000x128 .f32) (main_arg1 : FVec F S500x128 .f32) (main_arg2 : FVec F S365x64 .f32) (main_arg3 : FVec F S128x320 .f32) (main_arg4 : FVec F S128 .f32) (main_arg5 : FVec F S128x320 .f32) (main_arg6 : FVec F S128 .f32) (main_arg7 : FVec F S128x128 .f32) (main_arg8 : FVec F S128 .f32) (main_arg9 : FVec F S64x64 .f32) (main_arg10 : FVec F S64 .f32) (main_arg11 : IVec S500000 32) (main_arg12 : IVec S500000 32) (main_arg13 : IVec S500000 32) (main_arg14 : IVec S500000 32) (main_arg15 : IVec S500000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500x128 .f32 := Host.absf main_arg1
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S365x64 .f32 := Host.absf main_arg2
  let main_cst_2 : FVec F S_ .f32 := constant S_ .f32 0x7F800000#32
  let main_v10 : FVec F S365x64 .f32 := broadcastInDim S365x64 ![] bcast_S_S365x64 main_cst_2
  let main_v11 : IVec S365x64 1 := cmpf .olt main_v9 main_v10
  let main_c_3 : IVec S_ 1 := constantI S_ 1 1#1
  let main_v12 : IVec S_ 1 := (fun x v => Host.reduce IntOp.andi x v reducesTo_S365x64_S_d0_1 h_S_) main_v11 main_c_3
  let main_v13 : IVec S_ 1 := andi main_v8 main_v12
  let main_v14 : FVec F S128x320 .f32 := Host.absf main_arg3
  let main_cst_4 : FVec F S_ .f32 := constant S_ .f32 0x7F800000#32
  let main_v15 : FVec F S128x320 .f32 := broadcastInDim S128x320 ![] bcast_S_S128x320 main_cst_4
  let main_v16 : IVec S128x320 1 := cmpf .olt main_v14 main_v15
  fn_part1 (F := F) main_arg4 main_arg5 main_arg6 main_arg7 main_arg8 main_arg9 main_arg10 main_arg11 main_arg13 main_arg14 main_arg15 main_v13 main_v16
-- ==== Kernel.lean ====
abbrev S50000x128 : Shape := ⟨2, ![50000, 128]⟩
abbrev S500x128 : Shape := ⟨2, ![500, 128]⟩
abbrev S365x64 : Shape := ⟨2, ![365, 64]⟩
abbrev S128x320 : Shape := ⟨2, ![128, 320]⟩
abbrev S128 : Shape := ⟨1, ![128]⟩
abbrev S128x128 : Shape := ⟨2, ![128, 128]⟩
abbrev S64x64 : Shape := ⟨2, ![64, 64]⟩
abbrev S64 : Shape := ⟨1, ![64]⟩
abbrev S500000 : Shape := ⟨1, ![500000]⟩
abbrev S128x64 : Shape := ⟨2, ![128, 64]⟩
abbrev S64x128 : Shape := ⟨2, ![64, 128]⟩
abbrev S1x128 : Shape := ⟨2, ![1, 128]⟩
abbrev S2x500x128 : Shape := ⟨3, ![2, 500, 128]⟩
abbrev S1x500x128 : Shape := ⟨3, ![1, 500, 128]⟩
abbrev S2x50000x128 : Shape := ⟨3, ![2, 50000, 128]⟩
abbrev S5000x128 : Shape := ⟨2, ![5000, 128]⟩
abbrev S2x5000x128 : Shape := ⟨3, ![2, 5000, 128]⟩
abbrev S1x5000x128 : Shape := ⟨3, ![1, 5000, 128]⟩
abbrev S2x365x128 : Shape := ⟨3, ![2, 365, 128]⟩
abbrev S365x128 : Shape := ⟨2, ![365, 128]⟩
abbrev S1x365x128 : Shape := ⟨3, ![1, 365, 128]⟩
abbrev S1000x128 : Shape := ⟨2, ![1000, 128]⟩
abbrev S100000x128 : Shape := ⟨2, ![100000, 128]⟩
abbrev S730x128 : Shape := ⟨2, ![730, 128]⟩
abbrev S_ : Shape := ⟨0, ![]⟩
abbrev S500000x1 : Shape := ⟨2, ![500000, 1]⟩
abbrev S500000x128 : Shape := ⟨2, ![500000, 128]⟩
abbrev S50000 : Shape := ⟨1, ![50000]⟩
abbrev S50000x1 : Shape := ⟨2, ![50000, 1]⟩
abbrev S5000x1 : Shape := ⟨2, ![5000, 1]⟩
abbrev S1x64 : Shape := ⟨2, ![1, 64]⟩

abbrev nBuf : Space → Nat
  | .hbm => 107
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S500x128, .f32⟩
  | .hbm, ⟨2, _⟩ => ⟨S365x64, .f32⟩
  | .hbm, ⟨3, _⟩ => ⟨S128x320, .f32⟩
  | .hbm, ⟨4, _⟩ => ⟨S128, .f32⟩
  | .hbm, ⟨5, _⟩ => ⟨S128x320, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S64x64, .f32⟩
  | .hbm, ⟨10, _⟩ => ⟨S64, .f32⟩
  | .hbm, ⟨11, _⟩ => ⟨S500000, .i32⟩
  | .hbm, ⟨12, _⟩ => ⟨S500000, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S128x128, .f32⟩
  | .hbm, ⟨17, _⟩ => ⟨S128x128, .f32⟩
  | .hbm, ⟨18, _⟩ => ⟨S128x64, .f32⟩
  | .hbm, ⟨19, _⟩ => ⟨S128x128, .f32⟩
  | .hbm, ⟨20, _⟩ => ⟨S128x128, .bf16⟩
  | .hbm, ⟨21, _⟩ => ⟨S128x128, .f32⟩
  | .hbm, ⟨22, _⟩ => ⟨S128x128, .bf16⟩
  | .hbm, ⟨23, _⟩ => ⟨S64x128, .f32⟩
  | .hbm, ⟨24, _⟩ => ⟨S64x128, .bf16⟩
  | .hbm, ⟨25, _⟩ => ⟨S128x128, .f32⟩
  | .hbm, ⟨26, _⟩ => ⟨S128x128, .f32⟩
  | .hbm, ⟨27, _⟩ => ⟨S128x64, .f32⟩
  | .hbm, ⟨28, _⟩ => ⟨S128x128, .f32⟩
  | .hbm, ⟨29, _⟩ => ⟨S128x128, .bf16⟩
  | .hbm, ⟨30, _⟩ => ⟨S128x128, .f32⟩
  | .hbm, ⟨31, _⟩ => ⟨S128x128, .bf16⟩
  | .hbm, ⟨32, _⟩ => ⟨S64x128, .f32⟩
  | .hbm, ⟨33, _⟩ => ⟨S64x128, .bf16⟩
  | .hbm, ⟨34, _⟩ => ⟨S500x128, .bf16⟩
  | .hbm, ⟨35, _⟩ => ⟨S50000x128, .bf16⟩
  | .hbm, ⟨36, _⟩ => ⟨S365x64, .bf16⟩
  | .hbm, ⟨37, _⟩ => ⟨S1x128, .f32⟩
  | .hbm, ⟨38, _⟩ => ⟨S1x128, .f32⟩
  | .hbm, ⟨39, _⟩ => ⟨S2x500x128, .bf16⟩
  | .hbm, ⟨40, _⟩ => ⟨S2x50000x128, .f32⟩
  | .hbm, ⟨41, _⟩ => ⟨S2x365x128, .bf16⟩
  | .hbm, ⟨42, _⟩ => ⟨S1000x128, .bf16⟩
  | .hbm, ⟨43, _⟩ => ⟨S100000x128, .f32⟩
  | .hbm, ⟨44, _⟩ => ⟨S730x128, .bf16⟩
  | .hbm, ⟨45, _⟩ => ⟨S_, .i32⟩
  | .hbm, ⟨46, _⟩ => ⟨S500000, .i32⟩
  | .hbm, ⟨47, _⟩ => ⟨S500000, .i32⟩
  | .hbm, ⟨48, _⟩ => ⟨S500000, .i32⟩
  | .hbm, ⟨49, _⟩ => ⟨S_, .i32⟩
  | .hbm, ⟨50, _⟩ => ⟨S500000, .i32⟩
  | .hbm, ⟨51, _⟩ => ⟨S500000, .i32⟩
  | .hbm, ⟨52, _⟩ => ⟨S500000, .i32⟩
  | .hbm, ⟨53, _⟩ => ⟨S_, .i32⟩
  | .hbm, ⟨54, _⟩ => ⟨S500000, .i32⟩
  | .hbm, ⟨55, _⟩ => ⟨S500000, .i32⟩
  | .hbm, ⟨56, _⟩ => ⟨S500000, .i32⟩
  | .hbm, ⟨57, _⟩ => ⟨S_, .i32⟩
  | .hbm, ⟨58, _⟩ => ⟨S500000, .i32⟩
  | .hbm, ⟨59, _⟩ => ⟨S500000, .i1⟩
  | .hbm, ⟨60, _⟩ => ⟨S_, .i32⟩
  | .hbm, ⟨61, _⟩ => ⟨S500000, .i32⟩
  | .hbm, ⟨62, _⟩ => ⟨S500000, .i32⟩
  | .hbm, ⟨63, _⟩ => ⟨S500000, .i32⟩
  | .hbm, ⟨64, _⟩ => ⟨S500000x1, .i32⟩
  | .hbm, ⟨65, _⟩ => ⟨S500000x128, .bf16⟩
  | .hbm, ⟨66, _⟩ => ⟨S_, .i32⟩
  | .hbm, ⟨67, _⟩ => ⟨S500000, .i32⟩
  | .hbm, ⟨68, _⟩ => ⟨S500000, .i1⟩
  | .hbm, ⟨69, _⟩ => ⟨S_, .i32⟩
  | .hbm, ⟨70, _⟩ => ⟨S500000, .i32⟩
  | .hbm, ⟨71, _⟩ => ⟨S500000, .i32⟩
  | .hbm, ⟨72, _⟩ => ⟨S500000, .i32⟩
  | .hbm, ⟨73, _⟩ => ⟨S500000x1, .i32⟩
  | .hbm, ⟨74, _⟩ => ⟨S500000x128, .f32⟩
  | .hbm, ⟨75, _⟩ => ⟨S_, .i32⟩
  | .hbm, ⟨76, _⟩ => ⟨S500000, .i32⟩
  | .hbm, ⟨77, _⟩ => ⟨S500000, .i1⟩
  | .hbm, ⟨78, _⟩ => ⟨S_, .i32⟩
  | .hbm, ⟨79, _⟩ => ⟨S500000, .i32⟩
  | .hbm, ⟨80, _⟩ => ⟨S500000, .i32⟩
  | .hbm, ⟨81, _⟩ => ⟨S500000, .i32⟩
  | .hbm, ⟨82, _⟩ => ⟨S500000x1, .i32⟩
  | .hbm, ⟨83, _⟩ => ⟨S500000x128, .bf16⟩
  | .hbm, ⟨84, _⟩ => ⟨S500000x128, .f32⟩
  | .hbm, ⟨85, _⟩ => ⟨S500000x128, .f32⟩
  | .hbm, ⟨86, _⟩ => ⟨S500000x128, .f32⟩
  | .hbm, ⟨87, _⟩ => ⟨S500000x128, .f32⟩
  | .hbm, ⟨88, _⟩ => ⟨S_, .f32⟩
  | .hbm, ⟨89, _⟩ => ⟨S50000x128, .f32⟩
  | .hbm, ⟨90, _⟩ => ⟨S500000x1, .i32⟩
  | .hbm, ⟨91, _⟩ => ⟨S50000x128, .f32⟩
  | .hbm, ⟨92, _⟩ => ⟨S_, .f32⟩
  | .hbm, ⟨93, _⟩ => ⟨S500000, .f32⟩
  | .hbm, ⟨94, _⟩ => ⟨S_, .f32⟩
  | .hbm, ⟨95, _⟩ => ⟨S50000, .f32⟩
  | .hbm, ⟨96, _⟩ => ⟨S500000x1, .i32⟩
  | .hbm, ⟨97, _⟩ => ⟨S50000, .f32⟩
  | .hbm, ⟨98, _⟩ => ⟨S128x128, .f32⟩
  | .hbm, ⟨99, _⟩ => ⟨S128x128, .bf16⟩
  | .hbm, ⟨100, _⟩ => ⟨S1x128, .f32⟩
  | .hbm, ⟨101, _⟩ => ⟨S50000x1, .f32⟩
  | .hbm, ⟨102, _⟩ => ⟨S50000x128, .f32⟩
  | .hbm, ⟨103, _⟩ => ⟨S64x64, .f32⟩
  | .hbm, ⟨104, _⟩ => ⟨S64x64, .bf16⟩
  | .hbm, ⟨105, _⟩ => ⟨S1x64, .f32⟩
  | .hbm, ⟨106, _⟩ => ⟨S365x64, .f32⟩
  | .local _ .vmem, ⟨0, _⟩ => ⟨S500x128, .bf16⟩
  | .local _ .vmem, ⟨1, _⟩ => ⟨S128x128, .bf16⟩
  | .local _ .vmem, ⟨2, _⟩ => ⟨S128x128, .bf16⟩
  | .local _ .vmem, ⟨3, _⟩ => ⟨S1x128, .f32⟩
  | .local _ .vmem, ⟨4, _⟩ => ⟨S1x128, .f32⟩
  | .local _ .vmem, ⟨5, _⟩ => ⟨S2x500x128, .bf16⟩
  | .local _ .vmem, ⟨6, _⟩ => ⟨S5000x128, .bf16⟩
  | .local _ .vmem, ⟨7, _⟩ => ⟨S5000x128, .bf16⟩
  | .local _ .vmem, ⟨8, _⟩ => ⟨S128x128, .bf16⟩
  | .local _ .vmem, ⟨9, _⟩ => ⟨S128x128, .bf16⟩
  | .local _ .vmem, ⟨10, _⟩ => ⟨S2x5000x128, .f32⟩
  | .local _ .vmem, ⟨11, _⟩ => ⟨S2x5000x128, .f32⟩
  | .local _ .vmem, ⟨12, _⟩ => ⟨S365x64, .bf16⟩
  | .local _ .vmem, ⟨13, _⟩ => ⟨S64x128, .bf16⟩
  | .local _ .vmem, ⟨14, _⟩ => ⟨S64x128, .bf16⟩
  | .local _ .vmem, ⟨15, _⟩ => ⟨S2x365x128, .bf16⟩
  | .local _ .vmem, ⟨16, _⟩ => ⟨S5000x128, .bf16⟩
  | .local _ .vmem, ⟨17, _⟩ => ⟨S5000x128, .bf16⟩
  | .local _ .vmem, ⟨18, _⟩ => ⟨S5000x128, .f32⟩
  | .local _ .vmem, ⟨19, _⟩ => ⟨S5000x128, .f32⟩
  | .local _ .vmem, ⟨20, _⟩ => ⟨S5000x1, .f32⟩
  | .local _ .vmem, ⟨21, _⟩ => ⟨S5000x1, .f32⟩
  | .local _ .vmem, ⟨22, _⟩ => ⟨S128x128, .bf16⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S365x64, .f32⟩
  | .local _ .vmem, ⟨27, _⟩ => ⟨S64x64, .bf16⟩
  | .local _ .vmem, ⟨28, _⟩ => ⟨S1x64, .f32⟩
  | .local _ .vmem, ⟨29, _⟩ => ⟨S365x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_1 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_2 : Ref sig .tc := ⟨.hbm, 57, rfl⟩
abbrev main_v38 : Ref sig .tc := ⟨.hbm, 58, rfl⟩
abbrev main_v39 : Ref sig .tc := ⟨.hbm, 59, rfl⟩
abbrev main_c_3 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_4 : Ref sig .tc := ⟨.hbm, 66, rfl⟩
abbrev main_v45 : Ref sig .tc := ⟨.hbm, 67, rfl⟩
abbrev main_v46 : Ref sig .tc := ⟨.hbm, 68, rfl⟩
abbrev main_c_5 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_6 : Ref sig .tc := ⟨.hbm, 75, rfl⟩
abbrev main_v52 : Ref sig .tc := ⟨.hbm, 76, rfl⟩
abbrev main_v53 : Ref sig .tc := ⟨.hbm, 77, rfl⟩
abbrev main_c_7 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_8 : Ref sig .tc := ⟨.hbm, 92, rfl⟩
abbrev main_v66 : Ref sig .tc := ⟨.hbm, 93, rfl⟩
abbrev main_cst_9 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem3_0 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem1_0 : DmaSem sig := 27
abbrev cc4_sem2_0 : DmaSem sig := 28
abbrev cc4_sem3_0 : DmaSem sig := 29

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S500x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x500x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2x5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 1 → Memref sig .tc .vmem S365x64 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S64x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2x365x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S365x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S365x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S128x320_S128x128_0_0 : S128x320.Slices ![0, 0] S128x128
  slices_S128x320_S128x128_0_128 : S128x320.Slices ![0, 128] S128x128
  slices_S128x320_S128x64_0_256 : S128x320.Slices ![0, 256] S128x64
  transposes_S128x128_S128x128_1_0 : S128x128.Transposes [1, 0] S128x128
  bitsLt_bf16_f32 : FTy.bits .bf16 < FTy.bits .f32
  transposes_S128x64_S64x128_1_0 : S128x64.Transposes [1, 0] S64x128
  shapeCasts_S128_S1x128 : S128.ShapeCasts S1x128
  inb_S500x128_S500x128_0_0 : ∀ a, (![0, 0] : Fin 2 → Nat) a + S500x128.size a ≤ S500x128.size a
  h_S500x128 : 0 < S500x128.numel
  shapeCasts_S500x128_S500x128 : S500x128.ShapeCasts S500x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S500x128 : S1x128.Broadcasts S500x128
  inb_S2x500x128_S1x500x128_0_0_0 : ∀ a, (![0, 0, 0] : Fin 3 → Nat) a + S1x500x128.size a ≤ S2x500x128.size a
  h_S1x500x128 : 0 < S1x500x128.numel
  shapeCasts_S1x500x128_S500x128 : S1x500x128.ShapeCasts S500x128
  shapeCasts_S500x128_S1x500x128 : S500x128.ShapeCasts S1x500x128
  packedbf16_S2x500x128_S1x500x128_0_0_0 : (Rect.unit (s := S2x500x128) ![0, 0, 0] S1x500x128.size inb_S2x500x128_S1x500x128_0_0_0).PackedRows (EltTy.packing .bf16)
  inb_S2x500x128_S1x500x128_1_0_0 : ∀ a, (![1, 0, 0] : Fin 3 → Nat) a + S1x500x128.size a ≤ S2x500x128.size a
  packedbf16_S2x500x128_S1x500x128_1_0_0 : (Rect.unit (s := S2x500x128) ![1, 0, 0] S1x500x128.size inb_S2x500x128_S1x500x128_1_0_0).PackedRows (EltTy.packing .bf16)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S2x5000x128_S1x5000x128_0_0_0 : ∀ a, (![0, 0, 0] : Fin 3 → Nat) a + S1x5000x128.size a ≤ S2x5000x128.size a
  h_S1x5000x128 : 0 < S1x5000x128.numel
  shapeCasts_S1x5000x128_S5000x128 : S1x5000x128.ShapeCasts S5000x128
  shapeCasts_S5000x128_S1x5000x128 : S5000x128.ShapeCasts S1x5000x128
  inb_S2x5000x128_S1x5000x128_1_0_0 : ∀ a, (![1, 0, 0] : Fin 3 → Nat) a + S1x5000x128.size a ≤ S2x5000x128.size a
  inb_S365x64_S365x64_0_0 : ∀ a, (![0, 0] : Fin 2 → Nat) a + S365x64.size a ≤ S365x64.size a
  h_S365x64 : 0 < S365x64.numel
  shapeCasts_S365x64_S365x64 : S365x64.ShapeCasts S365x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S2x365x128_S1x365x128_0_0_0 : ∀ a, (![0, 0, 0] : Fin 3 → Nat) a + S1x365x128.size a ≤ S2x365x128.size a
  h_S1x365x128 : 0 < S1x365x128.numel
  shapeCasts_S1x365x128_S365x128 : S1x365x128.ShapeCasts S365x128
  shapeCasts_S365x128_S1x365x128 : S365x128.ShapeCasts S1x365x128
  packedbf16_S2x365x128_S1x365x128_0_0_0 : (Rect.unit (s := S2x365x128) ![0, 0, 0] S1x365x128.size inb_S2x365x128_S1x365x128_0_0_0).PackedRows (EltTy.packing .bf16)
  inb_S2x365x128_S1x365x128_1_0_0 : ∀ a, (![1, 0, 0] : Fin 3 → Nat) a + S1x365x128.size a ≤ S2x365x128.size a
  packedbf16_S2x365x128_S1x365x128_1_0_0 : (Rect.unit (s := S2x365x128) ![1, 0, 0] S1x365x128.size inb_S2x365x128_S1x365x128_1_0_0).PackedRows (EltTy.packing .bf16)
  shapeCasts_S2x500x128_S1000x128 : S2x500x128.ShapeCasts S1000x128
  shapeCasts_S2x50000x128_S100000x128 : S2x50000x128.ShapeCasts S100000x128
  shapeCasts_S2x365x128_S730x128 : S2x365x128.ShapeCasts S730x128
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S1x128_S5000x128 : S1x128.Broadcasts S5000x128
  transposes_S64x64_S64x64_1_0 : S64x64.Transposes [1, 0] S64x64
  shapeCasts_S64_S1x64 : S64.ShapeCasts S1x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S365x64 : S1x64.Broadcasts S365x64
  dot_S500x128_S128x128_S500x128_1_0_0_1_n_n_wf : DotDims.WF S500x128 S128x128 S500x128 [1] [0] [0] [1] [] []
  dot_S5000x128_S128x128_S5000x128_1_0_0_1_n_n_wf : DotDims.WF S5000x128 S128x128 S5000x128 [1] [0] [0] [1] [] []
  dot_S365x64_S64x128_S365x128_1_0_0_1_n_n_wf : DotDims.WF S365x64 S64x128 S365x128 [1] [0] [0] [1] [] []
  gather_S1000x128_S500000x1_S500000x128_1_0_n_n_0_1_1128_wf : GatherDims.WF S1000x128 S500000x1 S500000x128 [1] [0] [] [0] [] 1 ![1, 128]
  gather_S100000x128_S500000x1_S500000x128_1_0_n_n_0_1_1128_wf : GatherDims.WF S100000x128 S500000x1 S500000x128 [1] [0] [] [0] [] 1 ![1, 128]
  gather_S730x128_S500000x1_S500000x128_1_0_n_n_0_1_1128_wf : GatherDims.WF S730x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S365x64_S64x64_S365x64_1_0_0_1_n_n_wf : DotDims.WF S365x64 S64x64 S365x64 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S500x128.size a ≤ S500x128.size a
  hwx0_0 : ∀ i : grid0.Coords, EltTy.bits .bf16 = 32 ∨ (Rect.block (s := S500x128) S500x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 1
  hreads0_5 : ∀ i i' : grid0.Coords, (∀ a, reads0_5 a = true → i a = i' a) → cc0_transform_5 i = cc0_transform_5 i'
  hinb0_5 : ∀ (i : grid0.Coords) a, (cc0_transform_5 i a + 1) * S2x500x128.size a ≤ S2x500x128.size a
  hwx0_5 : ∀ i : grid0.Coords, EltTy.bits .bf16 = 32 ∨ (Rect.block (s := S2x500x128) S2x500x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x5000x128.size a ≤ S2x50000x128.size a
  hwx1_3 : ∀ i : grid1.Coords, EltTy.bits .f32 = 32 ∨ (Rect.block (s := S2x50000x128) S2x5000x128.size (cc1_transform_3 i) (hinb1_3 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S365x64.size a ≤ S365x64.size a
  hwx2_0 : ∀ i : grid2.Coords, EltTy.bits .bf16 = 32 ∨ (Rect.block (s := S365x64) S365x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .bf16 = 32 ∨ (Rect.block (s := S64x128) S64x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .bf16 = 32 ∨ (Rect.block (s := S64x128) S64x128.size (cc2_transform_2 i) (hinb2_2 i)).WholeWords (EltTy.packing .bf16)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S2x365x128.size a ≤ S2x365x128.size a
  hwx2_3 : ∀ i : grid2.Coords, EltTy.bits .bf16 = 32 ∨ (Rect.block (s := S2x365x128) S2x365x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .bf16 = 32 ∨ (Rect.block (s := S50000x128) S5000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S365x64.size a ≤ S365x64.size a
  hwx4_0 : ∀ i : grid4.Coords, EltTy.bits .f32 = 32 ∨ (Rect.block (s := S365x64) S365x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .bf16 = 32 ∨ (Rect.block (s := S64x64) S64x64.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S365x64.size a ≤ S365x64.size a
  hwx4_3 : ∀ i : grid4.Coords, EltTy.bits .f32 = 32 ∨ (Rect.block (s := S365x64) S365x64.size (cc4_transform_3 i) (hinb4_3 i)).WholeWords (EltTy.packing .f32)

variable [Facts₀]

def dot_S500x128_S128x128_S500x128_1_0_0_1_n_n : DotDims S500x128 S128x128 S500x128 where
  lhsContracting := [1]
  rhsContracting := [0]
  lhsNonContracting := [0]
  rhsNonContracting := [1]
  lhsBatch := []
  rhsBatch := []
  wf := dot_S500x128_S128x128_S500x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S365x64_S64x128_S365x128_1_0_0_1_n_n : DotDims S365x64 S64x128 S365x128 where
  lhsContracting := [1]
  rhsContracting := [0]
  lhsNonContracting := [0]
  rhsNonContracting := [1]
  lhsBatch := []
  rhsBatch := []
  wf := dot_S365x64_S64x128_S365x128_1_0_0_1_n_n_wf
def gather_S1000x128_S500000x1_S500000x128_1_0_n_n_0_1_1128 : GatherDims S1000x128 S500000x1 S500000x128 where
  offsetDims := [1]
  collapsedSliceDims := [0]
  operandBatchingDims := []
  startIndicesBatchingDims := []
  startIndexMap := [0]
  indexVectorDim := 1
  sliceSizes := ![1, 128]
  wf := gather_S1000x128_S500000x1_S500000x128_1_0_n_n_0_1_1128_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S730x128_S500000x1_S500000x128_1_0_n_n_0_1_1128 : GatherDims S730x128 S500000x1 S500000x128 where
  offsetDims := [1]
  collapsedSliceDims := [0]
  operandBatchingDims := []
  startIndicesBatchingDims := []
  startIndexMap := [0]
  indexVectorDim := 1
  sliceSizes := ![1, 128]
  wf := gather_S730x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S365x64_S64x64_S365x64_1_0_0_1_n_n : DotDims S365x64 S64x64 S365x64 where
  lhsContracting := [1]
  rhsContracting := [0]
  lhsNonContracting := [0]
  rhsNonContracting := [1]
  lhsBatch := []
  rhsBatch := []
  wf := dot_S365x64_S64x64_S365x64_1_0_0_1_n_n_wf

abbrev win0_0 : Pipeline.Window sig grid0 :=
  Pipeline.Window.ofSpec (Memref.whole main_v18) S500x128.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2x500x128.size cc0_transform_5 reads0_5 true false 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S2x5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v20) S365x64.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v8) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S2x365x128.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v19) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v71) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v74) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_arg2) S365x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v76) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78) S365x64.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S500x128 : Shape := ⟨2, ![500, 128]⟩
abbrev S365x64 : Shape := ⟨2, ![365, 64]⟩
abbrev S128x320 : Shape := ⟨2, ![128, 320]⟩
abbrev S128 : Shape := ⟨1, ![128]⟩
abbrev S128x128 : Shape := ⟨2, ![128, 128]⟩
abbrev S64x64 : Shape := ⟨2, ![64, 64]⟩
abbrev S64 : Shape := ⟨1, ![64]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x64 : Shape := ⟨2, ![500000, 64]⟩
abbrev S500000x320 : Shape := ⟨2, ![500000, 320]⟩
abbrev S320x128 : Shape := ⟨2, ![320, 128]⟩
abbrev S1x128 : Shape := ⟨2, ![1, 128]⟩
abbrev S50000 : Shape := ⟨1, ![50000]⟩
abbrev S50000x1 : Shape := ⟨2, ![50000, 1]⟩
abbrev S1x64 : Shape := ⟨2, ![1, 64]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S500x128, .f32⟩
  | .hbm, ⟨2, _⟩ => ⟨S365x64, .f32⟩
  | .hbm, ⟨3, _⟩ => ⟨S128x320, .f32⟩
  | .hbm, ⟨4, _⟩ => ⟨S128, .f32⟩
  | .hbm, ⟨5, _⟩ => ⟨S128x320, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S64x64, .f32⟩
  | .hbm, ⟨10, _⟩ => ⟨S64, .f32⟩
  | .hbm, ⟨11, _⟩ => ⟨S500000, .i32⟩
  | .hbm, ⟨12, _⟩ => ⟨S500000, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S_, .i32⟩
  | .hbm, ⟨17, _⟩ => ⟨S500000, .i32⟩
  | .hbm, ⟨18, _⟩ => ⟨S500000, .i1⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S500000x1, .i32⟩
  | .hbm, ⟨24, _⟩ => ⟨S500000x128, .f32⟩
  | .hbm, ⟨25, _⟩ => ⟨S_, .i32⟩
  | .hbm, ⟨26, _⟩ => ⟨S500000, .i32⟩
  | .hbm, ⟨27, _⟩ => ⟨S500000, .i1⟩
  | .hbm, ⟨28, _⟩ => ⟨S_, .i32⟩
  | .hbm, ⟨29, _⟩ => ⟨S500000, .i32⟩
  | .hbm, ⟨30, _⟩ => ⟨S500000, .i32⟩
  | .hbm, ⟨31, _⟩ => ⟨S500000, .i32⟩
  | .hbm, ⟨32, _⟩ => ⟨S500000x1, .i32⟩
  | .hbm, ⟨33, _⟩ => ⟨S500000x128, .f32⟩
  | .hbm, ⟨34, _⟩ => ⟨S_, .i32⟩
  | .hbm, ⟨35, _⟩ => ⟨S500000, .i32⟩
  | .hbm, ⟨36, _⟩ => ⟨S500000, .i1⟩
  | .hbm, ⟨37, _⟩ => ⟨S_, .i32⟩
  | .hbm, ⟨38, _⟩ => ⟨S500000, .i32⟩
  | .hbm, ⟨39, _⟩ => ⟨S500000, .i32⟩
  | .hbm, ⟨40, _⟩ => ⟨S500000, .i32⟩
  | .hbm, ⟨41, _⟩ => ⟨S500000x1, .i32⟩
  | .hbm, ⟨42, _⟩ => ⟨S500000x64, .f32⟩
  | .hbm, ⟨43, _⟩ => ⟨S500000x320, .f32⟩
  | .hbm, ⟨44, _⟩ => ⟨S320x128, .f32⟩
  | .hbm, ⟨45, _⟩ => ⟨S500000x128, .f32⟩
  | .hbm, ⟨46, _⟩ => ⟨S1x128, .f32⟩
  | .hbm, ⟨47, _⟩ => ⟨S500000x128, .f32⟩
  | .hbm, ⟨48, _⟩ => ⟨S500000x128, .f32⟩
  | .hbm, ⟨49, _⟩ => ⟨S320x128, .f32⟩
  | .hbm, ⟨50, _⟩ => ⟨S500000x128, .f32⟩
  | .hbm, ⟨51, _⟩ => ⟨S1x128, .f32⟩
  | .hbm, ⟨52, _⟩ => ⟨S500000x128, .f32⟩
  | .hbm, ⟨53, _⟩ => ⟨S500000x128, .f32⟩
  | .hbm, ⟨54, _⟩ => ⟨S_, .i32⟩
  | .hbm, ⟨55, _⟩ => ⟨S500000, .i32⟩
  | .hbm, ⟨56, _⟩ => ⟨S500000, .i1⟩
  | .hbm, ⟨57, _⟩ => ⟨S500000x1, .i1⟩
  | .hbm, ⟨58, _⟩ => ⟨S500000x128, .i1⟩
  | .hbm, ⟨59, _⟩ => ⟨S500000x128, .f32⟩
  | .hbm, ⟨60, _⟩ => ⟨S_, .f32⟩
  | .hbm, ⟨61, _⟩ => ⟨S50000x128, .f32⟩
  | .hbm, ⟨62, _⟩ => ⟨S500000x1, .i32⟩
  | .hbm, ⟨63, _⟩ => ⟨S50000x128, .f32⟩
  | .hbm, ⟨64, _⟩ => ⟨S_, .f32⟩
  | .hbm, ⟨65, _⟩ => ⟨S500000, .f32⟩
  | .hbm, ⟨66, _⟩ => ⟨S_, .f32⟩
  | .hbm, ⟨67, _⟩ => ⟨S50000, .f32⟩
  | .hbm, ⟨68, _⟩ => ⟨S500000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S128x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S64x64, .f32⟩
  | .hbm, ⟨83, _⟩ => ⟨S365x64, .f32⟩
  | .hbm, ⟨84, _⟩ => ⟨S1x64, .f32⟩
  | .hbm, ⟨85, _⟩ => ⟨S365x64, .f32⟩
  | .hbm, ⟨86, _⟩ => ⟨S365x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call0_v0 : Ref sig .tc := ⟨.hbm, 58, rfl⟩
abbrev main_v35 : Ref sig .tc := ⟨.hbm, 59, rfl⟩
abbrev main_cst : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x64_S500000x320_d1 : Shape.Concatenates [S500000x128, S500000x128, S500000x64] S500000x320 1
  transposes_S128x320_S320x128_1_0 : S128x320.Transposes [1, 0] S320x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S1x128_S50000x128_0_1 : S1x128.BroadcastsInDim S50000x128 (![0, 1] : Fin 2 → Fin S50000x128.rank)
  transposes_S64x64_S64x64_1_0 : S64x64.Transposes [1, 0] S64x64
  bcast_S64_S1x64_1 : S64.BroadcastsInDim S1x64 (![1] : Fin 1 → Fin S1x64.rank)
  bcast_S1x64_S365x64_0_1 : S1x64.BroadcastsInDim S365x64 (![0, 1] : Fin 2 → Fin S365x64.rank)
  gather_S500x128_S500000x1_S500000x128_1_0_n_n_0_1_1128_wf : GatherDims.WF S500x128 S500000x1 S500000x128 [1] [0] [] [0] [] 1 ![1, 128]
  gather_S50000x128_S500000x1_S500000x128_1_0_n_n_0_1_1128_wf : GatherDims.WF S50000x128 S500000x1 S500000x128 [1] [0] [] [0] [] 1 ![1, 128]
  gather_S365x64_S500000x1_S500000x64_1_0_n_n_0_1_164_wf : GatherDims.WF S365x64 S500000x1 S500000x64 [1] [0] [] [0] [] 1 ![1, 64]
  dot_S500000x320_S320x128_S500000x128_1_0_0_1_n_n_wf : DotDims.WF S500000x320 S320x128 S500000x128 [1] [0] [0] [1] [] []
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S50000x128_S128x128_S50000x128_1_0_0_1_n_n_wf : DotDims.WF S50000x128 S128x128 S50000x128 [1] [0] [0] [1] [] []
  dot_S365x64_S64x64_S365x64_1_0_0_1_n_n_wf : DotDims.WF S365x64 S64x64 S365x64 [1] [0] [0] [1] [] []

variable [Facts₀]

def gather_S500x128_S500000x1_S500000x128_1_0_n_n_0_1_1128 : GatherDims S500x128 S500000x1 S500000x128 where
  offsetDims := [1]
  collapsedSliceDims := [0]
  operandBatchingDims := []
  startIndicesBatchingDims := []
  startIndexMap := [0]
  indexVectorDim := 1
  sliceSizes := ![1, 128]
  wf := gather_S500x128_S500000x1_S500000x128_1_0_n_n_0_1_1128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def gather_S365x64_S500000x1_S500000x64_1_0_n_n_0_1_164 : GatherDims S365x64 S500000x1 S500000x64 where
  offsetDims := [1]
  collapsedSliceDims := [0]
  operandBatchingDims := []
  startIndicesBatchingDims := []
  startIndexMap := [0]
  indexVectorDim := 1
  sliceSizes := ![1, 64]
  wf := gather_S365x64_S500000x1_S500000x64_1_0_n_n_0_1_164_wf
def dot_S500000x320_S320x128_S500000x128_1_0_0_1_n_n : DotDims S500000x320 S320x128 S500000x128 where
  lhsContracting := [1]
  rhsContracting := [0]
  lhsNonContracting := [0]
  rhsNonContracting := [1]
  lhsBatch := []
  rhsBatch := []
  wf := dot_S500000x320_S320x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S365x64_S64x64_S365x64_1_0_0_1_n_n : DotDims S365x64 S64x64 S365x64 where
  lhsContracting := [1]
  rhsContracting := [0]
  lhsNonContracting := [0]
  rhsNonContracting := [1]
  lhsBatch := []
  rhsBatch := []
  wf := dot_S365x64_S64x64_S365x64_1_0_0_1_n_n_wf

class Facts : Prop extends Facts₀ where

variable [Facts]
-- ==== Proof.Spec.lean ====
import Idealize.ShloMosaic.PureOps.Ideal
import Idealize.ShloMosaic.Lib.ValueIdx

/-! The arithmetic both programs compute, index by index over the extended reals.

    A message of edge `e` is the affine map `W x + b` of the concatenated row `x = [rel[b_rel e], ent[src e], time[time_idx e]]`,
    with `(W, b) = (W_I, b_I)` when `inv e = 0` and `(W_O, b_O)` otherwise. A sum over the 320 concatenated columns is the sum
    of the three sums over the 128, 128 and 64 columns of the pieces, so the message is also the sum of three rows of
    tables projected once: that is the only law between the two programs. The node update adds to `ent W_Sᵀ + b_S` the
    per-node sum of the messages divided by `max(count, 1)`; the time update is `time W_Tᵀ + b_T`. -/

noncomputable section

namespace Cert.Spec

open Idealize.ShloMosaic Idealize.ShloMosaic.ValueIdx

/-- A real matrix with `r` rows and `c` columns. -/
abbrev Mat (r c : Nat) : Type := (⟨2, ![r, c]⟩ : Shape).Idx → EReal
/-- A real vector of length `n`. -/
abbrev Vec1 (n : Nat) : Type := (⟨1, ![n]⟩ : Shape).Idx → EReal
/-- A vector of `n` 32-bit index words. -/
abbrev IdxVec (n : Nat) : Type := (⟨1, ![n]⟩ : Shape).Idx → BitVec 32

/-- Row `r` of `x` against column `j` of `w`. -/
def dotRC {R K C : Nat} (x : Mat R K) (w : Mat K C) (r : Fin R) (j : Fin C) : EReal :=
  ∑ k : Fin K, x (ix2 r k) * w (ix2 k j)

/-- Row `r` of `x` against the columns `off … off + K - 1` of row `j` of a `[128, 320]` weight. -/
def dotRow {R K : Nat} (x : Mat R K) (W : Mat 128 320) (off : Nat) (h : off + K ≤ 320) (r : Fin R) (j : Fin 128) : EReal :=
  ∑ k : Fin K, x (ix2 r k) * W (ix2 j ⟨off + k.val, by have := k.isLt; omega⟩)

/-- The transposed column block `off … off + K - 1` of a `[128, 320]` weight: entry `(k, j)` is `W[j, off + k]`. -/
def wBlock (K off : Nat) (h : off + K ≤ 320) (W : Mat 128 320) : Mat K 128 :=
  fun i => W (ix2 (i 1) ⟨off + (i 0).val, by have := idx2_lt0 i; omega⟩)

/-- The transpose. -/
def transp {a b : Nat} (W : Mat a b) : Mat b a := fun i => W (ix2 (i 1) (i 0))
/-- A vector as a one-row matrix. -/
def row1 {n : Nat} (b : Vec1 n) : Mat 1 n := fun i => b (ix1 (i 1))
/-- A vector as a one-column matrix. -/
def col1 {n : Nat} (v : Vec1 n) : Mat n 1 := fun i => v (ix1 (i 0))

/-- A table projected through two weights, stacked: plane `0` is `x wi`, plane `1` is `x wo`. -/
def projPair {R K C : Nat} (x : Mat R K) (wi wo : Mat K C) : (⟨3, ![2, R, C]⟩ : Shape).Idx → EReal :=
  fun i => dotRC x (if (i 0).val = 0 then wi else wo) (i 1) (i 2)

/-- The same with a bias row added to each plane. -/
def projPairBias {R K C : Nat} (x : Mat R K) (wi wo : Mat K C) (bi bo : Mat 1 C) : (⟨3, ![2, R, C]⟩ : Shape).Idx → EReal :=
  fun i => dotRC x (if (i 0).val = 0 then wi else wo) (i 1) (i 2) + (if (i 0).val = 0 then bi else bo) (ix2 0 (i 2))

/-- The float `1.0`. -/
def one : EReal := Ideal.ofBits .f32 0x3F800000#32

/-- The node update: `ent ws + bs + sums / max(cnt, 1)`, `ws` already transposed. -/
def nodeUpd (ent sums : Mat 50000 128) (cnt : Mat 50000 1) (ws : Mat 128 128) (bs : Mat 1 128) : Mat 50000 128 :=
  fun i => (dotRC ent ws (i 0) (i 1) + bs (ix2 0 (i 1))) + Ideal.div (sums i) (max (cnt (ix2 (i 0) 0)) one)

/-- The time update: `t wt + bt`, `wt` already transposed. -/
def timeUpd (t : Mat 365 64) (wt : Mat 64 64) (bt : Mat 1 64) : Mat 365 64 :=
  fun i => dotRC t wt (i 0) (i 1) + bt (ix2 0 (i 1))

/-- The row of an `N`-row table that an index word names: the word read signed and clamped into `0 … N - 1`. -/
def rowOf (N : Nat) (hN : 0 < N) (w : BitVec 32) : Fin N := ⟨min w.toInt.toNat (N - 1), by omega⟩

/-- An in-range word names its own row. -/
theorem rowOf_val {N : Nat} (hN : 0 < N) (w : BitVec 32) (h : w.toNat < N) (hN' : N ≤ 2 ^ 31) : (rowOf N hN w).val = w.toNat := by
  have hi : w.toInt = w.toNat := by
    rw [BitVec.toInt_eq_toNat_cond]; split <;> omega
  simp only [rowOf, hi, Int.toNat_natCast]
  omega

/-- The message of every edge, feature by feature: the three table rows of the edge against the three column blocks
    of the weight its `inv` bit selects, plus that weight's bias. -/
def msgSpec (rel : Mat 500 128) (ent : Mat 50000 128) (tim : Mat 365 64) (W_I : Mat 128 320) (b_I : Vec1 128)
    (W_O : Mat 128 320) (b_O : Vec1 128) (src b_rel time_idx inv : IdxVec 500000) : Mat 500000 128 := fun i =>
  (dotRow rel (if inv (ix1 (i 0)) = 0#32 then W_I else W_O) 0 (by decide) (rowOf 500 (by decide) (b_rel (ix1 (i 0)))) (i 1)
      + (if inv (ix1 (i 0)) = 0#32 then b_I else b_O) (ix1 (i 1)))
    + dotRow ent (if inv (ix1 (i 0)) = 0#32 then W_I else W_O) 128 (by decide) (rowOf 50000 (by decide) (src (ix1 (i 0)))) (i 1)
    + dotRow tim (if inv (ix1 (i 0)) = 0#32 then W_I else W_O) 256 (by decide) (rowOf 365 (by decide) (time_idx (ix1 (i 0)))) (i 1)

/-- The index inputs lie in the ranges of the tables they index, and `inv` is a bit. -/
structure InRange (src b_rel time_idx inv : IdxVec 500000) : Prop where
  src : ∀ e, (src e).toNat < 50000
  b_rel : ∀ e, (b_rel e).toNat < 500
  time_idx : ∀ e, (time_idx e).toNat < 365
  inv : ∀ e, inv e = 0#32 ∨ inv e = 1#32

end Cert.Spec

end
-- ==== Proof.Reg0.lean ====
import proofs.«423962_j4561255268668_3_alg».proof.Proof.Gen.KernelIdeal.Frame
import proofs.«423962_j4561255268668_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! The first projection region. Its grid has one point and every window's block is its whole array. The body stores
    two planes into the `[2, 500, 128]` output: plane `0` is the relation table against the first weight plus the
    first bias row, plane `1` the same table against the second weight plus the second bias row. Entry `(s, p, q)`
    is therefore row `p` of the table against column `q` of weight `s`, a sum over the 128 contracted columns,
    plus entry `q` of bias row `s`; the two stores tile the output, and a narrowing of the float format is the
    identity over the extended reals. -/

/-! ## The contraction's operand indices, axis by axis -/

theorem lhs_dot_0 (i : S500x128.Idx) (q : dot_S500x128_S128x128_S500x128_1_0_0_1_n_n.contr.Idx) :
    (dot_S500x128_S128x128_S500x128_1_0_0_1_n_n.lhsIdx i q 0).val = (i 0).val := by
  unfold DotDims.lhsIdx
  rw [dif_neg (show ¬(0 : Fin S500x128.rank) ∈ dot_S500x128_S128x128_S500x128_1_0_0_1_n_n.lhsBatch by decide), dif_pos (show (0 : Fin S500x128.rank) ∈ dot_S500x128_S128x128_S500x128_1_0_0_1_n_n.lhsNonContracting by decide)]
  rfl
theorem lhs_dot_1 (i : S500x128.Idx) (q : dot_S500x128_S128x128_S500x128_1_0_0_1_n_n.contr.Idx) :
    (dot_S500x128_S128x128_S500x128_1_0_0_1_n_n.lhsIdx i q 1).val = (q ⟨0, by decide⟩).val :=
  dot_S500x128_S128x128_S500x128_1_0_0_1_n_n.lhsIdx_val_of_single rfl i q
theorem rhs_dot_0 (i : S500x128.Idx) (q : dot_S500x128_S128x128_S500x128_1_0_0_1_n_n.contr.Idx) :
    (dot_S500x128_S128x128_S500x128_1_0_0_1_n_n.rhsIdx i q 0).val = (q ⟨0, by decide⟩).val :=
  dot_S500x128_S128x128_S500x128_1_0_0_1_n_n.rhsIdx_val_of_single rfl i q
theorem rhs_dot_1 (i : S500x128.Idx) (q : dot_S500x128_S128x128_S500x128_1_0_0_1_n_n.contr.Idx) :
    (dot_S500x128_S128x128_S500x128_1_0_0_1_n_n.rhsIdx i q 1).val = (i 1).val := by
  unfold DotDims.rhsIdx
  rw [dif_neg (show ¬(1 : Fin S128x128.rank) ∈ dot_S500x128_S128x128_S500x128_1_0_0_1_n_n.rhsBatch by decide), dif_pos (show (1 : Fin S128x128.rank) ∈ dot_S500x128_S128x128_S500x128_1_0_0_1_n_n.rhsNonContracting by decide)]
  rfl

/-- The product into a zero accumulator, read at `(p, q)`: row `p` of the left operand against column `q` of the right. -/
theorem matmul_at (l : FVec Ideal S500x128 .bf16) (r : FVec Ideal S128x128 .bf16) (p : Fin 500) (q : Fin 128) :
    matmul dot_S500x128_S128x128_S500x128_1_0_0_1_n_n none l r (constant (F := Ideal) S500x128 .f32 0x00000000#32) (ix2 p q)
      = ∑ k : Fin 128, l (ix2 p k) * r (ix2 k q) := by
  simp only [matmul]
  rw [Ideal.matmul_constant_zero_apply, ← Equiv.sum_comp (contrEquiv1 dot_S500x128_S128x128_S500x128_1_0_0_1_n_n 128 rfl rfl).symm]
  refine Finset.sum_congr rfl fun k _ => ?_
  have hk := contrEquiv1_symm_val dot_S500x128_S128x128_S500x128_1_0_0_1_n_n 128 rfl rfl k
  have el : dot_S500x128_S128x128_S500x128_1_0_0_1_n_n.lhsIdx (ix2 p q) ((contrEquiv1 dot_S500x128_S128x128_S500x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S500x128_S128x128_S500x128_1_0_0_1_n_n.rhsIdx (ix2 p q) ((contrEquiv1 dot_S500x128_S128x128_S500x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- A bias row spread over the rows, read at `(p, q)`. -/
theorem bias_at (b : FVec Ideal S1x128 .f32) (p : Fin 500) (q : Fin 128) :
    broadcastTo S500x128 b broadcasts_S1x128_S500x128 (ix2 p q) = b (ix2 0 q) :=
  broadcastTo_apply b broadcasts_S1x128_S500x128 (ix2 p q) (ix2 0 q) (fun a => match a with
    | ⟨0, _⟩ => rfl
    | ⟨1, _⟩ => rfl)

/-- A `[500, 128]` value seen as one plane `[1, 500, 128]`, read at `(0, p, q)`. -/
theorem plane_at (v : FVec Ideal S500x128 .bf16) (s : Fin 1) (p : Fin 500) (q : Fin 128) :
    shapeCast S1x500x128 v shapeCasts_S500x128_S1x500x128 (ix3 s p q) = v (ix2 p q) := by
  refine (shapeCast_addUnit_apply ![500, 128] v shapeCasts_S500x128_S1x500x128 (ix3 s p q)).trans (congrArg v ?_)
  funext a
  match a with
  | ⟨0, _⟩ => rfl
  | ⟨1, _⟩ => rfl

/-- The first store at `(0, p, q)`: the table's row against the weight's column, plus the bias entry. -/
theorem pay2_at (x0 : Vec Ideal S500x128 .bf16) (x1 : Vec Ideal S128x128 .bf16) (x3 : Vec Ideal S1x128 .f32) (s : Fin 1) (p : Fin 500) (q : Fin 128) :
    k0_pay2 x0 x1 x3 (ix3 s p q) = Cert.Spec.dotRC x0 x1 p q + x3 (ix2 0 q) := by
  unfold k0_pay2 k0_pay1
  simp only [shapeCast_self]
  rw [plane_at, truncf_apply, addf_apply, matmul_at, bias_at]
  rfl

/-- The second store at `(0, p, q)`, the same of the second weight and bias. -/
theorem pay3_at (x0 : Vec Ideal S500x128 .bf16) (x2 : Vec Ideal S128x128 .bf16) (x4 : Vec Ideal S1x128 .f32) (s : Fin 1) (p : Fin 500) (q : Fin 128) :
    k0_pay3 x0 x2 x4 (ix3 s p q) = Cert.Spec.dotRC x0 x2 p q + x4 (ix2 0 q) := by
  unfold k0_pay3 k0_pay1
  simp only [shapeCast_self]
  rw [plane_at, truncf_apply, addf_apply, matmul_at, bias_at]
  rfl

/-! ## The two stores tile the output -/

theorem hz2 : (![0, 0] : Fin 2 → Nat) = fun _ => 0 := funext fun a => by fin_cases a <;> rfl

/-- What the body leaves in the output's buffer, over any input blocks: the stacked pair of biased projections.
    Each store agrees with it on its own plane, and the two planes cover the buffer. -/
theorem out_eq (x0 : Vec Ideal S500x128 .bf16) (x1 x2 : Vec Ideal S128x128 .bf16) (x3 x4 : Vec Ideal S1x128 .f32) :
    out0_5 x0 x1 x2 x3 x4 = Cert.Spec.projPairBias x0 x1 x2 x3 x4 := by
  unfold out0_5
  simp only [View.ld_unit_zero (S := S500x128) hz2, View.ld_unit_zero (S := S128x128) hz2, View.ld_unit_zero (S := S1x128) hz2]
  funext y
  refine View.canon_apply_of_pieces (Val := Elt Ideal) (S := S2x500x128) (e := .bf16) (Cert.Spec.projPairBias x0 x1 x2 x3 x4) _
    (List.forall_mem_cons.2 ⟨?_, List.forall_mem_cons.2 ⟨?_, fun _ h => absurd h List.not_mem_nil⟩⟩) y (cover0_5 _ _ y)
  · intro x
    obtain ⟨s, p, q, rfl⟩ : ∃ (s : Fin 1) (p : Fin 500) (q : Fin 128), x = ix3 s p q := ⟨x 0, x 1, x 2, eq_ix3 x⟩
    show k0_pay3 x0 x2 x4 (ix3 s p q) = Cert.Spec.projPairBias x0 x1 x2 x3 x4 (r0_4.emb (ix3 s p q))
    have e : r0_4.emb (ix3 s p q) = ix3 1 p q := funext fun a => Fin.ext (by
      match a with
      | ⟨0, _⟩ => show 1 + 1 * s.val = 1; omega
      | ⟨1, _⟩ => show 0 + 1 * p.val = p.val; omega
      | ⟨2, _⟩ => show 0 + 1 * q.val = q.val; omega)
    rw [pay3_at, e]
    show _ = Cert.Spec.dotRC x0 (if (1 : Fin 2).val = 0 then x1 else x2) p q + (if (1 : Fin 2).val = 0 then x3 else x4) (ix2 0 q)
    rw [if_neg (by decide), if_neg (by decide)]
  · intro x
    obtain ⟨s, p, q, rfl⟩ : ∃ (s : Fin 1) (p : Fin 500) (q : Fin 128), x = ix3 s p q := ⟨x 0, x 1, x 2, eq_ix3 x⟩
    show k0_pay2 x0 x1 x3 (ix3 s p q) = Cert.Spec.projPairBias x0 x1 x2 x3 x4 (r0_3.emb (ix3 s p q))
    have e : r0_3.emb (ix3 s p q) = ix3 0 p q := funext fun a => Fin.ext (by
      match a with
      | ⟨0, _⟩ => show 0 + 1 * s.val = 0; omega
      | ⟨1, _⟩ => show 0 + 1 * p.val = p.val; omega
      | ⟨2, _⟩ => show 0 + 1 * q.val = q.val; omega)
    rw [pay2_at, e]
    show _ = Cert.Spec.dotRC x0 (if (0 : Fin 2).val = 0 then x1 else x2) p q + (if (0 : Fin 2).val = 0 then x3 else x4) (ix2 0 q)
    rw [if_pos (by decide), if_pos (by decide)]

/-! ## From the one block to the array -/

/-- The index maps, decided over the grid: every window's one block sits at the origin. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0 :=
  (by decide +kernel : ∀ t : Fin grid0.N, _)

/-- The relation table's block is the whole table. -/
theorem blk_rel (c : Dev nD) (t : Fin cfg0.N) : iblk0 V c 0 t = V c main_v18 := by
  obtain ⟨e0, e1, -⟩ := idx_facts t
  funext y
  show V c main_v18 (((cfg0.win 0).blk t).view.emb y) = V c main_v18 y
  refine congrArg _ (funext fun a => Fin.ext ?_)
  match a with
  | ⟨0, _⟩ => show win0_0.index t (0 : Fin 2) * 500 + 1 * (y 0).val = (y 0).val; omega
  | ⟨1, _⟩ => show win0_0.index t (1 : Fin 2) * 128 + 1 * (y 1).val = (y 1).val; omega

/-- The first weight's block is the whole weight. -/
theorem blk_wi (c : Dev nD) (t : Fin cfg0.N) : iblk0 V c 1 t = V c main_v4 := by
  obtain ⟨-, -, e0, e1, -⟩ := idx_facts t
  funext y
  show V c main_v4 (((cfg0.win 1).blk t).view.emb y) = V c main_v4 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The second weight's block is the whole weight. -/
theorem blk_wo (c : Dev nD) (t : Fin cfg0.N) : iblk0 V c 2 t = V c main_v13 := by
  obtain ⟨-, -, -, -, e0, e1, -⟩ := idx_facts t
  funext y
  show V c main_v13 (((cfg0.win 2).blk t).view.emb y) = V c main_v13 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The first bias row's block is the whole row. -/
theorem blk_bi (c : Dev nD) (t : Fin cfg0.N) : iblk0 V c 3 t = V c main_v21 := by
  obtain ⟨-, -, -, -, -, -, e0, e1, -⟩ := idx_facts t
  funext y
  show V c main_v21 (((cfg0.win 3).blk t).view.emb y) = V c main_v21 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The second bias row's block is the whole row. -/
theorem blk_bo (c : Dev nD) (t : Fin cfg0.N) : iblk0 V c 4 t = V c main_v22 := by
  obtain ⟨-, -, -, -, -, -, -, -, e0, e1, -⟩ := idx_facts t
  funext y
  show V c main_v22 (((cfg0.win 4).blk t).view.emb y) = V c main_v22 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- What the one point writes back is the whole of the stacked pair. -/
theorem flushed_eq (c : Dev nD) (t : Fin cfg0.N) :
    (dat0 (F := Ideal) V c).flushed 5 t
      = ((cfg0.win 5).blk t).view.read (Elt Ideal)
          (Cert.Spec.projPairBias (V c main_v18) (V c main_v4) (V c main_v13) (V c main_v21) (V c main_v22)) := by
  show (cfg0.win 5).cut (grid0.coords t) ((dat0 V c).after 5 t) = _
  rw [after0_5, blk_rel, blk_wi, blk_wo, blk_bi, blk_bo, out_eq]
  obtain ⟨-, -, -, -, -, -, -, -, -, -, e0, e1, e2⟩ := idx_facts t
  funext j
  show Cert.Spec.projPairBias (V c main_v18) (V c main_v4) (V c main_v13) (V c main_v21) (V c main_v22) j
    = Cert.Spec.projPairBias (V c main_v18) (V c main_v4) (V c main_v13) (V c main_v21) (V c main_v22) (((cfg0.win 5).blk t).view.emb j)
  refine congrArg _ (funext fun a => Fin.ext ?_)
  match a with
  | ⟨0, _⟩ => show (j 0).val = win0_5.index t (0 : Fin 3) * 2 + 1 * (j 0).val; omega
  | ⟨1, _⟩ => show (j 1).val = win0_5.index t (1 : Fin 3) * 500 + 1 * (j 1).val; omega
  | ⟨2, _⟩ => show (j 2).val = win0_5.index t (2 : Fin 3) * 128 + 1 * (j 2).val; omega

/-- An index of the output array is in the point's block iff each coordinate is in the block's range on its axis. -/
theorem mem_blk (t : Fin cfg0.N) (i : S2x500x128.Idx) :
    i ∈ ((cfg0.win 5).blk t).view.set ↔ ∀ a : Fin 3, win0_5.index t a * S2x500x128.size a ≤ (i a).val ∧ (i a).val < win0_5.index t a * S2x500x128.size a + S2x500x128.size a := by
  show i ∈ ((View.whole main_v23).slice (win0_5.rect t)).set ↔ _
  rw [View.set_slice_whole, Rect.mem_set_unit]
  exact Iff.rfl

/-- The array the region leaves is the stacked pair of biased projections of the arrays it found. -/
theorem final (c : Dev nD) :
    (dat0 (F := Ideal) V c).arrAt 5 cfg0.N
      = Cert.Spec.projPairBias (V c main_v18) (V c main_v4) (V c main_v13) (V c main_v21) (V c main_v22) := by
  exact (dat0 V c).arrAt_eq_of_cover 5 _ (fun t _ => flushed_eq V c t) (fun i => ⟨t0_0, flush0_5 _, by
    rw [mem_blk]
    obtain ⟨-, -, -, -, -, -, -, -, -, -, e0, e1, e2⟩ := idx_facts t0_0
    intro a
    match a with
    | ⟨0, _⟩ => show win0_5.index t0_0 (0 : Fin 3) * 2 ≤ (i 0).val ∧ (i 0).val < win0_5.index t0_0 (0 : Fin 3) * 2 + 2; have : (i 0).val < 2 := (i 0).isLt; omega
    | ⟨1, _⟩ => show win0_5.index t0_0 (1 : Fin 3) * 500 ≤ (i 1).val ∧ (i 1).val < win0_5.index t0_0 (1 : Fin 3) * 500 + 500; have : (i 1).val < 500 := (i 1).isLt; omega
    | ⟨2, _⟩ => show win0_5.index t0_0 (2 : Fin 3) * 128 ≤ (i 2).val ∧ (i 2).val < win0_5.index t0_0 (2 : Fin 3) * 128 + 128; have : (i 2).val < 128 := (i 2).isLt; omega⟩)

end Cert.KernelIdeal.Reg0

end
-- ==== Proof.Reg1.lean ====
import proofs.«423962_j4561255268668_3_alg».proof.Proof.Gen.KernelIdeal.Frame
import proofs.«423962_j4561255268668_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! The contraction of the block's matmul: one axis of 128 columns against 128 rows. -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matmul into a zero accumulator at row `p`, column `q`: row `p` of the left against column `q` of the right. -/
theorem matmul_at (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- Adding a leading unit axis to a `[5000, 128]` value moves nothing. -/
theorem addUnit_at (v : S5000x128.Idx → EReal) (s : Fin 1) (p : Fin 5000) (q : Fin 128) :
    shapeCast S1x5000x128 v shapeCasts_S5000x128_S1x5000x128 (ix3 s p q) = v (ix2 p q) := by
  refine shapeCast_apply v _ (ix3 s p q) (ix2 p q) ?_
  rw [Shape.rowMajor_val_two, Shape.rowMajor_val_three]
  have hs : s.val = 0 := by omega
  show p.val * 128 + q.val = (s.val * 5000 + p.val) * 128 + q.val
  rw [hs]; omega

/-- The first store's payload at plane `s`, row `p`, column `q`: row `p` of the block against column `q` of the first weight. -/
theorem pay2_at (x0 : Vec Ideal S5000x128 .bf16) (x1 : Vec Ideal S128x128 .bf16) (s : Fin 1) (p : Fin 5000) (q : Fin 128) :
    k1_pay2 (F := Ideal) x0 x1 (ix3 s p q) = ∑ k : Fin 128, x0 (ix2 p k) * x1 (ix2 k q) := by
  unfold k1_pay2 k1_pay1
  dsimp only
  rw [addUnit_at, shapeCast_self, shapeCast_self, matmul_at]

/-- The second store's payload, the same against the second weight. -/
theorem pay3_at (x0 : Vec Ideal S5000x128 .bf16) (x2 : Vec Ideal S128x128 .bf16) (s : Fin 1) (p : Fin 5000) (q : Fin 128) :
    k1_pay3 (F := Ideal) x0 x2 (ix3 s p q) = ∑ k : Fin 128, x0 (ix2 p k) * x2 (ix2 k q) := by
  unfold k1_pay3 k1_pay1
  dsimp only
  rw [addUnit_at, shapeCast_self, shapeCast_self, matmul_at]

theorem zeros2 : (![0, 0] : Fin 2 → Nat) = fun _ => 0 := funext fun a => by fin_cases a <;> rfl

/-- What the body leaves in the output's staging buffer is the pair of projections of the staged rows: plane `0` the
    rows against the first weight, plane `1` against the second. The two stores tile the buffer plane by plane, and
    each store's payload is its plane of that one function. -/
theorem out_eq (x0 : Vec Ideal S5000x128 .bf16) (x1 x2 : Vec Ideal S128x128 .bf16) :
    out1_3 (F := Ideal) x0 x1 x2 = Cert.Spec.projPair x0 x1 x2 := by
  funext y
  unfold out1_3
  simp only [View.ld_unit_zero (S := S5000x128) zeros2, View.ld_unit_zero (S := S128x128) zeros2]
  refine View.canon_apply_of_pieces (Val := Elt Ideal) (S := S2x5000x128) (e := .f32) (Cert.Spec.projPair x0 x1 x2) _ ?_ y (cover1_3 _ _ y)
  intro pc hpc
  rcases List.mem_cons.mp hpc with rfl | hpc
  · intro (x : S1x5000x128.Idx)
    obtain ⟨s, p, q, rfl⟩ : ∃ (s : Fin 1) (p : Fin 5000) (q : Fin 128), x = ix3 s p q := ⟨x 0, x 1, x 2, eq_ix3 x⟩
    show k1_pay3 (F := Ideal) x0 x2 (ix3 s p q) = _
    rw [pay3_at]
    have e0 : ¬ ((r1_3.emb (ix3 s p q)) 0).val = 0 := by
      show ¬ (1 + 1 * s.val = 0); omega
    have e1 : (r1_3.emb (ix3 s p q)) 1 = p := Fin.ext (show 0 + 1 * p.val = p.val by omega)
    have e2 : (r1_3.emb (ix3 s p q)) 2 = q := Fin.ext (show 0 + 1 * q.val = q.val by omega)
    show _ = Cert.Spec.dotRC x0 (if ((r1_3.emb (ix3 s p q)) 0).val = 0 then x1 else x2) ((r1_3.emb (ix3 s p q)) 1) ((r1_3.emb (ix3 s p q)) 2)
    rw [if_neg e0, e1, e2]
    rfl
  rcases List.mem_cons.mp hpc with rfl | hpc
  · intro (x : S1x5000x128.Idx)
    obtain ⟨s, p, q, rfl⟩ : ∃ (s : Fin 1) (p : Fin 5000) (q : Fin 128), x = ix3 s p q := ⟨x 0, x 1, x 2, eq_ix3 x⟩
    show k1_pay2 (F := Ideal) x0 x1 (ix3 s p q) = _
    rw [pay2_at]
    have e0 : ((r1_2.emb (ix3 s p q)) 0).val = 0 := by
      show 0 + 1 * s.val = 0; omega
    have e1 : (r1_2.emb (ix3 s p q)) 1 = p := Fin.ext (show 0 + 1 * p.val = p.val by omega)
    have e2 : (r1_2.emb (ix3 s p q)) 2 = q := Fin.ext (show 0 + 1 * q.val = q.val by omega)
    show _ = Cert.Spec.dotRC x0 (if ((r1_2.emb (ix3 s p q)) 0).val = 0 then x1 else x2) ((r1_2.emb (ix3 s p q)) 1) ((r1_2.emb (ix3 s p q)) 2)
    rw [if_pos e0, e1, e2]
    rfl
  · exact absurd hpc List.not_mem_nil

/-! From the blocks to the array. The grid has ten points; point `t` stages rows `5000 t … 5000 t + 4999` of the table,
    the two weights whole, and writes back both planes of those rows. -/

/-- The windows' block indices, decided over the ten points: the table's row block moves with the output's, every
    other block index is zero. -/
theorem idx_facts : ∀ t : Fin cfg1.N,
    win1_0.index t (0 : Fin 2) = win1_3.index t (1 : Fin 3)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = 0 ∧ win1_3.index t (2 : Fin 3) = 0
    ∧ win1_3.index t (1 : Fin 3) ≤ 9 :=
  (by decide +kernel : ∀ t : Fin grid1.N, _)

/-- Every row block of the output is some point's. -/
theorem idx_onto : ∀ b : Fin 10, ∃ t : Fin cfg1.N, win1_3.index t = ![0, b.val, 0] :=
  (by decide +kernel : ∀ b : Fin 10, ∃ t : Fin grid1.N, win1_3.index t = ![0, b.val, 0])

/-- Row `p` of the table's staged block at point `t` is row `5000 · (block index) + p` of the table. -/
theorem rows_read (c : Dev nD) (t : Fin cfg1.N) (p : Fin 5000) (k : Fin 128) (r : Fin 50000)
    (hr : r.val = win1_3.index t (1 : Fin 3) * 5000 + p.val) :
    iblk1 (F := Ideal) V c 0 t (ix2 p k) = V c main_v19 (ix2 r k) := by
  obtain ⟨e0, e1, -⟩ := idx_facts t
  show V c main_v19 (((cfg1.win 0).blk t).view.emb (ix2 p k)) = V c main_v19 (ix2 r k)
  refine congrArg (V c main_v19) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The first weight is staged whole. -/
theorem wi_read (c : Dev nD) (t : Fin cfg1.N) :
    (iblk1 (F := Ideal) V c 1 t : S128x128.Idx → EReal) = V c main_v6 := by
  obtain ⟨-, -, e2, e3, -⟩ := idx_facts t
  funext y
  show V c main_v6 (((cfg1.win 1).blk t).view.emb y) = V c main_v6 y
  refine congrArg (V c main_v6) (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- The second weight is staged whole. -/
theorem wo_read (c : Dev nD) (t : Fin cfg1.N) :
    (iblk1 (F := Ideal) V c 2 t : S128x128.Idx → EReal) = V c main_v15 := by
  obtain ⟨-, -, -, -, e4, e5, -⟩ := idx_facts t
  funext y
  show V c main_v15 (((cfg1.win 2).blk t).view.emb y) = V c main_v15 y
  refine congrArg (V c main_v15) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The pair of projections of a block of rows is the block of the pair of projections: an entry reads only its own row. -/
theorem projPair_rows (x : Cert.Spec.Mat 5000 128) (X : Cert.Spec.Mat 50000 128) (wi wo : Cert.Spec.Mat 128 128)
    (s : Fin 2) (p : Fin 5000) (r : Fin 50000) (q : Fin 128) (hx : ∀ k, x (ix2 p k) = X (ix2 r k)) :
    Cert.Spec.projPair x wi wo (ix3 s p q) = Cert.Spec.projPair X wi wo (ix3 s r q) := by
  unfold Cert.Spec.projPair Cert.Spec.dotRC
  exact Finset.sum_congr rfl fun k _ => by rw [hx k]

/-- What point `t` writes back is its block of the pair of projections of the whole table. -/
theorem flushed_eq (c : Dev nD) (t : Fin cfg1.N) :
    (dat1 (F := Ideal) V c).flushed 3 t
      = ((cfg1.win 3).blk t).view.read (Elt Ideal) (Cert.Spec.projPair (V c main_v19) (V c main_v6) (V c main_v15)) := by
  show (cfg1.win 3).cut (grid1.coords t) ((dat1 V c).after 3 t) = _
  rw [after1_3]
  refine (congrArg ((cfg1.win 3).cut (grid1.coords t)) (out_eq (iblk1 V c 0 t) (iblk1 V c 1 t) (iblk1 V c 2 t))).trans ?_
  obtain ⟨-, -, -, -, -, -, e6, e7, e8⟩ := idx_facts t
  refine funext fun (j : S2x5000x128.Idx) => ?_
  obtain ⟨s, p, q, rfl⟩ : ∃ (s : Fin 2) (p : Fin 5000) (q : Fin 128), j = ix3 s p q := ⟨j 0, j 1, j 2, eq_ix3 j⟩
  have hr : win1_3.index t (1 : Fin 3) * 5000 + p.val < 50000 := by omega
  have hi : ((cfg1.win 3).blk t).view.emb (ix3 s p q)
      = ix3 s (⟨win1_3.index t (1 : Fin 3) * 5000 + p.val, hr⟩ : Fin 50000) q := by
    funext a; apply Fin.ext
    match a with
    | ⟨0, _⟩ => show win1_3.index t (0 : Fin 3) * 2 + 1 * s.val = s.val; omega
    | ⟨1, _⟩ => show win1_3.index t (1 : Fin 3) * 5000 + 1 * p.val = win1_3.index t (1 : Fin 3) * 5000 + p.val; omega
    | ⟨2, _⟩ => show win1_3.index t (2 : Fin 3) * 128 + 1 * q.val = q.val; omega
  show Cert.Spec.projPair (iblk1 V c 0 t) (iblk1 V c 1 t) (iblk1 V c 2 t) (ix3 s p q)
    = Cert.Spec.projPair (V c main_v19) (V c main_v6) (V c main_v15) (((cfg1.win 3).blk t).view.emb (ix3 s p q))
  rw [hi, wi_read, wo_read]
  exact projPair_rows (iblk1 V c 0 t) (V c main_v19) (V c main_v6) (V c main_v15) s p _ q (fun k => rows_read V c t p k _ rfl)

/-- An index of the output is in point `t`'s block iff each coordinate is in the block's range on its axis. -/
theorem mem_blk (t : Fin cfg1.N) (i : S2x50000x128.Idx) :
    i ∈ ((cfg1.win 3).blk t).view.set ↔ ∀ a : Fin 3, win1_3.index t a * S2x5000x128.size a ≤ (i a).val ∧ (i a).val < win1_3.index t a * S2x5000x128.size a + S2x5000x128.size a := by
  show i ∈ ((View.whole main_v24).slice (win1_3.rect t)).set ↔ _
  rw [View.set_slice_whole, Rect.mem_set_unit]
  exact Iff.rfl

/-- Every index of the output is in some point's block: row `r` in that of the point whose row block is `r / 5000`. -/
theorem covered (i : S2x50000x128.Idx) :
    ∃ t : Fin cfg1.N, (cfg1.win 3).flush t = true ∧ i ∈ ((cfg1.win 3).blk t).view.set := by
  have h0 : (i 0).val < 2 := (i 0).isLt
  have h1 : (i 1).val < 50000 := (i 1).isLt
  have h2 : (i 2).val < 128 := (i 2).isLt
  obtain ⟨t, ht⟩ := idx_onto ⟨(i 1).val / 5000, by omega⟩
  have q0 : win1_3.index t (0 : Fin 3) = 0 := congrFun ht 0
  have q1 : win1_3.index t (1 : Fin 3) = (i 1).val / 5000 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 2 ≤ (i 0).val ∧ (i 0).val < win1_3.index t (0 : Fin 3) * 2 + 2; omega
  | ⟨1, _⟩ => show win1_3.index t (1 : Fin 3) * 5000 ≤ (i 1).val ∧ (i 1).val < win1_3.index t (1 : Fin 3) * 5000 + 5000; omega
  | ⟨2, _⟩ => show win1_3.index t (2 : Fin 3) * 128 ≤ (i 2).val ∧ (i 2).val < win1_3.index t (2 : Fin 3) * 128 + 128; omega

/-- After the region the output array is the pair of projections of the table: each point's write-back is its block of
    that one function, and the ten blocks cover the array. -/
theorem final (c : Dev nD) :
    (dat1 (F := Ideal) V c).arrAt 3 cfg1.N = Cert.Spec.projPair (V c main_v19) (V c main_v6) (V c main_v15) :=
  (dat1 V c).arrAt_eq_of_cover 3 _ (fun t _ => flushed_eq V c t) covered

end Cert.KernelIdeal.Reg1

end
-- ==== Proof.Reg2.lean ====
import proofs.«423962_j4561255268668_3_alg».proof.Proof.Gen.KernelIdeal.Frame
import proofs.«423962_j4561255268668_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! The contraction of the block's matmul: one axis of 64 columns against 64 rows. -/

/-- The left operand is read at the output's row … -/
theorem lhs_axis0 (i : S365x128.Idx) (q : dot_S365x64_S64x128_S365x128_1_0_0_1_n_n.contr.Idx) :
    (dot_S365x64_S64x128_S365x128_1_0_0_1_n_n.lhsIdx i q 0).val = (i 0).val := by
  unfold DotDims.lhsIdx
  rw [dif_neg (show ¬(0 : Fin S365x64.rank) ∈ dot_S365x64_S64x128_S365x128_1_0_0_1_n_n.lhsBatch by decide), dif_pos (show (0 : Fin S365x64.rank) ∈ dot_S365x64_S64x128_S365x128_1_0_0_1_n_n.lhsNonContracting by decide)]
  rfl
/-- … and the contraction's column; -/
theorem lhs_axis1 (i : S365x128.Idx) (q : dot_S365x64_S64x128_S365x128_1_0_0_1_n_n.contr.Idx) :
    (dot_S365x64_S64x128_S365x128_1_0_0_1_n_n.lhsIdx i q 1).val = (q ⟨0, by decide⟩).val :=
  dot_S365x64_S64x128_S365x128_1_0_0_1_n_n.lhsIdx_val_of_single rfl i q
/-- the right operand at the contraction's row … -/
theorem rhs_axis0 (i : S365x128.Idx) (q : dot_S365x64_S64x128_S365x128_1_0_0_1_n_n.contr.Idx) :
    (dot_S365x64_S64x128_S365x128_1_0_0_1_n_n.rhsIdx i q 0).val = (q ⟨0, by decide⟩).val :=
  dot_S365x64_S64x128_S365x128_1_0_0_1_n_n.rhsIdx_val_of_single rfl i q
/-- … and the output's column. -/
theorem rhs_axis1 (i : S365x128.Idx) (q : dot_S365x64_S64x128_S365x128_1_0_0_1_n_n.contr.Idx) :
    (dot_S365x64_S64x128_S365x128_1_0_0_1_n_n.rhsIdx i q 1).val = (i 1).val := by
  unfold DotDims.rhsIdx
  rw [dif_neg (show ¬(1 : Fin S64x128.rank) ∈ dot_S365x64_S64x128_S365x128_1_0_0_1_n_n.rhsBatch by decide), dif_pos (show (1 : Fin S64x128.rank) ∈ dot_S365x64_S64x128_S365x128_1_0_0_1_n_n.rhsNonContracting by decide)]
  rfl

/-- The block's matmul into a zero accumulator at row `p`, column `q`: row `p` of the left against column `q` of the right. -/
theorem matmul_at (l : FVec Ideal S365x64 .bf16) (r : FVec Ideal S64x128 .bf16) (p : Fin 365) (q : Fin 128) :
    matmul dot_S365x64_S64x128_S365x128_1_0_0_1_n_n none l r (constant (F := Ideal) S365x128 .f32 0x00000000#32) (ix2 p q)
      = ∑ k : Fin 64, l (ix2 p k) * r (ix2 k q) := by
  simp only [matmul]
  rw [Ideal.matmul_constant_zero_apply, ← Equiv.sum_comp (ValueIdx.contrEquiv1 dot_S365x64_S64x128_S365x128_1_0_0_1_n_n 64 rfl rfl).symm]
  refine Finset.sum_congr rfl fun k _ => ?_
  have hk := ValueIdx.contrEquiv1_symm_val dot_S365x64_S64x128_S365x128_1_0_0_1_n_n 64 rfl rfl k
  have el : dot_S365x64_S64x128_S365x128_1_0_0_1_n_n.lhsIdx (ix2 p q) ((ValueIdx.contrEquiv1 dot_S365x64_S64x128_S365x128_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S365x64_S64x128_S365x128_1_0_0_1_n_n.rhsIdx (ix2 p q) ((ValueIdx.contrEquiv1 dot_S365x64_S64x128_S365x128_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- Adding a leading unit axis to a `[365, 128]` value moves nothing. -/
theorem addUnit_at (v : S365x128.Idx → EReal) (s : Fin 1) (p : Fin 365) (q : Fin 128) :
    shapeCast S1x365x128 v shapeCasts_S365x128_S1x365x128 (ix3 s p q) = v (ix2 p q) := by
  refine shapeCast_apply v _ (ix3 s p q) (ix2 p q) ?_
  rw [Shape.rowMajor_val_two, Shape.rowMajor_val_three]
  have hs : s.val = 0 := by omega
  show p.val * 128 + q.val = (s.val * 365 + p.val) * 128 + q.val
  rw [hs]; omega

/-- The first store's payload at plane `s`, row `p`, column `q`: row `p` of the table against column `q` of the first weight
    (over the extended reals the change of float format on the way out is the identity). -/
theorem pay2_at (x0 : Vec Ideal S365x64 .bf16) (x1 : Vec Ideal S64x128 .bf16) (s : Fin 1) (p : Fin 365) (q : Fin 128) :
    k2_pay2 (F := Ideal) x0 x1 (ix3 s p q) = ∑ k : Fin 64, x0 (ix2 p k) * x1 (ix2 k q) := by
  unfold k2_pay2 k2_pay1
  dsimp only
  rw [addUnit_at, truncf_apply, shapeCast_self, shapeCast_self, matmul_at]

/-- The second store's payload, the same against the second weight. -/
theorem pay3_at (x0 : Vec Ideal S365x64 .bf16) (x2 : Vec Ideal S64x128 .bf16) (s : Fin 1) (p : Fin 365) (q : Fin 128) :
    k2_pay3 (F := Ideal) x0 x2 (ix3 s p q) = ∑ k : Fin 64, x0 (ix2 p k) * x2 (ix2 k q) := by
  unfold k2_pay3 k2_pay1
  dsimp only
  rw [addUnit_at, truncf_apply, shapeCast_self, shapeCast_self, matmul_at]

theorem zeros2 : (![0, 0] : Fin 2 → Nat) = fun _ => 0 := funext fun a => by fin_cases a <;> rfl

/-- What the body leaves in the output's staging buffer is the pair of projections of the staged table: plane `0` the
    rows against the first weight, plane `1` against the second. The two stores tile the buffer plane by plane, and
    each store's payload is its plane of that one function. -/
theorem out_eq (x0 : Vec Ideal S365x64 .bf16) (x1 x2 : Vec Ideal S64x128 .bf16) :
    out2_3 (F := Ideal) x0 x1 x2 = Cert.Spec.projPair x0 x1 x2 := by
  funext y
  unfold out2_3
  simp only [View.ld_unit_zero (S := S365x64) zeros2, View.ld_unit_zero (S := S64x128) zeros2]
  refine View.canon_apply_of_pieces (Val := Elt Ideal) (S := S2x365x128) (e := .bf16) (Cert.Spec.projPair x0 x1 x2) _ ?_ y (cover2_3 _ _ y)
  intro pc hpc
  rcases List.mem_cons.mp hpc with rfl | hpc
  · intro (x : S1x365x128.Idx)
    obtain ⟨s, p, q, rfl⟩ : ∃ (s : Fin 1) (p : Fin 365) (q : Fin 128), x = ix3 s p q := ⟨x 0, x 1, x 2, eq_ix3 x⟩
    show k2_pay3 (F := Ideal) x0 x2 (ix3 s p q) = _
    rw [pay3_at]
    have e0 : ¬ ((r2_3.emb (ix3 s p q)) 0).val = 0 := by
      show ¬ (1 + 1 * s.val = 0); omega
    have e1 : (r2_3.emb (ix3 s p q)) 1 = p := Fin.ext (show 0 + 1 * p.val = p.val by omega)
    have e2 : (r2_3.emb (ix3 s p q)) 2 = q := Fin.ext (show 0 + 1 * q.val = q.val by omega)
    show _ = Cert.Spec.dotRC x0 (if ((r2_3.emb (ix3 s p q)) 0).val = 0 then x1 else x2) ((r2_3.emb (ix3 s p q)) 1) ((r2_3.emb (ix3 s p q)) 2)
    rw [if_neg e0, e1, e2]
    rfl
  rcases List.mem_cons.mp hpc with rfl | hpc
  · intro (x : S1x365x128.Idx)
    obtain ⟨s, p, q, rfl⟩ : ∃ (s : Fin 1) (p : Fin 365) (q : Fin 128), x = ix3 s p q := ⟨x 0, x 1, x 2, eq_ix3 x⟩
    show k2_pay2 (F := Ideal) x0 x1 (ix3 s p q) = _
    rw [pay2_at]
    have e0 : ((r2_2.emb (ix3 s p q)) 0).val = 0 := by
      show 0 + 1 * s.val = 0; omega
    have e1 : (r2_2.emb (ix3 s p q)) 1 = p := Fin.ext (show 0 + 1 * p.val = p.val by omega)
    have e2 : (r2_2.emb (ix3 s p q)) 2 = q := Fin.ext (show 0 + 1 * q.val = q.val by omega)
    show _ = Cert.Spec.dotRC x0 (if ((r2_2.emb (ix3 s p q)) 0).val = 0 then x1 else x2) ((r2_2.emb (ix3 s p q)) 1) ((r2_2.emb (ix3 s p q)) 2)
    rw [if_pos e0, e1, e2]
    rfl
  · exact absurd hpc List.not_mem_nil

/-! From the block to the array. The grid has one point: it stages the table and the two weights whole and writes back
    the whole output. -/

/-- The windows' block indices at the one point: all zero. -/
theorem idx_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) = 0 ∧ win2_3.index t (1 : Fin 3) = 0 ∧ win2_3.index t (2 : Fin 3) = 0 :=
  (by decide +kernel : ∀ t : Fin grid2.N, _)

/-- There is a point. -/
theorem a_point : ∃ t : Fin cfg2.N, win2_3.index t = ![0, 0, 0] :=
  (by decide +kernel : ∃ t : Fin grid2.N, win2_3.index t = ![0, 0, 0])

/-- The table is staged whole. -/
theorem x_read (c : Dev nD) (t : Fin cfg2.N) :
    (iblk2 (F := Ideal) V c 0 t : S365x64.Idx → EReal) = V c main_v20 := by
  obtain ⟨e0, e1, -⟩ := idx_facts t
  funext y
  show V c main_v20 (((cfg2.win 0).blk t).view.emb y) = V c main_v20 y
  refine congrArg (V c main_v20) (funext fun a => Fin.ext ?_)
  match a with
  | ⟨0, _⟩ => show win2_0.index t (0 : Fin 2) * 365 + 1 * (y 0).val = (y 0).val; omega
  | ⟨1, _⟩ => show win2_0.index t (1 : Fin 2) * 64 + 1 * (y 1).val = (y 1).val; omega

/-- The first weight is staged whole. -/
theorem wi_read (c : Dev nD) (t : Fin cfg2.N) :
    (iblk2 (F := Ideal) V c 1 t : S64x128.Idx → EReal) = V c main_v8 := by
  obtain ⟨-, -, e2, e3, -⟩ := idx_facts t
  funext y
  show V c main_v8 (((cfg2.win 1).blk t).view.emb y) = V c main_v8 y
  refine congrArg (V c main_v8) (funext fun a => Fin.ext ?_)
  match a with
  | ⟨0, _⟩ => show win2_1.index t (0 : Fin 2) * 64 + 1 * (y 0).val = (y 0).val; omega
  | ⟨1, _⟩ => show win2_1.index t (1 : Fin 2) * 128 + 1 * (y 1).val = (y 1).val; omega

/-- The second weight is staged whole. -/
theorem wo_read (c : Dev nD) (t : Fin cfg2.N) :
    (iblk2 (F := Ideal) V c 2 t : S64x128.Idx → EReal) = V c main_v17 := by
  obtain ⟨-, -, -, -, e4, e5, -⟩ := idx_facts t
  funext y
  show V c main_v17 (((cfg2.win 2).blk t).view.emb y) = V c main_v17 y
  refine congrArg (V c main_v17) (funext fun a => Fin.ext ?_)
  match a with
  | ⟨0, _⟩ => show win2_2.index t (0 : Fin 2) * 64 + 1 * (y 0).val = (y 0).val; omega
  | ⟨1, _⟩ => show win2_2.index t (1 : Fin 2) * 128 + 1 * (y 1).val = (y 1).val; omega

/-- What the point writes back is its block — the whole — of the pair of projections of the table. -/
theorem flushed_eq (c : Dev nD) (t : Fin cfg2.N) :
    (dat2 (F := Ideal) V c).flushed 3 t
      = ((cfg2.win 3).blk t).view.read (Elt Ideal) (Cert.Spec.projPair (V c main_v20) (V c main_v8) (V c main_v17)) := by
  show (cfg2.win 3).cut (grid2.coords t) ((dat2 V c).after 3 t) = _
  rw [after2_3]
  refine (congrArg ((cfg2.win 3).cut (grid2.coords t)) (out_eq (iblk2 V c 0 t) (iblk2 V c 1 t) (iblk2 V c 2 t))).trans ?_
  obtain ⟨-, -, -, -, -, -, e6, e7, e8⟩ := idx_facts t
  refine funext fun (j : S2x365x128.Idx) => ?_
  have hi : ((cfg2.win 3).blk t).view.emb j = j := by
    funext a; apply Fin.ext
    match a with
    | ⟨0, _⟩ => show win2_3.index t (0 : Fin 3) * 2 + 1 * (j 0).val = (j 0).val; omega
    | ⟨1, _⟩ => show win2_3.index t (1 : Fin 3) * 365 + 1 * (j 1).val = (j 1).val; omega
    | ⟨2, _⟩ => show win2_3.index t (2 : Fin 3) * 128 + 1 * (j 2).val = (j 2).val; omega
  show Cert.Spec.projPair (iblk2 V c 0 t) (iblk2 V c 1 t) (iblk2 V c 2 t) j
    = Cert.Spec.projPair (V c main_v20) (V c main_v8) (V c main_v17) (((cfg2.win 3).blk t).view.emb j)
  rw [hi, x_read, wi_read, wo_read]

/-- An index of the output is in the point's block iff each coordinate is in the block's range on its axis. -/
theorem mem_blk (t : Fin cfg2.N) (i : S2x365x128.Idx) :
    i ∈ ((cfg2.win 3).blk t).view.set ↔ ∀ a : Fin 3, win2_3.index t a * S2x365x128.size a ≤ (i a).val ∧ (i a).val < win2_3.index t a * S2x365x128.size a + S2x365x128.size a := by
  show i ∈ ((View.whole main_v25).slice (win2_3.rect t)).set ↔ _
  rw [View.set_slice_whole, Rect.mem_set_unit]
  exact Iff.rfl

/-- Every index of the output is in the one point's block. -/
theorem covered (i : S2x365x128.Idx) :
    ∃ t : Fin cfg2.N, (cfg2.win 3).flush t = true ∧ i ∈ ((cfg2.win 3).blk t).view.set := by
  have h0 : (i 0).val < 2 := (i 0).isLt
  have h1 : (i 1).val < 365 := (i 1).isLt
  have h2 : (i 2).val < 128 := (i 2).isLt
  obtain ⟨t, ht⟩ := a_point
  have q0 : win2_3.index t (0 : Fin 3) = 0 := congrFun ht 0
  have q1 : win2_3.index t (1 : Fin 3) = 0 := congrFun ht 1
  have q2 : win2_3.index t (2 : Fin 3) = 0 := congrFun ht 2
  refine ⟨t, flush2_3 t, ?_⟩
  rw [mem_blk]
  intro a
  match a with
  | ⟨0, _⟩ => show win2_3.index t (0 : Fin 3) * 2 ≤ (i 0).val ∧ (i 0).val < win2_3.index t (0 : Fin 3) * 2 + 2; omega
  | ⟨1, _⟩ => show win2_3.index t (1 : Fin 3) * 365 ≤ (i 1).val ∧ (i 1).val < win2_3.index t (1 : Fin 3) * 365 + 365; omega
  | ⟨2, _⟩ => show win2_3.index t (2 : Fin 3) * 128 ≤ (i 2).val ∧ (i 2).val < win2_3.index t (2 : Fin 3) * 128 + 128; omega

/-- After the region the output array is the pair of projections of the table: the one point's write-back is the whole
    of that function. -/
theorem final (c : Dev nD) :
    (dat2 (F := Ideal) V c).arrAt 3 cfg2.N = Cert.Spec.projPair (V c main_v20) (V c main_v8) (V c main_v17) :=
  (dat2 V c).arrAt_eq_of_cover 3 _ (fun t _ => flushed_eq V c t) covered

end Cert.KernelIdeal.Reg2

end
-- ==== Proof.Reg3.lean ====
import proofs.«423962_j4561255268668_3_alg».proof.Proof.Gen.KernelIdeal.Frame
import proofs.«423962_j4561255268668_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! The product of a block of rows with the square weight, read at a row and a column: the sum over the 128 shared coordinates. -/

theorem lhs_prod_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_prod_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_prod_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_prod_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem prod_apply (l : FVec Ideal S5000x128 .bf16) (r : FVec Ideal S128x128 .bf16) (p : Fin 5000) (q : Fin 128) :
    matmul (F := Ideal) dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_prod_0 _ _
    | ⟨1, _⟩ => exact (lhs_prod_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_prod_0 _ _).trans hk
    | ⟨1, _⟩ => exact rhs_prod_1 _ _)
  rw [el, er]

/-! The body's one stored value, read at a row and a column of the block. -/

theorem pay_apply (x0 : Vec Ideal S5000x128 .bf16) (x3 : Vec Ideal S128x128 .bf16) (x4 : Vec Ideal S1x128 .f32)
    (x1 : Vec Ideal S5000x128 .f32) (x2 : Vec Ideal S5000x1 .f32) (p : Fin 5000) (q : Fin 128) :
    k3_pay1 (F := Ideal) x0 x3 x4 x1 x2 (ix2 p q)
      = ((∑ k : Fin 128, x0 (ix2 p k) * x3 (ix2 k q)) + x4 (ix2 0 q))
          + Ideal.div (x1 (ix2 p q)) (max (x2 (ix2 p 0)) Cert.Spec.one) := by
  unfold k3_pay1
  simp only [shapeCast_self]
  rw [addf_apply, addf_apply, divf_apply, prod_apply]
  rw [broadcastTo_apply x4 broadcasts_S1x128_S5000x128 (ix2 p q) (ix2 0 q) (fun a => by
        match a with
        | ⟨0, _⟩ => rfl
        | ⟨1, _⟩ => rfl)]
  rw [broadcastTo_apply _ broadcasts_S5000x1_S5000x128 (ix2 p q) (ix2 p 0) (fun a => by
        match a with
        | ⟨0, _⟩ => rfl
        | ⟨1, _⟩ => rfl)]
  rw [maximumf_apply, broadcast_apply]
  rfl

/-! A block of 5000 rows against the arrays it was cut from: where each block entry is the array's entry of row
    `n * 5000 + p`, the stored value at `(p, q)` is the node update at `(n * 5000 + p, q)`. -/

theorem pay_eq_upd (ent sums : Cert.Spec.Mat 50000 128) (cnt : Cert.Spec.Mat 50000 1) (ws : Cert.Spec.Mat 128 128)
    (bs : Cert.Spec.Mat 1 128)
    (x0 : Vec Ideal S5000x128 .bf16) (x1 : Vec Ideal S5000x128 .f32) (x2 : Vec Ideal S5000x1 .f32)
    (x3 : Vec Ideal S128x128 .bf16) (x4 : Vec Ideal S1x128 .f32) (p : Fin 5000) (q : Fin 128) (r : Fin 50000)
    (h0 : ∀ k : Fin 128, x0 (ix2 p k) = ent (ix2 r k)) (h1 : x1 (ix2 p q) = sums (ix2 r q))
    (h2 : x2 (ix2 p 0) = cnt (ix2 r 0)) (h3 : ∀ k : Fin 128, x3 (ix2 k q) = ws (ix2 k q))
    (h4 : x4 (ix2 0 q) = bs (ix2 0 q)) :
    k3_pay1 (F := Ideal) x0 x3 x4 x1 x2 (ix2 p q) = Cert.Spec.nodeUpd ent sums cnt ws bs (ix2 r q) := by
  rw [pay_apply, h1, h2, h4]
  unfold Cert.Spec.nodeUpd Cert.Spec.dotRC
  exact congrArg (fun s => s + bs (ix2 0 q) + Ideal.div (sums (ix2 r q)) (max (cnt (ix2 r 0)) Cert.Spec.one))
    (Finset.sum_congr rfl fun k _ => by rw [h0 k, h3 k])

/-! The index maps over the ten grid points: the three row-blocked inputs move with the output, one block of
    5000 rows per point; the weight and the bias stay whole. -/

theorem zeros : (![0, 0] : Fin 2 → Nat) = fun _ => 0 := funext fun a => by fin_cases a <;> rfl

theorem idx_facts : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = win3_5.index t (0 : Fin 2) ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) ≤ 9 ∧ win3_5.index t (1 : Fin 2) = 0 :=
  (by decide +kernel : ∀ t : Fin grid3.N, _)

theorem idx_onto : ∀ n : Fin 10, ∃ t : Fin cfg3.N, win3_5.index t = ![n.val, 0] :=
  (by decide +kernel : ∀ n : Fin 10, ∃ t : Fin grid3.N, win3_5.index t = ![n.val, 0])

/-! Each input block read at an entry is the array's entry of the block's row offset plus the row inside the block. -/

theorem ent_blk (c : Dev nD) (t : Fin cfg3.N) (p : Fin 5000) (k : Fin 128) (r : Fin 50000)
    (hr : r.val = win3_5.index t (0 : Fin 2) * 5000 + p.val) :
    iblk3 (F := Ideal) V c 0 t (ix2 p k) = V c main_v19 (ix2 r k) := by
  obtain ⟨e0, e0', -⟩ := idx_facts t
  show V c main_v19 (((cfg3.win 0).blk t).view.emb (ix2 p k)) = V c main_v19 (ix2 r k)
  refine congrArg (V c main_v19) (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

theorem sums_blk (c : Dev nD) (t : Fin cfg3.N) (p : Fin 5000) (q : Fin 128) (r : Fin 50000)
    (hr : r.val = win3_5.index t (0 : Fin 2) * 5000 + p.val) :
    iblk3 (F := Ideal) V c 1 t (ix2 p q) = V c main_v65 (ix2 r q) := by
  obtain ⟨-, -, e1, e1', -⟩ := idx_facts t
  show V c main_v65 (((cfg3.win 1).blk t).view.emb (ix2 p q)) = V c main_v65 (ix2 r q)
  refine congrArg (V c main_v65) (funext fun a => Fin.ext ?_)
  match a with
  | ⟨0, _⟩ => show win3_1.index t (0 : Fin 2) * 5000 + 1 * p.val = r.val; omega
  | ⟨1, _⟩ => show win3_1.index t (1 : Fin 2) * 128 + 1 * q.val = q.val; omega

theorem cnt_blk (c : Dev nD) (t : Fin cfg3.N) (p : Fin 5000) (r : Fin 50000)
    (hr : r.val = win3_5.index t (0 : Fin 2) * 5000 + p.val) :
    iblk3 (F := Ideal) V c 2 t (ix2 p 0) = V c main_v73 (ix2 r 0) := by
  obtain ⟨-, -, -, -, e2, e2', -⟩ := idx_facts t
  show V c main_v73 (((cfg3.win 2).blk t).view.emb (ix2 p 0)) = V c main_v73 (ix2 r 0)
  refine congrArg (V c main_v73) (funext fun a => Fin.ext ?_)
  match a with
  | ⟨0, _⟩ => show win3_2.index t (0 : Fin 2) * 5000 + 1 * p.val = r.val; omega
  | ⟨1, _⟩ => show win3_2.index t (1 : Fin 2) * 1 + 1 * 0 = 0; omega

theorem ws_blk (c : Dev nD) (t : Fin cfg3.N) (k q : Fin 128) :
    iblk3 (F := Ideal) V c 3 t (ix2 k q) = V c main_v71 (ix2 k q) := by
  obtain ⟨-, -, -, -, -, -, e3, e3', -⟩ := idx_facts t
  show V c main_v71 (((cfg3.win 3).blk t).view.emb (ix2 k q)) = V c main_v71 (ix2 k q)
  refine congrArg (V c main_v71) (funext fun a => Fin.ext ?_)
  match a with
  | ⟨0, _⟩ => show win3_3.index t (0 : Fin 2) * 128 + 1 * k.val = k.val; omega
  | ⟨1, _⟩ => show win3_3.index t (1 : Fin 2) * 128 + 1 * q.val = q.val; omega

theorem bs_blk (c : Dev nD) (t : Fin cfg3.N) (q : Fin 128) :
    iblk3 (F := Ideal) V c 4 t (ix2 0 q) = V c main_v72 (ix2 0 q) := by
  obtain ⟨-, -, -, -, -, -, -, -, e4, e4', -⟩ := idx_facts t
  show V c main_v72 (((cfg3.win 4).blk t).view.emb (ix2 0 q)) = V c main_v72 (ix2 0 q)
  refine congrArg (V c main_v72) (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

/-! What a grid point writes back is its block of the node update of the arrays the region finds. -/

theorem flushed_eq (c : Dev nD) (t : Fin cfg3.N) :
    (dat3 (F := Ideal) V c).flushed 5 t
      = ((cfg3.win 5).blk t).view.read (Elt Ideal)
          (Cert.Spec.nodeUpd (V c main_v19) (V c main_v65) (V c main_v73) (V c main_v71) (V c main_v72)) := by
  show (cfg3.win 5).cut (grid3.coords t) ((dat3 V c).after 5 t) = _
  rw [after3_5]
  unfold out3_5
  rw [View.canon_unit_zero zeros]
  simp only [View.ld_unit_zero (S := S5000x128) zeros, View.ld_unit_zero (S := S128x128) zeros,
    View.ld_unit_zero (S := S1x128) zeros, View.ld_unit_zero (S := S5000x1) zeros]
  obtain ⟨-, -, -, -, -, -, -, -, -, -, hn, e5⟩ := idx_facts t
  funext j
  have hj0 : (j 0).val < 5000 := (j 0).isLt
  have hj1 : (j 1).val < 128 := (j 1).isLt
  show k3_pay1 (F := Ideal) (iblk3 V c 0 t) (iblk3 V c 3 t) (iblk3 V c 4 t) (iblk3 V c 1 t) (iblk3 V c 2 t)
        ((cfg3.win 5).xinj (grid3.coords t) j)
      = Cert.Spec.nodeUpd (V c main_v19) (V c main_v65) (V c main_v73) (V c main_v71) (V c main_v72)
        (((cfg3.win 5).blk t).view.emb j)
  have eL : (cfg3.win 5).xinj (grid3.coords t) j = ix2 (⟨(j 0).val, hj0⟩ : Fin 5000) (⟨(j 1).val, hj1⟩ : Fin 128) :=
    funext fun a => Fin.ext (by
      match a with
      | ⟨0, _⟩ => rfl
      | ⟨1, _⟩ => rfl)
  have eR : ((cfg3.win 5).blk t).view.emb j
      = ix2 (⟨win3_5.index t (0 : Fin 2) * 5000 + (j 0).val, by omega⟩ : Fin 50000) (⟨(j 1).val, hj1⟩ : Fin 128) :=
    funext fun a => Fin.ext (by
      match a with
      | ⟨0, _⟩ =>
        show win3_5.index t (0 : Fin 2) * 5000 + 1 * (j 0).val = win3_5.index t (0 : Fin 2) * 5000 + (j 0).val; omega
      | ⟨1, _⟩ => show win3_5.index t (1 : Fin 2) * 128 + 1 * (j 1).val = (j 1).val; omega)
  rw [eL, eR]
  exact pay_eq_upd (V c main_v19) (V c main_v65) (V c main_v73) (V c main_v71) (V c main_v72)
    (iblk3 V c 0 t) (iblk3 V c 1 t) (iblk3 V c 2 t) (iblk3 V c 3 t) (iblk3 V c 4 t)
    ⟨(j 0).val, hj0⟩ ⟨(j 1).val, hj1⟩ ⟨win3_5.index t (0 : Fin 2) * 5000 + (j 0).val, by omega⟩
    (fun k => ent_blk V c t _ k _ rfl) (sums_blk V c t _ _ _ rfl) (cnt_blk V c t _ _ rfl)
    (fun k => ws_blk V c t k _) (bs_blk V c t _)

/-! An index of the array is in a point's block iff each coordinate is in the block's range on its axis. -/

theorem mem_blk (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v74).slice (win3_5.rect t)).set ↔ _
  rw [View.set_slice_whole, Rect.mem_set_unit]
  exact Iff.rfl

/-! Row `r` of the array lies in the block of the point whose block index is `r / 5000`. -/

theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ := idx_onto ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk]
  intro a
  match a with
  | ⟨0, _⟩ =>
    show win3_5.index t (0 : Fin 2) * 5000 ≤ (i 0).val ∧ (i 0).val < win3_5.index t (0 : Fin 2) * 5000 + 5000; omega
  | ⟨1, _⟩ =>
    show win3_5.index t (1 : Fin 2) * 128 ≤ (i 1).val ∧ (i 1).val < win3_5.index t (1 : Fin 2) * 128 + 128; omega

theorem final (c : Dev nD) :
    (dat3 (F := Ideal) V c).arrAt 5 cfg3.N
      = Cert.Spec.nodeUpd (V c main_v19) (V c main_v65) (V c main_v73) (V c main_v71) (V c main_v72) := by
  exact (dat3 (F := Ideal) V c).arrAt_eq_of_cover 5 _ (fun t _ => flushed_eq V c t) cover

end Cert.KernelIdeal.Reg3

end
-- ==== Proof.Reg4.lean ====
import proofs.«423962_j4561255268668_3_alg».proof.Proof.Gen.KernelIdeal.Frame
import proofs.«423962_j4561255268668_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg4

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! The time region. Its grid has one point and every window's block is its whole array, so the region's output is
    the body's one store read index by index: entry `(p, q)` is row `p` of the time table against column `q` of the
    (already transposed) weight, a sum over the 64 contracted columns, plus entry `q` of the bias row. The narrowing
    of the table to a shorter float format is the identity over the extended reals. -/

/-! ## The contraction's operand indices, axis by axis -/

theorem lhs_dot_0 (i : S365x64.Idx) (q : dot_S365x64_S64x64_S365x64_1_0_0_1_n_n.contr.Idx) :
    (dot_S365x64_S64x64_S365x64_1_0_0_1_n_n.lhsIdx i q 0).val = (i 0).val := by
  unfold DotDims.lhsIdx
  rw [dif_neg (show ¬(0 : Fin S365x64.rank) ∈ dot_S365x64_S64x64_S365x64_1_0_0_1_n_n.lhsBatch by decide), dif_pos (show (0 : Fin S365x64.rank) ∈ dot_S365x64_S64x64_S365x64_1_0_0_1_n_n.lhsNonContracting by decide)]
  rfl
theorem lhs_dot_1 (i : S365x64.Idx) (q : dot_S365x64_S64x64_S365x64_1_0_0_1_n_n.contr.Idx) :
    (dot_S365x64_S64x64_S365x64_1_0_0_1_n_n.lhsIdx i q 1).val = (q ⟨0, by decide⟩).val :=
  dot_S365x64_S64x64_S365x64_1_0_0_1_n_n.lhsIdx_val_of_single rfl i q
theorem rhs_dot_0 (i : S365x64.Idx) (q : dot_S365x64_S64x64_S365x64_1_0_0_1_n_n.contr.Idx) :
    (dot_S365x64_S64x64_S365x64_1_0_0_1_n_n.rhsIdx i q 0).val = (q ⟨0, by decide⟩).val :=
  dot_S365x64_S64x64_S365x64_1_0_0_1_n_n.rhsIdx_val_of_single rfl i q
theorem rhs_dot_1 (i : S365x64.Idx) (q : dot_S365x64_S64x64_S365x64_1_0_0_1_n_n.contr.Idx) :
    (dot_S365x64_S64x64_S365x64_1_0_0_1_n_n.rhsIdx i q 1).val = (i 1).val := by
  unfold DotDims.rhsIdx
  rw [dif_neg (show ¬(1 : Fin S64x64.rank) ∈ dot_S365x64_S64x64_S365x64_1_0_0_1_n_n.rhsBatch by decide), dif_pos (show (1 : Fin S64x64.rank) ∈ dot_S365x64_S64x64_S365x64_1_0_0_1_n_n.rhsNonContracting by decide)]
  rfl

/-- The product into a zero accumulator, read at `(p, q)`: row `p` of the left operand against column `q` of the right. -/
theorem matmul_at (l : FVec Ideal S365x64 .bf16) (r : FVec Ideal S64x64 .bf16) (p : Fin 365) (q : Fin 64) :
    matmul dot_S365x64_S64x64_S365x64_1_0_0_1_n_n none l r (constant (F := Ideal) S365x64 .f32 0x00000000#32) (ix2 p q)
      = ∑ k : Fin 64, l (ix2 p k) * r (ix2 k q) := by
  simp only [matmul]
  rw [Ideal.matmul_constant_zero_apply, ← Equiv.sum_comp (contrEquiv1 dot_S365x64_S64x64_S365x64_1_0_0_1_n_n 64 rfl rfl).symm]
  refine Finset.sum_congr rfl fun k _ => ?_
  have hk := contrEquiv1_symm_val dot_S365x64_S64x64_S365x64_1_0_0_1_n_n 64 rfl rfl k
  have el : dot_S365x64_S64x64_S365x64_1_0_0_1_n_n.lhsIdx (ix2 p q) ((contrEquiv1 dot_S365x64_S64x64_S365x64_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S365x64_S64x64_S365x64_1_0_0_1_n_n.rhsIdx (ix2 p q) ((contrEquiv1 dot_S365x64_S64x64_S365x64_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]

/-- The bias row spread over the rows, read at `(p, q)`. -/
theorem bias_at (b : FVec Ideal S1x64 .f32) (p : Fin 365) (q : Fin 64) :
    broadcastTo S365x64 b broadcasts_S1x64_S365x64 (ix2 p q) = b (ix2 0 q) :=
  broadcastTo_apply b broadcasts_S1x64_S365x64 (ix2 p q) (ix2 0 q) (fun a => match a with
    | ⟨0, _⟩ => rfl
    | ⟨1, _⟩ => rfl)

/-- The body's store at `(p, q)`. -/
theorem pay_at (x0 : Vec Ideal S365x64 .f32) (x1 : Vec Ideal S64x64 .bf16) (x2 : Vec Ideal S1x64 .f32) (p : Fin 365) (q : Fin 64) :
    k4_pay1 x0 x1 x2 (ix2 p q) = Cert.Spec.timeUpd x0 x1 x2 (ix2 p q) := by
  unfold k4_pay1
  simp only [shapeCast_self]
  rw [addf_apply, matmul_at, bias_at]
  rfl

/-! ## From the one block to the array -/

theorem hz : (![0, 0] : Fin 2 → Nat) = fun _ => 0 := funext fun a => by fin_cases a <;> rfl

/-- The index maps, decided over the grid: every window's one block sits at the origin. -/
theorem idx_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The time table's block is the whole table. -/
theorem blk_time (c : Dev nD) (t : Fin cfg4.N) : iblk4 V c 0 t = V c main_arg2 := by
  obtain ⟨e0, e1, -⟩ := idx_facts t
  funext y
  show V c main_arg2 (((cfg4.win 0).blk t).view.emb y) = V c main_arg2 y
  refine congrArg _ (funext fun a => Fin.ext ?_)
  match a with
  | ⟨0, _⟩ => show win4_0.index t (0 : Fin 2) * 365 + 1 * (y 0).val = (y 0).val; omega
  | ⟨1, _⟩ => show win4_0.index t (1 : Fin 2) * 64 + 1 * (y 1).val = (y 1).val; omega

/-- The weight's block is the whole weight. -/
theorem blk_weight (c : Dev nD) (t : Fin cfg4.N) : iblk4 V c 1 t = V c main_v76 := by
  obtain ⟨-, -, e0, e1, -⟩ := idx_facts t
  funext y
  show V c main_v76 (((cfg4.win 1).blk t).view.emb y) = V c main_v76 y
  refine congrArg _ (funext fun a => Fin.ext ?_)
  match a with
  | ⟨0, _⟩ => show win4_1.index t (0 : Fin 2) * 64 + 1 * (y 0).val = (y 0).val; omega
  | ⟨1, _⟩ => show win4_1.index t (1 : Fin 2) * 64 + 1 * (y 1).val = (y 1).val; omega

/-- The bias row's block is the whole row. -/
theorem blk_bias (c : Dev nD) (t : Fin cfg4.N) : iblk4 V c 2 t = V c main_v77 := by
  obtain ⟨-, -, -, -, e0, e1, -⟩ := idx_facts t
  funext y
  show V c main_v77 (((cfg4.win 2).blk t).view.emb y) = V c main_v77 y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 64 + 1 * (y 1).val = (y 1).val; omega

/-- What the one point writes back is the whole of the time update. -/
theorem flushed_eq (c : Dev nD) (t : Fin cfg4.N) :
    (dat4 (F := Ideal) V c).flushed 3 t
      = ((cfg4.win 3).blk t).view.read (Elt Ideal) (Cert.Spec.timeUpd (V c main_arg2) (V c main_v76) (V c main_v77)) := by
  show (cfg4.win 3).cut (grid4.coords t) ((dat4 V c).after 3 t) = _
  rw [after4_3]
  unfold out4_3
  rw [View.canon_unit_zero hz]
  simp only [View.ld_unit_zero (S := S365x64) hz, View.ld_unit_zero (S := S64x64) hz, View.ld_unit_zero (S := S1x64) hz]
  rw [blk_time, blk_weight, blk_bias]
  obtain ⟨-, -, -, -, -, -, e0, e1⟩ := idx_facts t
  funext j
  obtain ⟨p, q, rfl⟩ : ∃ (p : Fin 365) (q : Fin 64), j = ix2 p q := ⟨j 0, j 1, eq_ix2 j⟩
  show k4_pay1 (V c main_arg2) (V c main_v76) (V c main_v77) (ix2 p q)
    = Cert.Spec.timeUpd (V c main_arg2) (V c main_v76) (V c main_v77) (((cfg4.win 3).blk t).view.emb (ix2 p q))
  rw [pay_at]
  refine congrArg _ (funext fun a => Fin.ext ?_)
  match a with
  | ⟨0, _⟩ => show p.val = win4_3.index t (0 : Fin 2) * 365 + 1 * p.val; omega
  | ⟨1, _⟩ => show q.val = win4_3.index t (1 : Fin 2) * 64 + 1 * q.val; omega

/-- An index of the output array is in the point's block iff each coordinate is in the block's range on its axis. -/
theorem mem_blk (t : Fin cfg4.N) (i : S365x64.Idx) :
    i ∈ ((cfg4.win 3).blk t).view.set ↔ ∀ a : Fin 2, win4_3.index t a * S365x64.size a ≤ (i a).val ∧ (i a).val < win4_3.index t a * S365x64.size a + S365x64.size a := by
  show i ∈ ((View.whole main_v78).slice (win4_3.rect t)).set ↔ _
  rw [View.set_slice_whole, Rect.mem_set_unit]
  exact Iff.rfl

/-- The array the region leaves is the time update of the arrays it found. -/
theorem final (c : Dev nD) :
    (dat4 (F := Ideal) V c).arrAt 3 cfg4.N = Cert.Spec.timeUpd (V c main_arg2) (V c main_v76) (V c main_v77) := by
  exact (dat4 V c).arrAt_eq_of_cover 3 _ (fun t _ => flushed_eq V c t) (fun i => ⟨t4_0, flush4_3 _, by
    rw [mem_blk]
    obtain ⟨-, -, -, -, -, -, e0, e1⟩ := idx_facts t4_0
    intro a
    match a with
    | ⟨0, _⟩ => show win4_3.index t4_0 (0 : Fin 2) * 365 ≤ (i 0).val ∧ (i 0).val < win4_3.index t4_0 (0 : Fin 2) * 365 + 365; have := idx2_lt0 i; omega
    | ⟨1, _⟩ => show win4_3.index t4_0 (1 : Fin 2) * 64 ≤ (i 1).val ∧ (i 1).val < win4_3.index t4_0 (1 : Fin 2) * 64 + 64; have := idx2_lt1 i; omega⟩)

end Cert.KernelIdeal.Reg4

end
-- ==== Proof.HostDefs.lean ====
import proofs.«423962_j4561255268668_3_alg».proof.Proof.Gen.KernelIdeal
import proofs.«423962_j4561255268668_3_alg».proof.Proof.Spec

/-! What the host operations between the three table projections and the node update compute, as pure functions of the
    arrays they read: the gather index of an edge into a table of two stacked planes is `inv · rows + idx`; the message
    of an edge is the sum of its three gathered rows; the per-node sums and counts are scatter-adds along `dst`. -/

noncomputable section

namespace Cert.KernelIdeal.HostDefs

open Cert.KernelIdeal Cert.KernelIdeal.Gen Idealize.ShloMosaic Idealize.SL.Sem

/-- The gather index column of every edge into a stacked table of `n = 2 · stride` rows: `inv · stride + idx`, a negative
    value wrapped once by `n`. -/
def gIdx (n stride : BitVec 32) (inv idx : IVec S500000 32) : IVec S500000x1 32 :=
  broadcastInDim S500000x1 ![0] bcast_S500000_S500000x1_0
    (select (cmpi .slt (addi (muli inv (broadcastInDim S500000 ![] bcast_S_S500000 (constantI S_ 32 stride))) idx)
        (broadcastInDim S500000 ![] bcast_S_S500000 (constantI S_ 32 0#32)))
      (addi (addi (muli inv (broadcastInDim S500000 ![] bcast_S_S500000 (constantI S_ 32 stride))) idx)
        (broadcastInDim S500000 ![] bcast_S_S500000 (constantI S_ 32 n)))
      (addi (muli inv (broadcastInDim S500000 ![] bcast_S_S500000 (constantI S_ 32 stride))) idx))

/-- The message of every edge: the rows of the three stacked projected tables its indices select, added. -/
def msgK (pRel : FVec Ideal S2x500x128 .bf16) (pEnt : FVec Ideal S2x50000x128 .f32) (pTim : FVec Ideal S2x365x128 .bf16)
    (src bRel tIdx inv : IVec S500000 32) : FVec Ideal S500000x128 .f32 :=
  addf
    (addf
      (extf .f32 (Host.gather gather_S1000x128_S500000x1_S500000x128_1_0_n_n_0_1_1128
        (shapeCast S1000x128 pRel shapeCasts_S2x500x128_S1000x128) (gIdx 1000#32 500#32 inv bRel)) bitsLt_bf16_f32)
      (Host.gather gather_S100000x128_S500000x1_S500000x128_1_0_n_n_0_1_1128
        (shapeCast S100000x128 pEnt shapeCasts_S2x50000x128_S100000x128) (gIdx 100000#32 50000#32 inv src)))
    (extf .f32 (Host.gather gather_S730x128_S500000x1_S500000x128_1_0_n_n_0_1_1128
      (shapeCast S730x128 pTim shapeCasts_S2x365x128_S730x128) (gIdx 730#32 365#32 inv tIdx)) bitsLt_bf16_f32)

/-- The destination node of every edge, as the scatter's index column. -/
def dstCol (dst : IVec S500000 32) : IVec S500000x1 32 := broadcastInDim S500000x1 ![0] bcast_S500000_S500000x1_0 dst

/-- The per-node sums of the messages. -/
def sumsOf (msg : FVec Ideal S500000x128 .f32) (dst : IVec S500000 32) : FVec Ideal S50000x128 .f32 :=
  Host.scatterAdd scatter_S50000x128_S500000x1_S500000x128_1_0_0_1
    (broadcastInDim S50000x128 ![] bcast_S_S50000x128 (constant S_ .f32 0x00000000#32)) (dstCol dst) msg

/-- The per-node edge counts. -/
def cntOf (dst : IVec S500000 32) : FVec Ideal S50000 .f32 :=
  Host.scatterAdd scatter_S50000_S500000x1_S500000_n_0_0_1
    (broadcastInDim S50000 ![] bcast_S_S50000 (constant S_ .f32 0x00000000#32)) (dstCol dst)
    (broadcastInDim S500000 ![] bcast_S_S500000 (constant S_ .f32 0x3F800000#32))

/-- The counts as a one-column matrix. -/
def cntCol (dst : IVec S500000 32) : FVec Ideal S50000x1 .f32 := shapeCast S50000x1 (cntOf dst) shapeCasts_S50000_S50000x1

end Cert.KernelIdeal.HostDefs

end
-- ==== Proof.HostK.lean ====
import proofs.«423962_j4561255268668_3_alg».proof.Proof.Gen.KernelIdeal.Frame
import proofs.«423962_j4561255268668_3_alg».proof.Proof.HostDefs
import proofs.«423962_j4561255268668_3_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostK

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-! ## The argument arrays as launched -/
abbrev aEnt : FVec Ideal S50000x128 .f32 := m ((c : Thread nD τ).loc main_arg0)
abbrev aRel : FVec Ideal S500x128 .f32 := m ((c : Thread nD τ).loc main_arg1)
abbrev aTim : FVec Ideal S365x64 .f32 := m ((c : Thread nD τ).loc main_arg2)
abbrev aWI : FVec Ideal S128x320 .f32 := m ((c : Thread nD τ).loc main_arg3)
abbrev aBI : FVec Ideal S128 .f32 := m ((c : Thread nD τ).loc main_arg4)
abbrev aWO : FVec Ideal S128x320 .f32 := m ((c : Thread nD τ).loc main_arg5)
abbrev aBO : FVec Ideal S128 .f32 := m ((c : Thread nD τ).loc main_arg6)
abbrev aWS : FVec Ideal S128x128 .f32 := m ((c : Thread nD τ).loc main_arg7)
abbrev aBS : FVec Ideal S128 .f32 := m ((c : Thread nD τ).loc main_arg8)
abbrev aWT : FVec Ideal S64x64 .f32 := m ((c : Thread nD τ).loc main_arg9)
abbrev aBT : FVec Ideal S64 .f32 := m ((c : Thread nD τ).loc main_arg10)
abbrev aSrc : IVec S500000 32 := m ((c : Thread nD τ).loc main_arg11)
abbrev aDst : IVec S500000 32 := m ((c : Thread nD τ).loc main_arg12)
abbrev aBRel : IVec S500000 32 := m ((c : Thread nD τ).loc main_arg13)
abbrev aTIdx : IVec S500000 32 := m ((c : Thread nD τ).loc main_arg14)
abbrev aInv : IVec S500000 32 := m ((c : Thread nD τ).loc main_arg15)

/-! ## The layout operations on the weights and biases, index by index -/

section Layout

/-- Transposing the column slice `W[:, off : off + K]` of a weight puts `W[j, off + k]` at `(k, j)`; the change of
    format is the identity on extended reals. -/
private theorem wBlock_of_slice (K off : Nat) (hle : off + K ≤ 320) (W : FVec Ideal S128x320 .f32)
    (hs : S128x320.Slices ![0, off] ⟨2, ![128, K]⟩) (ht : (⟨2, ![128, K]⟩ : Shape).Transposes [1, 0] ⟨2, ![K, 128]⟩)
    (hb : FTy.bits .bf16 < FTy.bits .f32) :
    (truncf .bf16 (transpose ⟨2, ![K, 128]⟩ [1, 0] (extractStridedSlice ⟨2, ![128, K]⟩ ![0, off] W hs) ht) hb
        : FVec Ideal ⟨2, ![K, 128]⟩ .bf16)
      = Cert.Spec.wBlock K off hle W := by
  funext i
  rw [truncf_apply]
  refine (transpose_apply [1, 0] _ ht i (ix2 (i 1) (i 0)) fun b => match b with | ⟨0, _⟩ => rfl | ⟨1, _⟩ => rfl).trans ?_
  exact extractStridedSlice_apply ![0, off] W hs (ix2 (i 1) (i 0)) (ix2 (i 1) ⟨off + (i 0).val, by have := idx2_lt0 i; omega⟩)
    fun a => match a with
      | ⟨0, _⟩ => by show (i 1).val = 0 + (i 1).val; omega
      | ⟨1, _⟩ => rfl

/-- The transpose of a square matrix reads `W[j, k]` at `(k, j)`. -/
private theorem transp_of_transpose {n : Nat} (W : FVec Ideal ⟨2, ![n, n]⟩ .f32)
    (ht : (⟨2, ![n, n]⟩ : Shape).Transposes [1, 0] ⟨2, ![n, n]⟩) (hb : FTy.bits .bf16 < FTy.bits .f32) :
    (truncf .bf16 (transpose ⟨2, ![n, n]⟩ [1, 0] W ht) hb : FVec Ideal ⟨2, ![n, n]⟩ .bf16) = Cert.Spec.transp W := by
  funext i
  rw [truncf_apply]
  exact transpose_apply [1, 0] W ht i (ix2 (i 1) (i 0)) fun b => match b with | ⟨0, _⟩ => rfl | ⟨1, _⟩ => rfl

/-- A vector viewed as one row reads `b[j]` at `(0, j)`. -/
private theorem row1_of_reshape {n : Nat} (b : FVec Ideal ⟨1, ![n]⟩ .f32) (h : (⟨1, ![n]⟩ : Shape).ShapeCasts ⟨2, ![1, n]⟩) :
    (shapeCast ⟨2, ![1, n]⟩ b h : FVec Ideal ⟨2, ![1, n]⟩ .f32) = Cert.Spec.row1 b := by
  funext i
  refine (shapeCast_addUnit_apply ![n] b h i).trans ?_
  exact congrArg b (funext fun a => match a with | ⟨0, _⟩ => rfl)

end Layout

/-- No operation of a host stretch writes the buffer: each operation's one result buffer is another reference. -/
local macro "not_written" : tactic =>
  `(tactic| (refine List.forall_iff_forall_mem.mp ?_
             simp only [hostOps0, hostOps3, hostOps4, List.Forall, StableHlo.nullary_writes, StableHlo.unary_writes,
               StableHlo.binary_writes, StableHlo.ternary_writes, StableHlo.reshape_writes, Finset.mem_singleton]
             repeat' apply And.intro
             all_goals exact StableHlo.devRef_ne_of_ne (by decide)))

/-! ## Buffers carried unchanged across boundaries

A region leaves every buffer that is not one of its arrays as it found it, and a host stretch leaves every buffer that
none of its operations writes: an argument is nobody's result, so it holds the launch contents wherever it is read. -/

section Carries
variable (b : Ref sig .tc)

/-- Across the first host stretch. -/
private theorem W1_carry (hh : ∀ op ∈ (hostOps0 : List (HloOp τ sig (Elt Ideal))), Proc.devRef .tc b ∉ op.writes) :
    W1 m ρ c (Proc.devRef .tc b) = m ((c : Thread nD τ).loc b) :=
  StableHlo.after_of_forall_not_mem _ _ hh

/-- From the third region's exit back to the launch. -/
private theorem W4_carry (h0 : ∀ w, Pipeline.arrRef spec0 w ≠ b) (h1 : ∀ w, Pipeline.arrRef spec1 w ≠ b)
    (h2 : ∀ w, Pipeline.arrRef spec2 w ≠ b)
    (hh : ∀ op ∈ (hostOps0 : List (HloOp τ sig (Elt Ideal))), Proc.devRef .tc b ∉ op.writes) :
    W4 m ρ c (Proc.devRef .tc b) = m ((c : Thread nD τ).loc b) :=
  calc W4 m ρ c (Proc.devRef .tc b)
    _ = W3 m ρ c (Proc.devRef .tc b) := W4_of_ne m ρ c b h2
    _ = W2 m ρ c (Proc.devRef .tc b) := W3_of_ne m ρ c b h1
    _ = W1 m ρ c (Proc.devRef .tc b) := W2_of_ne m ρ c b h0
    _ = m ((c : Thread nD τ).loc b) := W1_carry m ρ c b hh

/-- From the node region's exit back to the third region's. -/
private theorem W6_carry (h3 : ∀ w, Pipeline.arrRef spec3 w ≠ b)
    (hh : ∀ op ∈ (hostOps3 : List (HloOp τ sig (Elt Ideal))), Proc.devRef .tc b ∉ op.writes) :
    W6 m ρ c (Proc.devRef .tc b) = W4 m ρ c (Proc.devRef .tc b) :=
  (W6_of_ne m ρ c b h3).trans (StableHlo.after_of_forall_not_mem _ _ hh)

end Carries

private theorem W4_arg7 : W4 m ρ c (Proc.devRef .tc main_arg7) = aWS m c :=
  W4_carry m ρ c main_arg7 (by decide) (by decide) (by decide) (by not_written)
private theorem W4_arg8 : W4 m ρ c (Proc.devRef .tc main_arg8) = aBS m c :=
  W4_carry m ρ c main_arg8 (by decide) (by decide) (by decide) (by not_written)
private theorem W4_arg11 : W4 m ρ c (Proc.devRef .tc main_arg11) = aSrc m c :=
  W4_carry m ρ c main_arg11 (by decide) (by decide) (by decide) (by not_written)
private theorem W4_arg12 : W4 m ρ c (Proc.devRef .tc main_arg12) = aDst m c :=
  W4_carry m ρ c main_arg12 (by decide) (by decide) (by decide) (by not_written)
private theorem W4_arg13 : W4 m ρ c (Proc.devRef .tc main_arg13) = aBRel m c :=
  W4_carry m ρ c main_arg13 (by decide) (by decide) (by decide) (by not_written)
private theorem W4_arg14 : W4 m ρ c (Proc.devRef .tc main_arg14) = aTIdx m c :=
  W4_carry m ρ c main_arg14 (by decide) (by decide) (by decide) (by not_written)
private theorem W4_arg15 : W4 m ρ c (Proc.devRef .tc main_arg15) = aInv m c :=
  W4_carry m ρ c main_arg15 (by decide) (by decide) (by decide) (by not_written)
private theorem W4_arg2 : W4 m ρ c (Proc.devRef .tc main_arg2) = aTim m c :=
  W4_carry m ρ c main_arg2 (by decide) (by decide) (by decide) (by not_written)
private theorem W6_arg2 : W6 m ρ c (Proc.devRef .tc main_arg2) = aTim m c :=
  (W6_carry m ρ c main_arg2 (by decide) (by not_written)).trans (W4_arg2 m ρ c)
private theorem W6_arg9 : W6 m ρ c (Proc.devRef .tc main_arg9) = aWT m c :=
  (W6_carry m ρ c main_arg9 (by decide) (by not_written)).trans
    (W4_carry m ρ c main_arg9 (by decide) (by decide) (by decide) (by not_written))
private theorem W6_arg10 : W6 m ρ c (Proc.devRef .tc main_arg10) = aBT m c :=
  (W6_carry m ρ c main_arg10 (by decide) (by not_written)).trans
    (W4_carry m ρ c main_arg10 (by decide) (by decide) (by decide) (by not_written))

/-! ## What each region finds in the arrays it reads -/

theorem V1_v18 : V1 m ρ c main_v18 = aRel m c := by
  show StableHlo.after hostOps0 (W0 m ρ c) (Proc.devRef .tc main_v18) = _
  after_results
  rfl
theorem V1_v4 : V1 m ρ c main_v4 = Cert.Spec.wBlock 128 0 (by decide) (aWI m c) := by
  show StableHlo.after hostOps0 (W0 m ρ c) (Proc.devRef .tc main_v4) = _
  after_results
  exact wBlock_of_slice 128 0 _ _ _ _ _
theorem V1_v13 : V1 m ρ c main_v13 = Cert.Spec.wBlock 128 0 (by decide) (aWO m c) := by
  show StableHlo.after hostOps0 (W0 m ρ c) (Proc.devRef .tc main_v13) = _
  after_results
  exact wBlock_of_slice 128 0 _ _ _ _ _
theorem V1_v21 : V1 m ρ c main_v21 = Cert.Spec.row1 (aBI m c) := by
  show StableHlo.after hostOps0 (W0 m ρ c) (Proc.devRef .tc main_v21) = _
  after_results
  exact row1_of_reshape _ _
theorem V1_v22 : V1 m ρ c main_v22 = Cert.Spec.row1 (aBO m c) := by
  show StableHlo.after hostOps0 (W0 m ρ c) (Proc.devRef .tc main_v22) = _
  after_results
  exact row1_of_reshape _ _

theorem V2_v19 : V2 m ρ c main_v19 = aEnt m c := by
  refine (W2_of_ne m ρ c main_v19 (by decide)).trans ?_
  show StableHlo.after hostOps0 (W0 m ρ c) (Proc.devRef .tc main_v19) = _
  after_results
  rfl
theorem V2_v6 : V2 m ρ c main_v6 = Cert.Spec.wBlock 128 128 (by decide) (aWI m c) := by
  refine (W2_of_ne m ρ c main_v6 (by decide)).trans ?_
  show StableHlo.after hostOps0 (W0 m ρ c) (Proc.devRef .tc main_v6) = _
  after_results
  exact wBlock_of_slice 128 128 _ _ _ _ _
theorem V2_v15 : V2 m ρ c main_v15 = Cert.Spec.wBlock 128 128 (by decide) (aWO m c) := by
  refine (W2_of_ne m ρ c main_v15 (by decide)).trans ?_
  show StableHlo.after hostOps0 (W0 m ρ c) (Proc.devRef .tc main_v15) = _
  after_results
  exact wBlock_of_slice 128 128 _ _ _ _ _

theorem V3_v20 : V3 m ρ c main_v20 = aTim m c := by
  refine ((W3_of_ne m ρ c main_v20 (by decide)).trans (W2_of_ne m ρ c main_v20 (by decide))).trans ?_
  show StableHlo.after hostOps0 (W0 m ρ c) (Proc.devRef .tc main_v20) = _
  after_results
  rfl
theorem V3_v8 : V3 m ρ c main_v8 = Cert.Spec.wBlock 64 256 (by decide) (aWI m c) := by
  refine ((W3_of_ne m ρ c main_v8 (by decide)).trans (W2_of_ne m ρ c main_v8 (by decide))).trans ?_
  show StableHlo.after hostOps0 (W0 m ρ c) (Proc.devRef .tc main_v8) = _
  after_results
  exact wBlock_of_slice 64 256 _ _ _ _ _
theorem V3_v17 : V3 m ρ c main_v17 = Cert.Spec.wBlock 64 256 (by decide) (aWO m c) := by
  refine ((W3_of_ne m ρ c main_v17 (by decide)).trans (W2_of_ne m ρ c main_v17 (by decide))).trans ?_
  show StableHlo.after hostOps0 (W0 m ρ c) (Proc.devRef .tc main_v17) = _
  after_results
  exact wBlock_of_slice 64 256 _ _ _ _ _

/-- The three projected tables reach the host operations after them as the regions left them. -/
theorem W4_v23 : W4 m ρ c (Proc.devRef .tc main_v23) = (dat0 (V1 m ρ) c).arrAt 5 cfg0.N :=
  ((W4_of_ne m ρ c main_v23 (by decide)).trans (W3_of_ne m ρ c main_v23 (by decide))).trans (W2_arr m ρ c 5)
theorem W4_v24 : W4 m ρ c (Proc.devRef .tc main_v24) = (dat1 (V2 m ρ) c).arrAt 3 cfg1.N :=
  (W4_of_ne m ρ c main_v24 (by decide)).trans (W3_arr m ρ c 3)
theorem W4_v25 : W4 m ρ c (Proc.devRef .tc main_v25) = (dat2 (V3 m ρ) c).arrAt 3 cfg2.N :=
  W4_arr m ρ c 3

theorem V5_v19 : V5 m ρ c main_v19 = aEnt m c :=
  calc V5 m ρ c main_v19
    _ = W4 m ρ c (Proc.devRef .tc main_v19) := StableHlo.after_of_forall_not_mem _ _ (by not_written)
    _ = W3 m ρ c (Proc.devRef .tc main_v19) := W4_of_ne m ρ c main_v19 (by decide)
    _ = V2 m ρ c main_v19 := (W3_arr m ρ c 0).trans (((dat1 (V2 m ρ) c).arrAt_in 0 rfl _).trans (A_eq1 (V2 m ρ) c 0))
    _ = aEnt m c := V2_v19 m ρ c
set_option maxHeartbeats 1000000 in
theorem V5_v65 : V5 m ρ c main_v65
    = HostDefs.sumsOf (HostDefs.msgK (W4 m ρ c (Proc.devRef .tc main_v23)) (W4 m ρ c (Proc.devRef .tc main_v24))
        (W4 m ρ c (Proc.devRef .tc main_v25)) (aSrc m c) (aBRel m c) (aTIdx m c) (aInv m c)) (aDst m c) := by
  show StableHlo.after hostOps3 (W4 m ρ c) (Proc.devRef .tc main_v65) = _
  after_results_simp
  rw [W4_arg11, W4_arg12, W4_arg13, W4_arg14, W4_arg15]
  unfold HostDefs.sumsOf HostDefs.msgK HostDefs.gIdx HostDefs.dstCol
  rfl
theorem V5_v73 : V5 m ρ c main_v73 = HostDefs.cntCol (aDst m c) := by
  show StableHlo.after hostOps3 (W4 m ρ c) (Proc.devRef .tc main_v73) = _
  after_results_simp
  rw [W4_arg12]
  rfl
theorem V5_v71 : V5 m ρ c main_v71 = Cert.Spec.transp (aWS m c) := by
  show StableHlo.after hostOps3 (W4 m ρ c) (Proc.devRef .tc main_v71) = _
  after_results_simp
  rw [W4_arg7]
  exact transp_of_transpose _ _ _
theorem V5_v72 : V5 m ρ c main_v72 = Cert.Spec.row1 (aBS m c) := by
  show StableHlo.after hostOps3 (W4 m ρ c) (Proc.devRef .tc main_v72) = _
  after_results_simp
  rw [W4_arg8]
  exact row1_of_reshape _ _

theorem V7_arg2 : V7 m ρ c main_arg2 = aTim m c :=
  (StableHlo.after_of_forall_not_mem (b := Proc.devRef .tc main_arg2) _ _ (by not_written)).trans (W6_arg2 m ρ c)
theorem V7_v76 : V7 m ρ c main_v76 = Cert.Spec.transp (aWT m c) := by
  show StableHlo.after hostOps4 (W6 m ρ c) (Proc.devRef .tc main_v76) = _
  after_results
  rw [W6_arg9]
  exact transp_of_transpose _ _ _
theorem V7_v77 : V7 m ρ c main_v77 = Cert.Spec.row1 (aBT m c) := by
  show StableHlo.after hostOps4 (W6 m ρ c) (Proc.devRef .tc main_v77) = _
  after_results
  rw [W6_arg10]
  exact row1_of_reshape _ _

/-- The two results at the last boundary are what the node and the time regions left. -/
theorem W8_v74 : W8 m ρ c (Proc.devRef .tc main_v74) = (dat3 (V5 m ρ) c).arrAt 5 cfg3.N :=
  calc W8 m ρ c (Proc.devRef .tc main_v74)
    _ = W7 m ρ c (Proc.devRef .tc main_v74) := W8_of_ne m ρ c main_v74 (by decide)
    _ = W6 m ρ c (Proc.devRef .tc main_v74) := StableHlo.after_of_forall_not_mem _ _ (by not_written)
    _ = (dat3 (V5 m ρ) c).arrAt 5 cfg3.N := W6_arr m ρ c 5
theorem W8_v78 : W8 m ρ c (Proc.devRef .tc main_v78) = (dat4 (V7 m ρ) c).arrAt 3 cfg4.N :=
  W8_arr m ρ c 3

end Cert.KernelIdeal.HostK

end
-- ==== Proof.KMsg.lean ====
import proofs.«423962_j4561255268668_3_alg».proof.Proof.HostDefs
import proofs.«423962_j4561255268668_3_alg».proof.Proof.Spec
import Idealize.ShloMosaic.Lib.Pipeline.Value
import Idealize.ShloMosaic.Lib.ValueIdx
import Idealize.ShloMosaic.Lib.ValueLayout
import Idealize.ShloMosaic.Lib.StableHlo.Predicate

noncomputable section

namespace Cert.KernelIdeal.KMsg

open Cert.KernelIdeal Cert.KernelIdeal.Gen Idealize.ShloMosaic Idealize.SL.Sem
open Idealize.ShloMosaic.ValueIdx

/-! ## A row take out of a two-axis table

The gather of the three tables: the operand's row axis is collapsed and start-indexed, its column axis is the one
offset axis of the result, the start indices are a column. Result element `(e, j)` is the operand at row "start index
of `e`, read signed and clamped into the table" and column `j`. -/

section Rows
variable {α : Type}

/-- The dimension numbers of a row take from an `[N, C]` table at an `[n, 1]` column of start indices. -/
abbrev rowsDims (N n C : Nat) (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The row take read at `(e, j)`: on the row axis the clamped start index (no batching, no offset: the axis is
    collapsed), on the column axis the offset coordinate `j` (no start index: the axis is not in the start index map). -/
theorem gather_rows {N n C w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (e : Fin n) (j : Fin C) :
    Host.gather (rowsDims N n C wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowsDims N n C wf).start (ix2 e j) idx 0 + (rowsDims N n C wf).batchCoord (ix2 e j) 0
      + (rowsDims N n C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N n C wf).startIndexMap from List.mem_singleton.mpr rfl)]
    have hsi : (rowsDims N n C wf).siIdx (ix2 e j) ⟨List.idxOf (0 : Fin 2) (rowsDims N n C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N n C wf).start (ix2 e j) idx 1 + (rowsDims N n C wf).batchCoord (ix2 e j) 1
      + (rowsDims N n C wf).offCoord (ix2 e j) 1 = j.val
    rw [GatherDims.batchCoord_eq_zero _ _ _ List.not_mem_nil]
    unfold GatherDims.start
    rw [dif_neg (show (1 : Fin 2) ∉ (rowsDims N n C wf).startIndexMap from
      fun h => Nat.one_ne_zero (congrArg Fin.val (List.mem_singleton.mp h)))]
    simp only [Nat.add_zero, Nat.zero_add]
    rfl

/-- Two stacked `[R, C]` planes read as one `[N, C]` table: row `s · R + r` of the table is row `r` of plane `s` (the two
    have the same row-major position `(s · R + r) · C + j`). -/
theorem stacked_apply {N R C : Nat} (p : (⟨3, ![2, R, C]⟩ : Shape).Idx → α)
    (h : (⟨3, ![2, R, C]⟩ : Shape).ShapeCasts ⟨2, ![N, C]⟩) (s : Fin 2) (r : Fin R) (j : Fin C)
    (hlt : s.val * R + r.val < N) :
    shapeCast ⟨2, ![N, C]⟩ p h (ix2 ⟨s.val * R + r.val, hlt⟩ j) = p (ix3 s r j) :=
  shapeCast_apply p h _ _ (by rw [Shape.rowMajor_val_three, Shape.rowMajor_val_two]; rfl)

end Rows

/-! ## The index word of an edge -/

/-- With `b` a bit and `v` below `R`, the word `b · R + v` is below `2 · R ≤ 2³¹`: it does not wrap, it is not negative as a
    signed word, so the wrap-by-`n` select keeps it, and read signed it is `b · R + v`. -/
theorem word_facts (n stride b v : BitVec 32) (hb : b = 0#32 ∨ b = 1#32) (hv : v.toNat < stride.toNat)
    (hs : 2 * stride.toNat ≤ 2 ^ 31) :
    (Scalar.select (IntOp.cmpi .slt (b * stride + v) 0#32) (b * stride + v + n) (b * stride + v)).toInt.toNat
      = b.toNat * stride.toNat + v.toNat := by
  have hbn : b.toNat ≤ 1 := by rcases hb with rfl | rfl <;> decide
  have hmul : b.toNat * stride.toNat ≤ stride.toNat := by
    rcases Nat.le_one_iff_eq_zero_or_eq_one.mp hbn with h0 | h1
    · rw [h0]; omega
    · rw [h1]; omega
  have hw : (b * stride + v).toNat = b.toNat * stride.toNat + v.toNat := by
    rw [BitVec.toNat_add, BitVec.toNat_mul, Nat.mod_eq_of_lt (a := b.toNat * stride.toNat) (by omega),
      Nat.mod_eq_of_lt (by omega)]
  have hw31 : (b * stride + v).toNat < 2 ^ 31 := by omega
  have hc : IntOp.cmpi .slt (b * stride + v) 0#32 = 0#1 :=
    eq_zero_of_ne_one fun h => by
      have := (StableHlo.Predicate.slt_iff_toNat hw31 (by decide)).1 h
      exact absurd this (Nat.not_lt_zero _)
  rw [hc, select_zero, StableHlo.Predicate.toInt_eq_toNat_of_lt hw31, Int.toNat_natCast, hw]

/-- The gather index column at edge `e`: the select over the word `inv e · stride + idx e`. -/
theorem gIdx_apply (n stride : BitVec 32) (inv idx : IVec S500000 32) (e : Fin 500000) :
    HostDefs.gIdx n stride inv idx (ix2 e 0)
      = Scalar.select (IntOp.cmpi .slt (inv (ix1 e) * stride + idx (ix1 e)) 0#32)
          (inv (ix1 e) * stride + idx (ix1 e) + n) (inv (ix1 e) * stride + idx (ix1 e)) := by
  unfold HostDefs.gIdx
  rw [broadcastInDim_apply _ _ _ _ (ix1 e) (fun a => by
    match a with
    | ⟨0, _⟩ => exact (if_neg (show ¬ (500000 : Nat) = 1 from by decide)).symm)]
  rfl

/-! ## One gathered row of a stacked table -/

/-- Edge `e`'s row of the stacked table is row `idx e` of plane `inv e`: the start index is `inv e · R + idx e`, inside the
    table, so the clamp keeps it, and the stacked table at that row is the plane's row. -/
theorem stackedRow {α : Type} {N R C : Nat} (hR : 0 < R) (hN : N = 2 * R) (hN31 : N ≤ 2 ^ 31)
    (wf : GatherDims.WF ⟨2, ![N, C]⟩ ⟨2, ![500000, 1]⟩ ⟨2, ![500000, C]⟩ [1] [0] [] [0] [] 1 ![1, C])
    (p : (⟨3, ![2, R, C]⟩ : Shape).Idx → α) (h : (⟨3, ![2, R, C]⟩ : Shape).ShapeCasts ⟨2, ![N, C]⟩)
    (n stride : BitVec 32) (hstride : stride.toNat = R) (inv idx : IVec S500000 32) (e : Fin 500000) (j : Fin C)
    (s : Fin 2) (hs : (inv (ix1 e)).toNat = s.val) (hb : inv (ix1 e) = 0#32 ∨ inv (ix1 e) = 1#32)
    (hv : (idx (ix1 e)).toNat < R) :
    Host.gather (rowsDims N 500000 C wf) (shapeCast ⟨2, ![N, C]⟩ p h) (HostDefs.gIdx n stride inv idx) (ix2 e j)
      = p (ix3 s (Cert.Spec.rowOf R hR (idx (ix1 e))) j) := by
  have hrow : (Cert.Spec.rowOf R hR (idx (ix1 e))).val = (idx (ix1 e)).toNat := Cert.Spec.rowOf_val hR _ hv (by omega)
  have hsv : s.val ≤ 1 := by have := s.isLt; omega
  have hmul : s.val * R ≤ R := by
    rcases Nat.le_one_iff_eq_zero_or_eq_one.mp hsv with h0 | h1
    · rw [h0]; omega
    · rw [h1]; omega
  have hlt : s.val * R + (Cert.Spec.rowOf R hR (idx (ix1 e))).val < N := by omega
  have key : min (HostDefs.gIdx n stride inv idx (ix2 e 0)).toInt.toNat (N - 1)
      = s.val * R + (Cert.Spec.rowOf R hR (idx (ix1 e))).val := by
    rw [gIdx_apply, word_facts n stride _ _ hb (by omega) (by omega), hs, hstride, hrow]
    omega
  rw [gather_rows (by omega) wf]
  exact (congrArg (fun r => shapeCast ⟨2, ![N, C]⟩ p h (ix2 r j)) (Fin.ext key)).trans
    (stacked_apply p h s (Cert.Spec.rowOf R hR (idx (ix1 e))) j hlt)

/-- The three tables of the program. -/
theorem relRow (p : FVec Ideal S2x500x128 .bf16) (inv idx : IVec S500000 32) (e : Fin 500000) (j : Fin 128) (s : Fin 2)
    (hs : (inv (ix1 e)).toNat = s.val) (hb : inv (ix1 e) = 0#32 ∨ inv (ix1 e) = 1#32) (hv : (idx (ix1 e)).toNat < 500) :
    Host.gather gather_S1000x128_S500000x1_S500000x128_1_0_n_n_0_1_1128
        (shapeCast S1000x128 p shapeCasts_S2x500x128_S1000x128) (HostDefs.gIdx 1000#32 500#32 inv idx) (ix2 e j)
      = p (ix3 s (Cert.Spec.rowOf 500 (by decide) (idx (ix1 e))) j) :=
  stackedRow (N := 1000) (R := 500) (by decide) rfl (by decide) gather_S1000x128_S500000x1_S500000x128_1_0_n_n_0_1_1128_wf
    p shapeCasts_S2x500x128_S1000x128 1000#32 500#32 rfl inv idx e j s hs hb hv

theorem entRow (p : FVec Ideal S2x50000x128 .f32) (inv idx : IVec S500000 32) (e : Fin 500000) (j : Fin 128) (s : Fin 2)
    (hs : (inv (ix1 e)).toNat = s.val) (hb : inv (ix1 e) = 0#32 ∨ inv (ix1 e) = 1#32) (hv : (idx (ix1 e)).toNat < 50000) :
    Host.gather gather_S100000x128_S500000x1_S500000x128_1_0_n_n_0_1_1128
        (shapeCast S100000x128 p shapeCasts_S2x50000x128_S100000x128) (HostDefs.gIdx 100000#32 50000#32 inv idx) (ix2 e j)
      = p (ix3 s (Cert.Spec.rowOf 50000 (by decide) (idx (ix1 e))) j) :=
  stackedRow (N := 100000) (R := 50000) (by decide) rfl (by decide) gather_S100000x128_S500000x1_S500000x128_1_0_n_n_0_1_1128_wf
    p shapeCasts_S2x50000x128_S100000x128 100000#32 50000#32 rfl inv idx e j s hs hb hv

theorem timRow (p : FVec Ideal S2x365x128 .bf16) (inv idx : IVec S500000 32) (e : Fin 500000) (j : Fin 128) (s : Fin 2)
    (hs : (inv (ix1 e)).toNat = s.val) (hb : inv (ix1 e) = 0#32 ∨ inv (ix1 e) = 1#32) (hv : (idx (ix1 e)).toNat < 365) :
    Host.gather gather_S730x128_S500000x1_S500000x128_1_0_n_n_0_1_1128
        (shapeCast S730x128 p shapeCasts_S2x365x128_S730x128) (HostDefs.gIdx 730#32 365#32 inv idx) (ix2 e j)
      = p (ix3 s (Cert.Spec.rowOf 365 (by decide) (idx (ix1 e))) j) :=
  stackedRow (N := 730) (R := 365) (by decide) rfl (by decide) gather_S730x128_S500000x1_S500000x128_1_0_n_n_0_1_1128_wf
    p shapeCasts_S2x365x128_S730x128 730#32 365#32 rfl inv idx e j s hs hb hv

/-! ## The planes of the projected tables, and the specification at an edge -/

section Planes
open Cert.Spec

theorem projPairBias_zero {R K C : Nat} (x : Mat R K) (wi wo : Mat K C) (bi bo : Mat 1 C) (r : Fin R) (j : Fin C) :
    projPairBias x wi wo bi bo (ix3 0 r j) = dotRC x wi r j + bi (ix2 0 j) := rfl
theorem projPairBias_one {R K C : Nat} (x : Mat R K) (wi wo : Mat K C) (bi bo : Mat 1 C) (r : Fin R) (j : Fin C) :
    projPairBias x wi wo bi bo (ix3 1 r j) = dotRC x wo r j + bo (ix2 0 j) := rfl
theorem projPair_zero {R K C : Nat} (x : Mat R K) (wi wo : Mat K C) (r : Fin R) (j : Fin C) :
    projPair x wi wo (ix3 0 r j) = dotRC x wi r j := rfl
theorem projPair_one {R K C : Nat} (x : Mat R K) (wi wo : Mat K C) (r : Fin R) (j : Fin C) :
    projPair x wi wo (ix3 1 r j) = dotRC x wo r j := rfl

/-- A row against column `j` of the transposed column block of `W` is the row against the block's columns of row `j` of
    `W`: the same sum. -/
theorem dotRC_wBlock {R K : Nat} (x : Mat R K) (W : Mat 128 320) (off : Nat) (h : off + K ≤ 320) (r : Fin R) (j : Fin 128) :
    dotRC x (wBlock K off h W) r j = dotRow x W off h r j := rfl

theorem row1_apply {n : Nat} (b : Vec1 n) (j : Fin n) : row1 b (ix2 0 j) = b (ix1 j) := rfl

theorem msgSpec_apply (rel : Mat 500 128) (ent : Mat 50000 128) (tim : Mat 365 64) (W_I : Mat 128 320) (b_I : Vec1 128)
    (W_O : Mat 128 320) (b_O : Vec1 128) (src b_rel time_idx inv : IdxVec 500000) (e : Fin 500000) (j : Fin 128) :
    msgSpec rel ent tim W_I b_I W_O b_O src b_rel time_idx inv (ix2 e j)
      = (dotRow rel (if inv (ix1 e) = 0#32 then W_I else W_O) 0 (by decide) (rowOf 500 (by decide) (b_rel (ix1 e))) j
          + (if inv (ix1 e) = 0#32 then b_I else b_O) (ix1 j))
        + dotRow ent (if inv (ix1 e) = 0#32 then W_I else W_O) 128 (by decide) (rowOf 50000 (by decide) (src (ix1 e))) j
        + dotRow tim (if inv (ix1 e) = 0#32 then W_I else W_O) 256 (by decide) (rowOf 365 (by decide) (time_idx (ix1 e))) j :=
  rfl

end Planes

/-- With every index in range and `inv` a bit, row `inv · rows + idx` of a table of two stacked planes is row `idx` of
    plane `inv`; so the sum of the three gathered rows of the projected tables is the message of the edge. -/
theorem msgK_eq (rel : FVec Ideal S500x128 .f32) (ent : FVec Ideal S50000x128 .f32) (tim : FVec Ideal S365x64 .f32)
    (WI : FVec Ideal S128x320 .f32) (bI : FVec Ideal S128 .f32) (WO : FVec Ideal S128x320 .f32) (bO : FVec Ideal S128 .f32)
    (src bRel tIdx inv : IVec S500000 32) (h : Cert.Spec.InRange src bRel tIdx inv) :
    HostDefs.msgK
        (Cert.Spec.projPairBias rel (Cert.Spec.wBlock 128 0 (by decide) WI) (Cert.Spec.wBlock 128 0 (by decide) WO)
          (Cert.Spec.row1 bI) (Cert.Spec.row1 bO))
        (Cert.Spec.projPair ent (Cert.Spec.wBlock 128 128 (by decide) WI) (Cert.Spec.wBlock 128 128 (by decide) WO))
        (Cert.Spec.projPair tim (Cert.Spec.wBlock 64 256 (by decide) WI) (Cert.Spec.wBlock 64 256 (by decide) WO))
        src bRel tIdx inv
      = Cert.Spec.msgSpec rel ent tim WI bI WO bO src bRel tIdx inv := by
  funext i
  obtain ⟨e, j, rfl⟩ : ∃ e j, i = ix2 e j := ⟨i 0, i 1, eq_ix2 i⟩
  rw [msgSpec_apply]
  unfold HostDefs.msgK
  rw [addf_apply, addf_apply, extf_apply, extf_apply]
  rcases h.inv (ix1 e) with h0 | h1
  · -- plane 0: the weight and the bias are `W_I`, `b_I`
    rw [relRow _ inv bRel e j 0 (by rw [h0]; rfl) (Or.inl h0) (h.b_rel _),
      entRow _ inv src e j 0 (by rw [h0]; rfl) (Or.inl h0) (h.src _),
      timRow _ inv tIdx e j 0 (by rw [h0]; rfl) (Or.inl h0) (h.time_idx _),
      projPairBias_zero, projPair_zero, projPair_zero, dotRC_wBlock, dotRC_wBlock, dotRC_wBlock, row1_apply,
      if_pos h0, if_pos h0]
  · -- plane 1: `W_O`, `b_O`
    have hne : ¬ inv (ix1 e) = 0#32 := by rw [h1]; decide
    rw [relRow _ inv bRel e j 1 (by rw [h1]; rfl) (Or.inr h1) (h.b_rel _),
      entRow _ inv src e j 1 (by rw [h1]; rfl) (Or.inr h1) (h.src _),
      timRow _ inv tIdx e j 1 (by rw [h1]; rfl) (Or.inr h1) (h.time_idx _),
      projPairBias_one, projPair_one, projPair_one, dotRC_wBlock, dotRC_wBlock, dotRC_wBlock, row1_apply,
      if_neg hne, if_neg hne]

end Cert.KernelIdeal.KMsg

end
-- ==== Proof.KernelValue.lean ====
import proofs.«423962_j4561255268668_3_alg».proof.Proof.KernelRun
import proofs.«423962_j4561255268668_3_alg».proof.Proof.Reg0
import proofs.«423962_j4561255268668_3_alg».proof.Proof.Reg1
import proofs.«423962_j4561255268668_3_alg».proof.Proof.Reg2
import proofs.«423962_j4561255268668_3_alg».proof.Proof.Reg3
import proofs.«423962_j4561255268668_3_alg».proof.Proof.Reg4
import proofs.«423962_j4561255268668_3_alg».proof.Proof.HostK
import proofs.«423962_j4561255268668_3_alg».proof.Proof.KMsg

set_option maxRecDepth 16384

/-! The two results of the idealized kernel as functions of its arguments: each region's output array is the spec
    function of the arrays the region reads, each of those is read back through the host operations to the arguments,
    and the three gathered rows of the projected tables add up to the message of the edge. -/

noncomputable section

namespace Cert.KernelIdeal.KValue

open Cert.KernelIdeal Cert.KernelIdeal.Gen Cert.KernelIdeal.HostK Idealize.ShloMosaic Idealize.ShloMosaic.TcCoe Idealize.SL.Sem

variable (m : (ℓ : Loc nD τ sig) → Buf (Elt Ideal) ℓ) (ρ : Dev nD → PrngReg)

/-- The time result: `time W_Tᵀ + b_T`. -/
def timeVal (c : Dev nD) : FVec Ideal S365x64 .f32 :=
  Cert.Spec.timeUpd (aTim m c) (Cert.Spec.transp (aWT m c)) (Cert.Spec.row1 (aBT m c))

/-- The node result: `ent W_Sᵀ + b_S` plus the per-node mean of the messages. -/
def entVal (c : Dev nD) : FVec Ideal S50000x128 .f32 :=
  Cert.Spec.nodeUpd (aEnt m c)
    (HostDefs.sumsOf (Cert.Spec.msgSpec (aRel m c) (aEnt m c) (aTim m c) (aWI m c) (aBI m c) (aWO m c) (aBO m c)
      (aSrc m c) (aBRel m c) (aTIdx m c) (aInv m c)) (aDst m c))
    (HostDefs.cntCol (aDst m c)) (Cert.Spec.transp (aWS m c)) (Cert.Spec.row1 (aBS m c))

theorem time_value (c : Dev nD) : W8 m ρ c (Proc.devRef .tc main_v78) = timeVal m c := by
  rw [W8_v78, Reg4.final, V7_arg2, V7_v76, V7_v77]
  rfl

theorem ent_value (c : Dev nD) (h : Cert.Spec.InRange (aSrc m c) (aBRel m c) (aTIdx m c) (aInv m c)) :
    W8 m ρ c (Proc.devRef .tc main_v74) = entVal m c := by
  rw [W8_v74, Reg3.final, V5_v19, V5_v65, V5_v73, V5_v71, V5_v72, W4_v23, W4_v24, W4_v25, Reg0.final, Reg1.final,
    Reg2.final, V1_v18, V1_v4, V1_v13, V1_v21, V1_v22, V2_v19, V2_v6, V2_v15, V3_v20, V3_v8, V3_v17,
    KMsg.msgK_eq _ _ _ _ _ _ _ _ _ _ _ h]
  rfl

/-- The run of the idealized kernel with both results as functions of the arguments. -/
theorem run (hr : ∀ c : Dev nD, Cert.Spec.InRange (aSrc m c) (aBRel m c) (aTIdx m c) (aInv m c)) :
    θ_run defs (onTc (τ := τ) (main (F := Ideal))) ⟨m, fun _ => 0, ρ⟩ (fun r => ∀ c : Dev nD,
      r.2.mem ((c.tc : Thread nD τ).loc main_v74) = entVal m c
      ∧ r.2.mem ((c.tc : Thread nD τ).loc main_v78) = timeVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (ent_value m ρ c (hr c)), (h c).2.1.trans (time_value m ρ c), (h c).2.2⟩)
    (run_values m ρ)

end Cert.KernelIdeal.KValue

end
-- ==== Proof.RefMsg.lean ====
import proofs.«423962_j4561255268668_3_alg».proof.Proof.Gen.ReferenceIdeal.Run
import proofs.«423962_j4561255268668_3_alg».proof.Proof.Gen.ReferenceIdeal.Read
import proofs.«423962_j4561255268668_3_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.ReferenceIdeal.RefMsg

open Cert.ReferenceIdeal Cert.ReferenceIdeal.Gen Idealize.ShloMosaic Idealize.SL.Sem
open Idealize.ShloMosaic.ValueIdx

/-! ## A gather of whole rows

A table `[N, C]` gathered at a column `[R, 1]` of index words, one row per word: the result's element `(e, j)` is the
table's element `(r, j)`, `r` the word `e` read signed and clamped into `0 … N - 1`. -/

/-- The dimension numbers of a gather of whole rows. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- A gather of whole rows at `(e, j)`: the row coordinate is the clamped start index (no batch part, no offset on the
    collapsed axis), the column coordinate is the offset `j` (no start on an axis the index vector does not name). -/
theorem gather_rows_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N R C wf) x idx (ix2 e j)
      = x (ix2 ⟨min (idx (ix2 e 0)).toInt.toNat (N - 1), by omega⟩ j) := by
  unfold Host.gather
  refine congrArg x (funext fun a => Fin.ext ?_)
  match a with
  | ⟨0, _⟩ =>
    show (rowDims N R C wf).start (ix2 e j) idx 0 + (rowDims N R C wf).batchCoord (ix2 e j) 0
      + (rowDims N R C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e j) ⟨List.idxOf (0 : Fin 2) (rowDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N R C wf).start (ix2 e j) idx 1 + (rowDims N R C wf).batchCoord (ix2 e j) 1
      + (rowDims N R C wf).offCoord (ix2 e j) 1 = j.val
    rw [GatherDims.batchCoord_eq_zero _ _ _ List.not_mem_nil]
    unfold GatherDims.start
    rw [dif_neg (show ¬ (1 : Fin 2) ∈ (rowDims N R C wf).startIndexMap from (by decide : (1 : Fin 2) ∉ ([0] : List (Fin 2))))]
    unfold GatherDims.offCoord
    rw [dif_pos (show (1 : Fin 2) ∈ (rowDims N R C wf).sKept from (GatherDims.mem_sKept _ _).mpr
      ⟨(by decide : (1 : Fin 2) ∉ ([0] : List (Fin 2))), List.not_mem_nil⟩)]
    simp only [Nat.zero_add, Nat.add_zero]
    rfl

/-! ## A sum over 320 columns in three parts -/

/-- `320 = (128 + 128) + 64`: a sum over the 320 columns is the sum of the sums over the three blocks. -/
theorem sum_split3 {M : Type} [AddCommMonoid M] (f : Fin 320 → M) :
    ∑ k : Fin 320, f k = ∑ k : Fin 128, f ⟨k.val, by omega⟩ + ∑ k : Fin 128, f ⟨128 + k.val, by omega⟩
      + ∑ k : Fin 64, f ⟨256 + k.val, by omega⟩ := by
  have h1 := Fin.sum_univ_add (a := 256) (b := 64) f
  have h2 := Fin.sum_univ_add (a := 128) (b := 128) (fun i : Fin 256 => f (Fin.castAdd 64 i))
  rw [h1, h2]
  rfl

/-! ## Three pieces joined along the columns -/

section Concat
variable {α : Type} {R a b c n : Nat}
  (y1 : (⟨2, ![R, a]⟩ : Shape).Idx → α) (y2 : (⟨2, ![R, b]⟩ : Shape).Idx → α) (y3 : (⟨2, ![R, c]⟩ : Shape).Idx → α)
  (hc : Shape.Concatenates [(⟨2, ![R, a]⟩ : Shape), ⟨2, ![R, b]⟩, ⟨2, ![R, c]⟩] ⟨2, ![R, n]⟩ 1)

/-- A column below `a` lies in the first piece. -/
theorem concat3_fst (e : Fin R) (k : Fin a) (hk : k.val < n) :
    concatenate ⟨2, ![R, n]⟩ 1 [⟨⟨2, ![R, a]⟩, y1⟩, ⟨⟨2, ![R, b]⟩, y2⟩, ⟨⟨2, ![R, c]⟩, y3⟩] hc (ix2 e ⟨k.val, hk⟩)
      = y1 (ix2 e k) :=
  concatenate_apply_piece (t := ⟨2, ![R, n]⟩) 1 [⟨⟨2, ![R, a]⟩, y1⟩, ⟨⟨2, ![R, b]⟩, y2⟩, ⟨⟨2, ![R, c]⟩, y3⟩] hc (ix2 e ⟨k.val, hk⟩) 0 (by simp) _ y1 rfl rfl 0 rfl (ix2 e k)
    (fun d hd => by
      match d with
      | ⟨0, _⟩ => rfl
      | ⟨1, _⟩ => exact absurd rfl hd)
    (Nat.zero_add _)

/-- A column `a + k`, `k` below `b`, lies in the second piece, at its column `k`. -/
theorem concat3_snd (e : Fin R) (k : Fin b) (hk : a + k.val < n) :
    concatenate ⟨2, ![R, n]⟩ 1 [⟨⟨2, ![R, a]⟩, y1⟩, ⟨⟨2, ![R, b]⟩, y2⟩, ⟨⟨2, ![R, c]⟩, y3⟩] hc (ix2 e ⟨a + k.val, hk⟩)
      = y2 (ix2 e k) :=
  concatenate_apply_piece (t := ⟨2, ![R, n]⟩) 1 [⟨⟨2, ![R, a]⟩, y1⟩, ⟨⟨2, ![R, b]⟩, y2⟩, ⟨⟨2, ![R, c]⟩, y3⟩] hc (ix2 e ⟨a + k.val, hk⟩) 1 (by simp) _ y2 rfl rfl a (by simp) (ix2 e k)
    (fun d hd => by
      match d with
      | ⟨0, _⟩ => rfl
      | ⟨1, _⟩ => exact absurd rfl hd)
    rfl

/-- A column `a + b + k`, `k` below `c`, lies in the third piece, at its column `k`. -/
theorem concat3_thd (e : Fin R) (k : Fin c) (hk : a + b + k.val < n) :
    concatenate ⟨2, ![R, n]⟩ 1 [⟨⟨2, ![R, a]⟩, y1⟩, ⟨⟨2, ![R, b]⟩, y2⟩, ⟨⟨2, ![R, c]⟩, y3⟩] hc (ix2 e ⟨a + b + k.val, hk⟩)
      = y3 (ix2 e k) :=
  concatenate_apply_piece (t := ⟨2, ![R, n]⟩) 1 [⟨⟨2, ![R, a]⟩, y1⟩, ⟨⟨2, ![R, b]⟩, y2⟩, ⟨⟨2, ![R, c]⟩, y3⟩] hc (ix2 e ⟨a + b + k.val, hk⟩) 2 (by simp) _ y3 rfl rfl (a + b) (by simp) (ix2 e k)
    (fun d hd => by
      match d with
      | ⟨0, _⟩ => rfl
      | ⟨1, _⟩ => exact absurd rfl hd)
    rfl

end Concat

/-- Row `e` of three pieces `[R, 128]`, `[R, 128]`, `[R, 64]` joined along the columns, against row `j` of a `[128, 320]`
    weight: the three pieces' rows against the weight's three column blocks. -/
theorem concat_dot {R : Nat} (y1 y2 : Cert.Spec.Mat R 128) (y3 : Cert.Spec.Mat R 64)
    (hc : Shape.Concatenates [(⟨2, ![R, 128]⟩ : Shape), ⟨2, ![R, 128]⟩, ⟨2, ![R, 64]⟩] ⟨2, ![R, 320]⟩ 1)
    (W : Cert.Spec.Mat 128 320) (e : Fin R) (j : Fin 128) :
    ∑ k : Fin 320, concatenate ⟨2, ![R, 320]⟩ 1 [⟨⟨2, ![R, 128]⟩, y1⟩, ⟨⟨2, ![R, 128]⟩, y2⟩, ⟨⟨2, ![R, 64]⟩, y3⟩] hc (ix2 e k) * W (ix2 j k)
      = ∑ k : Fin 128, y1 (ix2 e k) * W (ix2 j ⟨0 + k.val, by omega⟩)
        + ∑ k : Fin 128, y2 (ix2 e k) * W (ix2 j ⟨128 + k.val, by omega⟩)
        + ∑ k : Fin 64, y3 (ix2 e k) * W (ix2 j ⟨256 + k.val, by omega⟩) := by
  rw [sum_split3]
  refine congrArg₂ (· + ·) (congrArg₂ (· + ·) ?_ ?_) ?_
  · refine Finset.sum_congr rfl fun k _ => ?_
    exact congrArg₂ (· * ·) (concat3_fst y1 y2 y3 hc e k (by omega))
      (congrArg W (congrArg (ix2 j) (Fin.ext (Nat.zero_add _).symm)))
  · refine Finset.sum_congr rfl fun k _ => ?_
    exact congrArg₂ (· * ·) (concat3_snd y1 y2 y3 hc e k (by omega)) rfl
  · refine Finset.sum_congr rfl fun k _ => ?_
    exact congrArg₂ (· * ·) (concat3_thd y1 y2 y3 hc e k (by omega)) rfl

/-! ## Index words -/

/-- A word below `2 ^ 31` is not negative, so the wrap-around `b < 0 ? b + n : b` leaves it. -/
theorem wrap_id (b n : BitVec 32) (hb : b.toNat < 2 ^ 31) :
    Scalar.select (IntOp.cmpi .slt b 0#32) (IntOp.addi b n) b = b := by
  have h0 : IntOp.cmpi .slt b 0#32 = 0#1 := eq_zero_of_ne_one fun h => by
    have := (StableHlo.Predicate.slt_iff_toNat hb (by decide)).mp h
    simp at this
  rw [h0, select_zero]

/-- Four summands in the two programs' orders. -/
theorem add_order {M : Type} [AddCommMonoid M] (A B C b : M) : A + B + C + b = A + b + B + C := by
  rw [add_right_comm (A + B) C b, add_right_comm A B b]

/-! ## The reference's index columns, gathers and mask at an edge -/

section Program
variable (x0 : FVec Ideal S50000x128 .f32) (x1 : FVec Ideal S500x128 .f32) (x2 : FVec Ideal S365x64 .f32)
  (x11 x13 x14 x15 : IVec S500000 32) (e : Fin 500000)

/-- The relation index column at edge `e` is the word `b_rel e`: in range, it is not wrapped. -/
theorem col_rel (hb : (x13 (ix1 e)).toNat < 2 ^ 31) :
    Read.val_main_v5 (F := Ideal) x13 (ix2 e 0) = x13 (ix1 e) := by
  have hi : Read.idx_main_v5 (ix2 e (0 : Fin 1)) = ix1 e := funext fun a => by
    match a with
    | ⟨0, _⟩ => rfl
  rw [Read.val_main_v5_apply, hi, Read.val_main_v4_apply, Read.val_main_v1_apply, Read.val_main_v3_apply,
    Read.val_main_v0_apply, Read.val_main_c_apply]
  exact wrap_id _ _ hb

/-- The entity index column at edge `e` is the word `src e`. -/
theorem col_ent (hb : (x11 (ix1 e)).toNat < 2 ^ 31) :
    Read.val_main_v12 (F := Ideal) x11 (ix2 e 0) = x11 (ix1 e) := by
  have hi : Read.idx_main_v12 (ix2 e (0 : Fin 1)) = ix1 e := funext fun a => by
    match a with
    | ⟨0, _⟩ => rfl
  rw [Read.val_main_v12_apply, hi, Read.val_main_v11_apply, Read.val_main_v8_apply, Read.val_main_v10_apply,
    Read.val_main_v7_apply, Read.val_main_c_1_apply]
  exact wrap_id _ _ hb

/-- The time index column at edge `e` is the word `time_idx e`. -/
theorem col_tim (hb : (x14 (ix1 e)).toNat < 2 ^ 31) :
    Read.val_main_v19 (F := Ideal) x14 (ix2 e 0) = x14 (ix1 e) := by
  have hi : Read.idx_main_v19 (ix2 e (0 : Fin 1)) = ix1 e := funext fun a => by
    match a with
    | ⟨0, _⟩ => rfl
  rw [Read.val_main_v19_apply, hi, Read.val_main_v18_apply, Read.val_main_v15_apply, Read.val_main_v17_apply,
    Read.val_main_v14_apply, Read.val_main_c_3_apply]
  exact wrap_id _ _ hb

/-- The gathered relation row of edge `e` is the row of `rel` its word names. -/
theorem rel_row (hb : (x13 (ix1 e)).toNat < 2 ^ 31) (k : Fin 128) :
    Read.val_main_v6 (F := Ideal) x1 x13 (ix2 e k)
      = x1 (ix2 (Cert.Spec.rowOf 500 (by decide) (x13 (ix1 e))) k) := by
  have hg := gather_rows_apply (N := 500) (R := 500000) (C := 128) (by decide)
    Facts₀.gather_S500x128_S500000x1_S500000x128_1_0_n_n_0_1_1128_wf x1 (Read.val_main_v5 (F := Ideal) x13) e k
  refine hg.trans (congrArg (fun r => x1 (ix2 r k)) (Fin.ext ?_))
  show min (Read.val_main_v5 (F := Ideal) x13 (ix2 e 0)).toInt.toNat (500 - 1) = min (x13 (ix1 e)).toInt.toNat (500 - 1)
  rw [col_rel x13 e hb]

/-- The gathered entity row of edge `e` is the row of `ent` its word names. -/
theorem ent_row (hb : (x11 (ix1 e)).toNat < 2 ^ 31) (k : Fin 128) :
    Read.val_main_v13 (F := Ideal) x0 x11 (ix2 e k)
      = x0 (ix2 (Cert.Spec.rowOf 50000 (by decide) (x11 (ix1 e))) k) := by
  have hg := gather_rows_apply (N := 50000) (R := 500000) (C := 128) (by decide)
    Facts₀.gather_S50000x128_S500000x1_S500000x128_1_0_n_n_0_1_1128_wf x0 (Read.val_main_v12 (F := Ideal) x11) e k
  refine hg.trans (congrArg (fun r => x0 (ix2 r k)) (Fin.ext ?_))
  show min (Read.val_main_v12 (F := Ideal) x11 (ix2 e 0)).toInt.toNat (50000 - 1) = min (x11 (ix1 e)).toInt.toNat (50000 - 1)
  rw [col_ent x11 e hb]

/-- The gathered time row of edge `e` is the row of `time` its word names. -/
theorem tim_row (hb : (x14 (ix1 e)).toNat < 2 ^ 31) (k : Fin 64) :
    Read.val_main_v20 (F := Ideal) x2 x14 (ix2 e k)
      = x2 (ix2 (Cert.Spec.rowOf 365 (by decide) (x14 (ix1 e))) k) := by
  have hg := gather_rows_apply (N := 365) (R := 500000) (C := 64) (by decide)
    Facts₀.gather_S365x64_S500000x1_S500000x64_1_0_n_n_0_1_164_wf x2 (Read.val_main_v19 (F := Ideal) x14) e k
  refine hg.trans (congrArg (fun r => x2 (ix2 r k)) (Fin.ext ?_))
  show min (Read.val_main_v19 (F := Ideal) x14 (ix2 e 0)).toInt.toNat (365 - 1) = min (x14 (ix1 e)).toInt.toNat (365 - 1)
  rw [col_tim x14 e hb]

/-- The concatenated row of edge `e` against row `j` of a weight: the three tables' rows against the weight's three
    column blocks. -/
theorem row_sum (W : FVec Ideal S128x320 .f32) (h11 : (x11 (ix1 e)).toNat < 2 ^ 31) (h13 : (x13 (ix1 e)).toNat < 2 ^ 31)
    (h14 : (x14 (ix1 e)).toNat < 2 ^ 31) (j : Fin 128) :
    ∑ k : Fin 320, Read.val_main_v21 (F := Ideal) x0 x1 x2 x11 x13 x14 (ix2 e k) * W (ix2 j k)
      = Cert.Spec.dotRow x1 W 0 (by decide) (Cert.Spec.rowOf 500 (by decide) (x13 (ix1 e))) j
        + Cert.Spec.dotRow x0 W 128 (by decide) (Cert.Spec.rowOf 50000 (by decide) (x11 (ix1 e))) j
        + Cert.Spec.dotRow x2 W 256 (by decide) (Cert.Spec.rowOf 365 (by decide) (x14 (ix1 e))) j := by
  unfold Read.val_main_v21
  refine (concat_dot (R := 500000) (Read.val_main_v6 (F := Ideal) x1 x13) (Read.val_main_v13 (F := Ideal) x0 x11)
    (Read.val_main_v20 (F := Ideal) x2 x14) Facts₀.concatenates_S500000x128_S500000x128_S500000x64_S500000x320_d1 W e j).trans ?_
  unfold Cert.Spec.dotRow
  refine congrArg₂ (· + ·) (congrArg₂ (· + ·) ?_ ?_) ?_
  · exact Finset.sum_congr rfl fun k _ => congrArg (· * _) (rel_row x1 x13 e h13 k)
  · exact Finset.sum_congr rfl fun k _ => congrArg (· * _) (ent_row x0 x11 e h11 k)
  · exact Finset.sum_congr rfl fun k _ => congrArg (· * _) (tim_row x2 x14 e h14 k)

/-- The first product at `(e, j)`: the concatenated row of `e` against row `j` of `W_I` (the transpose read back). -/
theorem v23_row (x3 : FVec Ideal S128x320 .f32) (j : Fin 128) :
    Read.val_main_v23 (F := Ideal) x0 x1 x2 x3 x11 x13 x14 (ix2 e j)
      = ∑ k : Fin 320, Read.val_main_v21 (F := Ideal) x0 x1 x2 x11 x13 x14 (ix2 e k) * x3 (ix2 j k) := by
  rw [Read.val_main_v23_apply]
  refine Finset.sum_congr rfl fun k _ => ?_
  have hl : Read.lidx_main_v23 (ix2 e j) k = ix2 e k := funext fun a => by
    match a with
    | ⟨0, _⟩ => rfl
    | ⟨1, _⟩ => rfl
  have hr : Read.idx_main_v22 (Read.ridx_main_v23 (ix2 e j) k) = ix2 j k := funext fun a => by
    match a with
    | ⟨0, _⟩ => rfl
    | ⟨1, _⟩ => rfl
  rw [Read.val_main_v22_apply, hl, hr]

/-- The second product at `(e, j)`: the same row against row `j` of `W_O`. -/
theorem v28_row (x5 : FVec Ideal S128x320 .f32) (j : Fin 128) :
    Read.val_main_v28 (F := Ideal) x0 x1 x2 x5 x11 x13 x14 (ix2 e j)
      = ∑ k : Fin 320, Read.val_main_v21 (F := Ideal) x0 x1 x2 x11 x13 x14 (ix2 e k) * x5 (ix2 j k) := by
  rw [Read.val_main_v28_apply]
  refine Finset.sum_congr rfl fun k _ => ?_
  have hl : Read.lidx_main_v28 (ix2 e j) k = ix2 e k := funext fun a => by
    match a with
    | ⟨0, _⟩ => rfl
    | ⟨1, _⟩ => rfl
  have hr : Read.idx_main_v27 (Read.ridx_main_v28 (ix2 e j) k) = ix2 j k := funext fun a => by
    match a with
    | ⟨0, _⟩ => rfl
    | ⟨1, _⟩ => rfl
  rw [Read.val_main_v27_apply, hl, hr]

/-- The first bias, broadcast over the edges, at `(e, j)` is `b_I j`. -/
theorem v25_row (x4 : FVec Ideal S128 .f32) (j : Fin 128) :
    Read.val_main_v25 (F := Ideal) x4 (ix2 e j) = x4 (ix1 j) := by
  have hi : Read.idx_main_v24 (Read.idx_main_v25 (ix2 e j)) = ix1 j := funext fun a => by
    match a with
    | ⟨0, _⟩ => rfl
  rw [Read.val_main_v25_apply, Read.val_main_v24_apply, hi]

/-- The second bias at `(e, j)` is `b_O j`. -/
theorem v30_row (x6 : FVec Ideal S128 .f32) (j : Fin 128) :
    Read.val_main_v30 (F := Ideal) x6 (ix2 e j) = x6 (ix1 j) := by
  have hi : Read.idx_main_v29 (Read.idx_main_v30 (ix2 e j)) = ix1 j := funext fun a => by
    match a with
    | ⟨0, _⟩ => rfl
  rw [Read.val_main_v30_apply, Read.val_main_v29_apply, hi]

/-- The mask at `(e, j)` is the comparison of `inv e` with zero. -/
theorem mask_row (j : Fin 128) :
    Read.val_main_call0_v0 (F := Ideal) x15 (ix2 e j) = IntOp.cmpi .eq (x15 (ix1 e)) 0#32 := by
  have hi : Read.idx_main_v34 (Read.idx_main_call0_v0 (ix2 e j)) = ix1 e := funext fun a => by
    match a with
    | ⟨0, _⟩ => rfl
  rw [Read.val_main_call0_v0_apply, Read.val_main_v34_apply, hi, Read.val_main_v33_apply, Read.val_main_v32_apply,
    Read.val_main_c_5_apply]

/-- The `inv = 0` branch at `(e, j)`: the three rows against `W_I`'s blocks, and `b_I j`. -/
theorem v26_row (x3 : FVec Ideal S128x320 .f32) (x4 : FVec Ideal S128 .f32) (h11 : (x11 (ix1 e)).toNat < 2 ^ 31)
    (h13 : (x13 (ix1 e)).toNat < 2 ^ 31) (h14 : (x14 (ix1 e)).toNat < 2 ^ 31) (j : Fin 128) :
    Read.val_main_v26 (F := Ideal) x0 x1 x2 x3 x4 x11 x13 x14 (ix2 e j)
      = (Cert.Spec.dotRow x1 x3 0 (by decide) (Cert.Spec.rowOf 500 (by decide) (x13 (ix1 e))) j + x4 (ix1 j))
        + Cert.Spec.dotRow x0 x3 128 (by decide) (Cert.Spec.rowOf 50000 (by decide) (x11 (ix1 e))) j
        + Cert.Spec.dotRow x2 x3 256 (by decide) (Cert.Spec.rowOf 365 (by decide) (x14 (ix1 e))) j := by
  rw [Read.val_main_v26_apply, Ideal.addf_def, v23_row, v25_row, row_sum x0 x1 x2 x11 x13 x14 e x3 h11 h13 h14 j]
  exact add_order _ _ _ _

/-- The other branch: the same with `W_O` and `b_O`. -/
theorem v31_row (x5 : FVec Ideal S128x320 .f32) (x6 : FVec Ideal S128 .f32) (h11 : (x11 (ix1 e)).toNat < 2 ^ 31)
    (h13 : (x13 (ix1 e)).toNat < 2 ^ 31) (h14 : (x14 (ix1 e)).toNat < 2 ^ 31) (j : Fin 128) :
    Read.val_main_v31 (F := Ideal) x0 x1 x2 x5 x6 x11 x13 x14 (ix2 e j)
      = (Cert.Spec.dotRow x1 x5 0 (by decide) (Cert.Spec.rowOf 500 (by decide) (x13 (ix1 e))) j + x6 (ix1 j))
        + Cert.Spec.dotRow x0 x5 128 (by decide) (Cert.Spec.rowOf 50000 (by decide) (x11 (ix1 e))) j
        + Cert.Spec.dotRow x2 x5 256 (by decide) (Cert.Spec.rowOf 365 (by decide) (x14 (ix1 e))) j := by
  rw [Read.val_main_v31_apply, Ideal.addf_def, v28_row, v30_row, row_sum x0 x1 x2 x11 x13 x14 e x5 h11 h13 h14 j]
  exact add_order _ _ _ _

end Program

/-- The reference's message of every edge: the concatenated row of the three gathered embedding rows against the
    transposed weight, plus the bias, of the pair `inv = 0` selects; the sum over the 320 concatenated columns is the sum
    of the three tables' sums. -/
theorem msg_eq (x0 : FVec Ideal S50000x128 .f32) (x1 : FVec Ideal S500x128 .f32) (x2 : FVec Ideal S365x64 .f32)
    (x3 : FVec Ideal S128x320 .f32) (x4 : FVec Ideal S128 .f32) (x5 : FVec Ideal S128x320 .f32) (x6 : FVec Ideal S128 .f32)
    (x11 x13 x14 x15 : IVec S500000 32) (h : Cert.Spec.InRange x11 x13 x14 x15) :
    Read.val_main_v35 (F := Ideal) x0 x1 x2 x3 x4 x5 x6 x11 x13 x14 x15
      = Cert.Spec.msgSpec x1 x0 x2 x3 x4 x5 x6 x11 x13 x14 x15 := by
  funext i
  obtain ⟨e, j, rfl⟩ : ∃ e j, i = ix2 e j := ⟨i 0, i 1, eq_ix2 i⟩
  have h11 : (x11 (ix1 e)).toNat < 2 ^ 31 := lt_trans (h.src _) (by decide)
  have h13 : (x13 (ix1 e)).toNat < 2 ^ 31 := lt_trans (h.b_rel _) (by decide)
  have h14 : (x14 (ix1 e)).toNat < 2 ^ 31 := lt_trans (h.time_idx _) (by decide)
  rw [Read.val_main_v35_apply, mask_row]
  show _ = (Cert.Spec.dotRow x1 (if x15 (ix1 e) = 0#32 then x3 else x5) 0 (by decide) (Cert.Spec.rowOf 500 (by decide) (x13 (ix1 e))) j
      + (if x15 (ix1 e) = 0#32 then x4 else x6) (ix1 j))
    + Cert.Spec.dotRow x0 (if x15 (ix1 e) = 0#32 then x3 else x5) 128 (by decide) (Cert.Spec.rowOf 50000 (by decide) (x11 (ix1 e))) j
    + Cert.Spec.dotRow x2 (if x15 (ix1 e) = 0#32 then x3 else x5) 256 (by decide) (Cert.Spec.rowOf 365 (by decide) (x14 (ix1 e))) j
  rcases h.inv (ix1 e) with h0 | h1
  · have hc : IntOp.cmpi .eq (x15 (ix1 e)) 0#32 = 1#1 := StableHlo.Predicate.cmpi_eq_iff.mpr h0
    rw [hc, select_one, if_pos h0, if_pos h0]
    exact v26_row x0 x1 x2 x11 x13 x14 e x3 x4 h11 h13 h14 j
  · have hne : ¬ x15 (ix1 e) = 0#32 := by rw [h1]; decide
    have hc : IntOp.cmpi .eq (x15 (ix1 e)) 0#32 = 0#1 :=
      eq_zero_of_ne_one fun hh => hne (StableHlo.Predicate.cmpi_eq_iff.mp hh)
    rw [hc, select_zero, if_neg hne, if_neg hne]
    exact v31_row x0 x1 x2 x11 x13 x14 e x5 x6 h11 h13 h14 j

end Cert.ReferenceIdeal.RefMsg

end
-- ==== Proof.RefValue.lean ====
import proofs.«423962_j4561255268668_3_alg».proof.Proof.Gen.ReferenceIdeal.Run
import proofs.«423962_j4561255268668_3_alg».proof.Proof.Gen.ReferenceIdeal.Read
import proofs.«423962_j4561255268668_3_alg».proof.Proof.RefMsg
import proofs.«423962_j4561255268668_3_alg».proof.Proof.HostDefs
import proofs.«423962_j4561255268668_3_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.ReferenceIdeal.RefValue

open Cert.ReferenceIdeal Cert.ReferenceIdeal.Gen Idealize.ShloMosaic Idealize.SL.Sem
open Idealize.ShloMosaic.ValueIdx

/-- The reference's time update is `time W_Tᵀ + b_T`. -/
theorem time_eq (x2 : FVec Ideal S365x64 .f32) (x9 : FVec Ideal S64x64 .f32) (x10 : FVec Ideal S64 .f32) :
    Read.val_main_v58 (F := Ideal) x2 x9 x10 = Cert.Spec.timeUpd x2 (Cert.Spec.transp x9) (Cert.Spec.row1 x10) := by
  funext i
  rw [Read.val_main_v58_apply, Read.val_main_v55_apply, Read.val_main_v57_apply, Read.val_main_v56_apply]
  simp only [Read.val_main_v54_apply, Ideal.addf_def]
  -- the composed index maps are the coordinates: row of `time`, row of `W_T`, entry of `b_T`
  have e1 : ∀ k : Fin 64, Read.lidx_main_v55 i k = (ix2 (i 0) k : S365x64.Idx) := fun k => funext fun a => by
    match a with
    | ⟨0, _⟩ => rfl
    | ⟨1, _⟩ => rfl
  have e2 : ∀ k : Fin 64, Read.idx_main_v54 (Read.ridx_main_v55 i k) = (ix2 (i 1) k : S64x64.Idx) := fun k => funext fun a => by
    match a with
    | ⟨0, _⟩ => rfl
    | ⟨1, _⟩ => rfl
  have e3 : Read.idx_main_v56 (Read.idx_main_v57 i) = (ix1 (i 1) : S64.Idx) := funext fun a => by
    match a with
    | ⟨0, _⟩ => rfl
  simp only [e1, e2, e3]
  rfl

/-- The reference's per-node sums are the scatter-add, along `dst` into zeros, of its messages: the same scatter, written over
    the other program's shape records, whose fields are the same lists. -/
theorem sums_eq (x0 : FVec Ideal S50000x128 .f32) (x1 : FVec Ideal S500x128 .f32) (x2 : FVec Ideal S365x64 .f32)
    (x3 : FVec Ideal S128x320 .f32) (x4 : FVec Ideal S128 .f32) (x5 : FVec Ideal S128x320 .f32) (x6 : FVec Ideal S128 .f32)
    (x11 x12 x13 x14 x15 : IVec S500000 32) :
    Read.val_main_v38 (F := Ideal) x0 x1 x2 x3 x4 x5 x6 x11 x12 x13 x14 x15
      = Cert.KernelIdeal.HostDefs.sumsOf (Read.val_main_v35 (F := Ideal) x0 x1 x2 x3 x4 x5 x6 x11 x13 x14 x15) x12 := rfl

/-- The reference's per-node counts are the scatter-add of ones along `dst` into zeros. -/
theorem cnt_eq (x12 : IVec S500000 32) :
    Read.val_main_v42 (F := Ideal) x12 = Cert.KernelIdeal.HostDefs.cntOf x12 := rfl

/-- The counts as a one-column matrix, read at row `n`: the vector at `n` (the two have the same row-major position). -/
theorem cntCol_apply (x12 : IVec S500000 32) (n : Fin 50000) :
    Cert.KernelIdeal.HostDefs.cntCol x12 (ix2 n 0) = Cert.KernelIdeal.HostDefs.cntOf x12 (ix1 n) := by
  unfold Cert.KernelIdeal.HostDefs.cntCol
  refine shapeCast_apply _ _ _ _ ?_
  rw [Shape.rowMajor_val_one, Shape.rowMajor_val_two]
  show n.val = n.val * 1 + 0
  omega

/-- The reference's node update, with every index in range and `inv` a bit: the sum over the 320 concatenated columns
    splits into the three tables' sums, and the select on `inv = 0` picks the weight and bias of the message. -/
theorem ent_eq (x0 : FVec Ideal S50000x128 .f32) (x1 : FVec Ideal S500x128 .f32) (x2 : FVec Ideal S365x64 .f32)
    (x3 : FVec Ideal S128x320 .f32) (x4 : FVec Ideal S128 .f32) (x5 : FVec Ideal S128x320 .f32) (x6 : FVec Ideal S128 .f32)
    (x7 : FVec Ideal S128x128 .f32) (x8 : FVec Ideal S128 .f32) (x11 x12 x13 x14 x15 : IVec S500000 32)
    (h : Cert.Spec.InRange x11 x13 x14 x15) :
    Read.val_main_v53 (F := Ideal) x0 x1 x2 x3 x4 x5 x6 x7 x8 x11 x12 x13 x14 x15
      = Cert.Spec.nodeUpd x0
          (Cert.KernelIdeal.HostDefs.sumsOf (Cert.Spec.msgSpec x1 x0 x2 x3 x4 x5 x6 x11 x13 x14 x15) x12)
          (Cert.KernelIdeal.HostDefs.cntCol x12) (Cert.Spec.transp x7) (Cert.Spec.row1 x8) := by
  funext i
  rw [Read.val_main_v53_apply, Read.val_main_v52_apply, Read.val_main_v49_apply, Read.val_main_v51_apply,
    Read.val_main_v50_apply, Read.val_main_v47_apply, Read.val_main_v46_apply, Read.val_main_v45_apply,
    Read.val_main_v44_apply, Read.val_main_v43_apply, Read.val_main_cst_8_apply,
    sums_eq, RefMsg.msg_eq x0 x1 x2 x3 x4 x5 x6 x11 x13 x14 x15 h, cnt_eq]
  simp only [Read.val_main_v48_apply, Ideal.addf_def, Ideal.hostDivf_def, Ideal.maximumf_def, Ideal.ofBits_def]
  -- the composed index maps are the coordinates: row of `ent`, row of `W_S`, entry of `b_S`, entry of the counts
  have e1 : ∀ k : Fin 128, Read.lidx_main_v49 i k = (ix2 (i 0) k : S50000x128.Idx) := fun k => funext fun a => by
    match a with
    | ⟨0, _⟩ => rfl
    | ⟨1, _⟩ => rfl
  have e2 : ∀ k : Fin 128, Read.idx_main_v48 (Read.ridx_main_v49 i k) = (ix2 (i 1) k : S128x128.Idx) := fun k => funext fun a => by
    match a with
    | ⟨0, _⟩ => rfl
    | ⟨1, _⟩ => rfl
  have e3 : Read.idx_main_v50 (Read.idx_main_v51 i) = (ix1 (i 1) : S128.Idx) := funext fun a => by
    match a with
    | ⟨0, _⟩ => rfl
  have e4 : Read.idx_main_v45 (Read.idx_main_v46 i) = (ix1 (i 0) : S50000.Idx) := funext fun a => by
    match a with
    | ⟨0, _⟩ => rfl
  simp only [e1, e2, e3, e4]
  unfold Cert.Spec.nodeUpd
  rw [cntCol_apply x12 (i 0)]
  rfl

end Cert.ReferenceIdeal.RefValue

end
-- ==== Proof.PreDecode.lean ====
import proofs.«423962_j4561255268668_3_alg».proof.Pre_finite_inputs
import proofs.«423962_j4561255268668_3_alg».proof.Proof.Gen.Pre_finite_inputs
import proofs.«423962_j4561255268668_3_alg».proof.Proof.Spec
import Idealize.ShloMosaic.Lib.ReduceAll
import Idealize.ShloMosaic.Lib.Affine
import Idealize.ShloMosaic.Lib.StableHlo.Predicate
import Idealize.ShloMosaic.Lib.ValueIdx

/-! The precondition, read: its last four conjuncts say that every entry of `src`, `b_rel`, `time_idx` is a row number of
    the table it indexes and that every entry of `inv` is `0` or `1`. -/

noncomputable section

namespace Cert.PreDecode

open Cert.Pre_finite_inputs Idealize.ShloMosaic Idealize.ShloMosaic.ValueIdx Idealize.ShloMosaic.StableHlo.Predicate

instance : Subsingleton S_.Idx := ⟨fun a b => funext fun d => d.elim0⟩

/-- A word that is nonnegative and below a small bound as a signed number is below the bound as an unsigned one. -/
theorem toNat_lt_of_range (x N : BitVec 32) (hN : N.toNat < 2 ^ 31) (h0 : IntOp.cmpi .sge x 0#32 = 1#1)
    (h1 : IntOp.cmpi .slt x N = 1#1) : x.toNat < N.toNat := by
  unfold IntOp.cmpi at h0 h1
  rw [ofBool_eq_one_iff] at h0 h1
  simp only [BitVec.sle, BitVec.slt, decide_eq_true_eq] at h0 h1
  have hNi : N.toInt = N.toNat := toInt_eq_toNat_of_lt hN
  have h00 : (0#32 : BitVec 32).toInt = 0 := by decide
  have hx := BitVec.toInt_eq_toNat_cond x
  have hlt := x.isLt
  split at hx <;> omega

/-- A word equal to `0` or to `1` by the two printed compares. -/
theorem bit_of_eqs (x : BitVec 32) (h : IntOp.ori (IntOp.cmpi .eq x 0#32) (IntOp.cmpi .eq x 1#32) = 1#1) : x = 0#32 ∨ x = 1#32 := by
  rcases IntOp.ori_eq_one.mp h with h | h
  · exact Or.inl (cmpi_eq_iff.mp h)
  · exact Or.inr (cmpi_eq_iff.mp h)

/-- The printed precondition implies the index ranges. -/
theorem inRange {F : FTy → Type} [FloatOps F] (main_arg0 : FVec F S50000x128 .f32) (main_arg1 : FVec F S500x128 .f32) (main_arg2 : FVec F S365x64 .f32) (main_arg3 : FVec F S128x320 .f32) (main_arg4 : FVec F S128 .f32) (main_arg5 : FVec F S128x320 .f32) (main_arg6 : FVec F S128 .f32) (main_arg7 : FVec F S128x128 .f32) (main_arg8 : FVec F S128 .f32) (main_arg9 : FVec F S64x64 .f32) (main_arg10 : FVec F S64 .f32) (main_arg11 : IVec S500000 32) (main_arg12 : IVec S500000 32) (main_arg13 : IVec S500000 32) (main_arg14 : IVec S500000 32) (main_arg15 : IVec S500000 32)
    (h : fn (F := F) main_arg0 main_arg1 main_arg2 main_arg3 main_arg4 main_arg5 main_arg6 main_arg7 main_arg8 main_arg9 main_arg10 main_arg11 main_arg12 main_arg13 main_arg14 main_arg15 = fun _ => 1#1) :
    Cert.Spec.InRange main_arg11 main_arg13 main_arg14 main_arg15 := by
  have h1 : fn (F := F) main_arg0 main_arg1 main_arg2 main_arg3 main_arg4 main_arg5 main_arg6 main_arg7 main_arg8 main_arg9 main_arg10 main_arg11 main_arg12 main_arg13 main_arg14 main_arg15 ix0 = 1#1 := congrFun h ix0
  dsimp only [fn, fn_part1, fn_part2, fn_part3, fn_part4] at h1
  obtain ⟨h74, h80⟩ := IntOp.andi_eq_one.mp h1
  obtain ⟨h67, h73⟩ := IntOp.andi_eq_one.mp h74
  obtain ⟨h60, h66⟩ := IntOp.andi_eq_one.mp h67
  obtain ⟨-, h59⟩ := IntOp.andi_eq_one.mp h60
  refine ⟨fun e => ?_, fun e => ?_, fun e => ?_, fun e => ?_⟩
  · obtain ⟨g0, g1⟩ := IntOp.andi_eq_one.mp (Host.reduce_andi_all _ _ _ _ _ h59 e)
    exact toNat_lt_of_range _ 50000#32 (by decide) g0 g1
  · obtain ⟨g0, g1⟩ := IntOp.andi_eq_one.mp (Host.reduce_andi_all _ _ _ _ _ h66 e)
    exact toNat_lt_of_range _ 500#32 (by decide) g0 g1
  · obtain ⟨g0, g1⟩ := IntOp.andi_eq_one.mp (Host.reduce_andi_all _ _ _ _ _ h73 e)
    exact toNat_lt_of_range _ 365#32 (by decide) g0 g1
  · exact bit_of_eqs _ (Host.reduce_andi_all _ _ _ _ _ h80 e)

end Cert.PreDecode

end
-- ==== Proof.lean ====
/- The claim: the three frames, the empty idealization ledger, and the equality over the extended reals of the kernel's
   and the reference's two results under the precondition (every float input finite; every entry of `src`, `b_rel`,
   `time_idx` a row number of the table it indexes; every entry of `inv` equal to 0 or 1).

   The kernel projects each of the three embedding tables ONCE through the column blocks of `W_I` and `W_O` that
   belong to it (the bias folded into the relation table), stacks the two projections of a table, and gathers for edge
   `e` row `inv e · rows + idx e` of each stacked table; the reference gathers the three embedding rows, concatenates
   them into one row of 320 columns, multiplies by `W_Iᵀ` and by `W_Oᵀ`, adds the biases and selects on `inv e = 0`.
   A sum over the 320 concatenated columns is the sum of the sums over the 128, 128 and 64 columns of the pieces, and
   with `inv e` a bit and the indices in range row `inv e · rows + idx e` of a stacked table is row `idx e` of the plane
   `inv e` selects: so both programs form the same message for every edge, term by term, up to the order in which the
   four summands are added (addition of extended reals is commutative and associative; nothing here distributes or
   cancels, so finiteness is not used). The per-node sums and counts are then the same scatter-adds of the same
   arrays along `dst`, and the node and the time updates the same affine maps. -/
import proofs.«423962_j4561255268668_3_alg».proof.Defs
import proofs.«423962_j4561255268668_3_alg».proof.Proof.Gen.Kernel
import proofs.«423962_j4561255268668_3_alg».proof.Proof.Gen.Kernel.Frame
import proofs.«423962_j4561255268668_3_alg».proof.Proof.Gen.KernelIdeal
import proofs.«423962_j4561255268668_3_alg».proof.Proof.Gen.KernelIdeal.Frame
import proofs.«423962_j4561255268668_3_alg».proof.Proof.Gen.ReferenceIdeal
import proofs.«423962_j4561255268668_3_alg».proof.Proof.Gen.ReferenceIdeal.Run
import proofs.«423962_j4561255268668_3_alg».proof.Proof.Gen.ReferenceIdeal.Read
import proofs.«423962_j4561255268668_3_alg».proof.Proof.Gen.Pre_finite_inputs
import proofs.«423962_j4561255268668_3_alg».proof.Proof.KernelValue
import proofs.«423962_j4561255268668_3_alg».proof.Proof.RefValue
import proofs.«423962_j4561255268668_3_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealized kernel ends with its two result arrays at the node and the time values of its arguments; the
    reference, run from arguments that agree, ends with its two results at the same two functions. -/
theorem algebraic : Cert.algebraic_KernelIdeal_ReferenceIdeal := by
  intro m ρ m' ρ' hpre hagree
  have hr : ∀ c : Dev Cert.KernelIdeal.nD, Cert.Spec.InRange (Cert.KernelIdeal.HostK.aSrc m c) (Cert.KernelIdeal.HostK.aBRel m c)
      (Cert.KernelIdeal.HostK.aTIdx m c) (Cert.KernelIdeal.HostK.aInv m c) :=
    fun c => Cert.PreDecode.inRange _ _ _ _ _ _ _ _ _ _ _ _ _ _ _ _ (hpre c)
  refine ⟨fun c => Cert.KernelIdeal.KValue.entVal m c, fun c => Cert.KernelIdeal.KValue.timeVal m c,
    Cert.KernelIdeal.KValue.run m ρ hr, ?_⟩
  refine (θ_run Cert.ReferenceIdeal.defs _ _).mono (fun r h c => ⟨?_, ?_, (h c).2.2⟩)
    (Cert.ReferenceIdeal.Value.run (F := Ideal) m' ρ')
  · obtain ⟨e0, e1, e2, e3, e4, e5, e6, e7, e8, e9, e10, e11, e12, e13, e14, e15⟩ := hagree c
    rw [(h c).1, Cert.ReferenceIdeal.Read.val_main_v53_eq, e0, e1, e2, e3, e4, e5, e6, e7, e8, e11, e12, e13, e14, e15]
    exact Cert.ReferenceIdeal.RefValue.ent_eq _ _ _ _ _ _ _ _ _ _ _ _ _ _ (hr c)
  · obtain ⟨e0, e1, e2, e3, e4, e5, e6, e7, e8, e9, e10, e11, e12, e13, e14, e15⟩ := hagree c
    rw [(h c).2.1, Cert.ReferenceIdeal.Read.val_main_v58_eq, e2, e9, e10]
    exact Cert.ReferenceIdeal.RefValue.time_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
